-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v45_0)) (v1 : (c : Dev Cert.KernelIdeal.nD) → Buf (Elt Ideal) ((c.tc : Thread Cert.KernelIdeal.nD Cert.KernelIdeal.τ).loc Cert.KernelIdeal.main_v45_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45_0) = v0 c
          ∧ r.2.mem ((c.tc : Thread Cert.KernelIdeal.nD Cert.KernelIdeal.τ).loc Cert.KernelIdeal.main_v45_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x55 : Shape := ⟨2, ![65536, 55]⟩
abbrev S65536x30 : Shape := ⟨2, ![65536, 30]⟩
abbrev S80x256 : Shape := ⟨2, ![80, 256]⟩
abbrev S256 : Shape := ⟨1, ![256]⟩
abbrev S256x256 : Shape := ⟨2, ![256, 256]⟩
abbrev S256x4 : Shape := ⟨2, ![256, 4]⟩
abbrev S4 : Shape := ⟨1, ![4]⟩
abbrev S_ : Shape := ⟨0, ![]⟩

class Facts : Prop where
  bcast_S_S65536x55 : S_.BroadcastsInDim S65536x55 (![] : Fin 0 → Fin S65536x55.rank)
  reducesTo_S65536x55_S_d0_1 : S65536x55.ReducesTo [0, 1] S_
  h_S_ : 0 < S_.numel
  bcast_S_S65536x30 : S_.BroadcastsInDim S65536x30 (![] : Fin 0 → Fin S65536x30.rank)
  reducesTo_S65536x30_S_d0_1 : S65536x30.ReducesTo [0, 1] S_
  bcast_S_S80x256 : S_.BroadcastsInDim S80x256 (![] : Fin 0 → Fin S80x256.rank)
  reducesTo_S80x256_S_d0_1 : S80x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x4 : S_.BroadcastsInDim S256x4 (![] : Fin 0 → Fin S256x4.rank)
  reducesTo_S256x4_S_d0_1 : S256x4.ReducesTo [0, 1] S_
  bcast_S_S4 : S_.BroadcastsInDim S4 (![] : Fin 0 → Fin S4.rank)
  reducesTo_S4_S_d0 : S4.ReducesTo [0] S_

variable [Facts]

def fn_part3 {F : FTy → Type} [FloatOps F] (main_arg11 : FVec F S256x4 .f32) (main_arg12 : FVec F S4 .f32) (main_v48 : IVec S_ 1) (main_v49 : FVec F S4 .f32) (main_v50 : FVec F S4 .f32) : IVec S_ 1 :=
  let main_v51 : IVec S4 1 := cmpf .olt main_v49 main_v50
  let main_c_19 : IVec S_ 1 := constantI S_ 1 1#1
  let main_v52 : IVec S_ 1 := (fun x v => Host.reduce IntOp.andi x v reducesTo_S4_S_d0 h_S_) main_v51 main_c_19
  let main_v53 : IVec S_ 1 := andi main_v48 main_v52
  let main_v54 : FVec F S256x4 .f32 := Host.absf main_arg11
  let main_cst_20 : FVec F S_ .f32 := constant S_ .f32 0x7F800000#32
  let main_v55 : FVec F S256x4 .f32 := broadcastInDim S256x4 ![] bcast_S_S256x4 main_cst_20
  let main_v56 : IVec S256x4 1 := cmpf .olt main_v54 main_v55
  let main_c_21 : IVec S_ 1 := constantI S_ 1 1#1
  let main_v57 : IVec S_ 1 := (fun x v => Host.reduce IntOp.andi x v reducesTo_S256x4_S_d0_1 h_S_) main_v56 main_c_21
  let main_v58 : IVec S_ 1 := andi main_v53 main_v57
  let main_v59 : FVec F S4 .f32 := Host.absf main_arg12
  let main_cst_22 : FVec F S_ .f32 := constant S_ .f32 0x7F800000#32
  let main_v60 : FVec F S4 .f32 := broadcastInDim S4 ![] bcast_S_S4 main_cst_22
  let main_v61 : IVec S4 1 := cmpf .olt main_v59 main_v60
  let main_c_23 : IVec S_ 1 := constantI S_ 1 1#1
  let main_v62 : IVec S_ 1 := (fun x v => Host.reduce IntOp.andi x v reducesTo_S4_S_d0 h_S_) main_v61 main_c_23
  let main_v63 : IVec S_ 1 := andi main_v58 main_v62
  main_v63

def fn_part2 {F : FTy → Type} [FloatOps F] (main_arg7 : FVec F S256x256 .f32) (main_arg8 : FVec F S256 .f32) (main_arg9 : FVec F S256x4 .f32) (main_arg10 : FVec F S4 .f32) (main_arg11 : FVec F S256x4 .f32) (main_arg12 : FVec F S4 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x4 .f32 := Host.absf main_arg9
  let main_cst_16 : FVec F S_ .f32 := constant S_ .f32 0x7F800000#32
  let main_v45 : FVec F S256x4 .f32 := broadcastInDim S256x4 ![] bcast_S_S256x4 main_cst_16
  let main_v46 : IVec S256x4 1 := cmpf .olt main_v44 main_v45
  let main_c_17 : IVec S_ 1 := constantI S_ 1 1#1
  let main_v47 : IVec S_ 1 := (fun x v => Host.reduce IntOp.andi x v reducesTo_S256x4_S_d0_1 h_S_) main_v46 main_c_17
  let main_v48 : IVec S_ 1 := andi main_v43 main_v47
  let main_v49 : FVec F S4 .f32 := Host.absf main_arg10
  let main_cst_18 : FVec F S_ .f32 := constant S_ .f32 0x7F800000#32
  let main_v50 : FVec F S4 .f32 := broadcastInDim S4 ![] bcast_S_S4 main_cst_18
  fn_part3 (F := F) main_arg11 main_arg12 main_v48 main_v49 main_v50

def fn_part1 {F : FTy → Type} [FloatOps F] (main_arg4 : FVec F S256 .f32) (main_arg5 : FVec F S256x256 .f32) (main_arg6 : FVec F S256 .f32) (main_arg7 : FVec F S256x256 .f32) (main_arg8 : FVec F S256 .f32) (main_arg9 : FVec F S256x4 .f32) (main_arg10 : FVec F S4 .f32) (main_arg11 : FVec F S256x4 .f32) (main_arg12 : FVec F S4 .f32) (main_v13 : IVec S_ 1) (main_v16 : IVec S80x256 1) : IVec S_ 1 :=
  let main_c_5 : IVec S_ 1 := constantI S_ 1 1#1
  let main_v17 : IVec S_ 1 := (fun x v => Host.reduce IntOp.andi x v reducesTo_S80x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S65536x55 .f32) (main_arg1 : FVec F S65536x30 .f32) (main_arg2 : FVec F S65536x30 .f32) (main_arg3 : FVec F S80x256 .f32) (main_arg4 : FVec F S256 .f32) (main_arg5 : FVec F S256x256 .f32) (main_arg6 : FVec F S256 .f32) (main_arg7 : FVec F S256x256 .f32) (main_arg8 : FVec F S256 .f32) (main_arg9 : FVec F S256x4 .f32) (main_arg10 : FVec F S4 .f32) (main_arg11 : FVec F S256x4 .f32) (main_arg12 : FVec F S4 .f32) : IVec S_ 1 :=
  let main_v0 : FVec F S65536x55 .f32 := Host.absf main_arg0
  let main_cst : FVec F S_ .f32 := constant S_ .f32 0x7F800000#32
  let main_v1 : FVec F S65536x55 .f32 := broadcastInDim S65536x55 ![] bcast_S_S65536x55 main_cst
  let main_v2 : IVec S65536x55 1 := cmpf .olt main_v0 main_v1
  let main_c : IVec S_ 1 := constantI S_ 1 1#1
  let main_v3 : IVec S_ 1 := (fun x v => Host.reduce IntOp.andi x v reducesTo_S65536x55_S_d0_1 h_S_) main_v2 main_c
  let main_v4 : FVec F S65536x30 .f32 := Host.absf main_arg1
  let main_cst_0 : FVec F S_ .f32 := constant S_ .f32 0x7F800000#32
  let main_v5 : FVec F S65536x30 .f32 := broadcastInDim S65536x30 ![] bcast_S_S65536x30 main_cst_0
  let main_v6 : IVec S65536x30 1 := cmpf .olt main_v4 main_v5
  let main_c_1 : IVec S_ 1 := constantI S_ 1 1#1
  let main_v7 : IVec S_ 1 := (fun x v => Host.reduce IntOp.andi x v reducesTo_S65536x30_S_d0_1 h_S_) main_v6 main_c_1
  let main_v8 : IVec S_ 1 := andi main_v3 main_v7
  let main_v9 : FVec F S65536x30 .f32 := Host.absf main_arg2
  let main_cst_2 : FVec F S_ .f32 := constant S_ .f32 0x7F800000#32
  let main_v10 : FVec F S65536x30 .f32 := broadcastInDim S65536x30 ![] bcast_S_S65536x30 main_cst_2
  let main_v11 : IVec S65536x30 1 := cmpf .olt main_v9 main_v10
  let main_c_3 : IVec S_ 1 := constantI S_ 1 1#1
  let main_v12 : IVec S_ 1 := (fun x v => Host.reduce IntOp.andi x v reducesTo_S65536x30_S_d0_1 h_S_) main_v11 main_c_3
  let main_v13 : IVec S_ 1 := andi main_v8 main_v12
  let main_v14 : FVec F S80x256 .f32 := Host.absf main_arg3
  let main_cst_4 : FVec F S_ .f32 := constant S_ .f32 0x7F800000#32
  let main_v15 : FVec F S80x256 .f32 := broadcastInDim S80x256 ![] bcast_S_S80x256 main_cst_4
  let main_v16 : IVec S80x256 1 := cmpf .olt main_v14 main_v15
  fn_part1 (F := F) main_arg4 main_arg5 main_arg6 main_arg7 main_arg8 main_arg9 main_arg10 main_arg11 main_arg12 main_v13 main_v16
-- ==== Kernel.lean ====
abbrev S65536x55 : Shape := ⟨2, ![65536, 55]⟩
abbrev S65536x30 : Shape := ⟨2, ![65536, 30]⟩
abbrev S80x256 : Shape := ⟨2, ![80, 256]⟩
abbrev S256 : Shape := ⟨1, ![256]⟩
abbrev S256x256 : Shape := ⟨2, ![256, 256]⟩
abbrev S256x4 : Shape := ⟨2, ![256, 4]⟩
abbrev S4 : Shape := ⟨1, ![4]⟩
abbrev S20 : Shape := ⟨1, ![20]⟩
abbrev S65536x10 : Shape := ⟨2, ![65536, 10]⟩
abbrev S65536x15 : Shape := ⟨2, ![65536, 15]⟩
abbrev S_ : Shape := ⟨0, ![]⟩
abbrev S20x1 : Shape := ⟨2, ![20, 1]⟩
abbrev S65536x20 : Shape := ⟨2, ![65536, 20]⟩
abbrev S65536x80 : Shape := ⟨2, ![65536, 80]⟩
abbrev S1x65536x80 : Shape := ⟨3, ![1, 65536, 80]⟩
abbrev S6x65536x80 : Shape := ⟨3, ![6, 65536, 80]⟩
abbrev S65536x4 : Shape := ⟨2, ![65536, 4]⟩
abbrev S6x4096x80 : Shape := ⟨3, ![6, 4096, 80]⟩
abbrev S4096x4 : Shape := ⟨2, ![4096, 4]⟩
abbrev S4096x256 : Shape := ⟨2, ![4096, 256]⟩
abbrev S1x4096x80 : Shape := ⟨3, ![1, 4096, 80]⟩
abbrev S4096x80 : Shape := ⟨2, ![4096, 80]⟩
abbrev S1x256 : Shape := ⟨2, ![1, 256]⟩
abbrev S1x4 : Shape := ⟨2, ![1, 4]⟩

abbrev nBuf : Space → Nat
  | .hbm => 70
  | .vmem => 16
  | .smem => 0
  | _ => 0

abbrev bufTy : (tb : Table) → Fin (tcTables nBuf tb) → BufTy
  | .hbm, ⟨0, _⟩ => ⟨S65536x55, .f32⟩
  | .hbm, ⟨1, _⟩ => ⟨S65536x30, .f32⟩
  | .hbm, ⟨2, _⟩ => ⟨S65536x30, .f32⟩
  | .hbm, ⟨3, _⟩ => ⟨S80x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x4, .f32⟩
  | .hbm, ⟨10, _⟩ => ⟨S4, .f32⟩
  | .hbm, ⟨11, _⟩ => ⟨S256x4, .f32⟩
  | .hbm, ⟨12, _⟩ => ⟨S4, .f32⟩
  | .hbm, ⟨13, _⟩ => ⟨S20, .i32⟩
  | .hbm, ⟨14, _⟩ => ⟨S20, .i1⟩
  | .hbm, ⟨15, _⟩ => ⟨S20, .i1⟩
  | .hbm, ⟨16, _⟩ => ⟨S20, .i32⟩
  | .hbm, ⟨17, _⟩ => ⟨S20, .i1⟩
  | .hbm, ⟨18, _⟩ => ⟨S20, .i1⟩
  | .hbm, ⟨19, _⟩ => ⟨S65536x10, .f32⟩
  | .hbm, ⟨20, _⟩ => ⟨S65536x10, .bf16⟩
  | .hbm, ⟨21, _⟩ => ⟨S65536x15, .f32⟩
  | .hbm, ⟨22, _⟩ => ⟨S65536x15, .bf16⟩
  | .hbm, ⟨23, _⟩ => ⟨S65536x15, .f32⟩
  | .hbm, ⟨24, _⟩ => ⟨S65536x15, .bf16⟩
  | .hbm, ⟨25, _⟩ => ⟨S65536x15, .f32⟩
  | .hbm, ⟨26, _⟩ => ⟨S65536x15, .bf16⟩
  | .hbm, ⟨27, _⟩ => ⟨S_, .i32⟩
  | .hbm, ⟨28, _⟩ => ⟨S20, .i32⟩
  | .hbm, ⟨29, _⟩ => ⟨S20, .i32⟩
  | .hbm, ⟨30, _⟩ => ⟨S20, .i32⟩
  | .hbm, ⟨31, _⟩ => ⟨S20x1, .i32⟩
  | .hbm, ⟨32, _⟩ => ⟨S65536x20, .f32⟩
  | .hbm, ⟨33, _⟩ => ⟨S65536x20, .bf16⟩
  | .hbm, ⟨34, _⟩ => ⟨S_, .i32⟩
  | .hbm, ⟨35, _⟩ => ⟨S20, .i32⟩
  | .hbm, ⟨36, _⟩ => ⟨S20, .i32⟩
  | .hbm, ⟨37, _⟩ => ⟨S20, .i32⟩
  | .hbm, ⟨38, _⟩ => ⟨S20x1, .i32⟩
  | .hbm, ⟨39, _⟩ => ⟨S65536x20, .f32⟩
  | .hbm, ⟨40, _⟩ => ⟨S65536x20, .bf16⟩
  | .hbm, ⟨41, _⟩ => ⟨S_, .i32⟩
  | .hbm, ⟨42, _⟩ => ⟨S20, .i32⟩
  | .hbm, ⟨43, _⟩ => ⟨S20, .i32⟩
  | .hbm, ⟨44, _⟩ => ⟨S20, .i32⟩
  | .hbm, ⟨45, _⟩ => ⟨S20x1, .i32⟩
  | .hbm, ⟨46, _⟩ => ⟨S65536x20, .f32⟩
  | .hbm, ⟨47, _⟩ => ⟨S65536x20, .bf16⟩
  | .hbm, ⟨48, _⟩ => ⟨S_, .i32⟩
  | .hbm, ⟨49, _⟩ => ⟨S20, .i32⟩
  | .hbm, ⟨50, _⟩ => ⟨S20, .i32⟩
  | .hbm, ⟨51, _⟩ => ⟨S20, .i32⟩
  | .hbm, ⟨52, _⟩ => ⟨S20x1, .i32⟩
  | .hbm, ⟨53, _⟩ => ⟨S65536x20, .f32⟩
  | .hbm, ⟨54, _⟩ => ⟨S65536x20, .bf16⟩
  | .hbm, ⟨55, _⟩ => ⟨S65536x80, .bf16⟩
  | .hbm, ⟨56, _⟩ => ⟨S65536x80, .bf16⟩
  | .hbm, ⟨57, _⟩ => ⟨S65536x80, .bf16⟩
  | .hbm, ⟨58, _⟩ => ⟨S65536x80, .bf16⟩
  | .hbm, ⟨59, _⟩ => ⟨S65536x80, .bf16⟩
  | .hbm, ⟨60, _⟩ => ⟨S65536x80, .bf16⟩
  | .hbm, ⟨61, _⟩ => ⟨S1x65536x80, .bf16⟩
  | .hbm, ⟨62, _⟩ => ⟨S1x65536x80, .bf16⟩
  | .hbm, ⟨63, _⟩ => ⟨S1x65536x80, .bf16⟩
  | .hbm, ⟨64, _⟩ => ⟨S1x65536x80, .bf16⟩
  | .hbm, ⟨65, _⟩ => ⟨S1x65536x80, .bf16⟩
  | .hbm, ⟨66, _⟩ => ⟨S1x65536x80, .bf16⟩
  | .hbm, ⟨67, _⟩ => ⟨S6x65536x80, .bf16⟩
  | .hbm, ⟨68, _⟩ => ⟨S65536x4, .f32⟩
  | .hbm, ⟨69, _⟩ => ⟨S65536x4, .f32⟩
  | .local _ .vmem, ⟨0, _⟩ => ⟨S6x4096x80, .bf16⟩
  | .local _ .vmem, ⟨1, _⟩ => ⟨S6x4096x80, .bf16⟩
  | .local _ .vmem, ⟨2, _⟩ => ⟨S80x256, .f32⟩
  | .local _ .vmem, ⟨3, _⟩ => ⟨S256, .f32⟩
  | .local _ .vmem, ⟨4, _⟩ => ⟨S256x256, .f32⟩
  | .local _ .vmem, ⟨5, _⟩ => ⟨S256, .f32⟩
  | .local _ .vmem, ⟨6, _⟩ => ⟨S256x256, .f32⟩
  | .local _ .vmem, ⟨7, _⟩ => ⟨S256, .f32⟩
  | .local _ .vmem, ⟨8, _⟩ => ⟨S256x4, .f32⟩
  | .local _ .vmem, ⟨9, _⟩ => ⟨S4, .f32⟩
  | .local _ .vmem, ⟨10, _⟩ => ⟨S256x4, .f32⟩
  | .local _ .vmem, ⟨11, _⟩ => ⟨S4, .f32⟩
  | .local _ .vmem, ⟨12, _⟩ => ⟨S4096x4, .f32⟩
  | .local _ .vmem, ⟨13, _⟩ => ⟨S4096x4, .f32⟩
  | .local _ .vmem, ⟨14, _⟩ => ⟨S4096x4, .f32⟩
  | .local _ .vmem, ⟨15, _⟩ => ⟨S4096x4, .f32⟩
  | _, _ => ⟨S65536x55, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_c_0 : Ref sig .tc := ⟨.hbm, 14, rfl⟩
abbrev main_c_1 : Ref sig .tc := ⟨.hbm, 15, rfl⟩
abbrev main_c_2 : Ref sig .tc := ⟨.hbm, 16, rfl⟩
abbrev main_c_3 : Ref sig .tc := ⟨.hbm, 17, rfl⟩
abbrev main_c_4 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_c_5 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_c_6 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_c_7 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c_8 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45_0 : Ref sig .tc := ⟨.hbm, 68, rfl⟩
abbrev main_v45_1 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6x4096x80 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S80x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4096x4 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4096x4 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  slices_S65536x55_S65536x10_0_0 : S65536x55.Slices ![0, 0] S65536x10
  bitsLt_bf16_f32 : FTy.bits .bf16 < FTy.bits .f32
  slices_S65536x55_S65536x15_0_10 : S65536x55.Slices ![0, 10] S65536x15
  slices_S65536x55_S65536x15_0_25 : S65536x55.Slices ![0, 25] S65536x15
  slices_S65536x55_S65536x15_0_40 : S65536x55.Slices ![0, 40] S65536x15
  bcast_S_S20 : S_.BroadcastsInDim S20 (![] : Fin 0 → Fin S20.rank)
  bcast_S20_S20x1_0 : S20.BroadcastsInDim S20x1 (![0] : Fin 1 → Fin S20x1.rank)
  concatenates_S65536x20_S65536x10_S65536x20_S65536x15_S65536x15_S65536x80_d1 : Shape.Concatenates [S65536x20, S65536x10, S65536x20, S65536x15, S65536x15] S65536x80 1
  bcast_S65536x80_S1x65536x80_1_2 : S65536x80.BroadcastsInDim S1x65536x80 (![1, 2] : Fin 2 → Fin S1x65536x80.rank)
  concatenates_S1x65536x80_S1x65536x80_S1x65536x80_S1x65536x80_S1x65536x80_S1x65536x80_S6x65536x80_d0 : Shape.Concatenates [S1x65536x80, S1x65536x80, S1x65536x80, S1x65536x80, S1x65536x80, S1x65536x80] S6x65536x80 0
  inb_S80x256_S80x256_0_0 : ∀ a, (![0, 0] : Fin 2 → Nat) a + S80x256.size a ≤ S80x256.size a
  h_S80x256 : 0 < S80x256.numel
  inb_S256_S256_0 : ∀ a, (![0] : Fin 1 → Nat) a + S256.size a ≤ S256.size a
  h_S256 : 0 < S256.numel
  inb_S256x256_S256x256_0_0 : ∀ a, (![0, 0] : Fin 2 → Nat) a + S256x256.size a ≤ S256x256.size a
  h_S256x256 : 0 < S256x256.numel
  inb_S6x4096x80_S1x4096x80_0_0_0 : ∀ a, (![0, 0, 0] : Fin 3 → Nat) a + S1x4096x80.size a ≤ S6x4096x80.size a
  h_S1x4096x80 : 0 < S1x4096x80.numel
  shapeCasts_S1x4096x80_S4096x80 : S1x4096x80.ShapeCasts S4096x80
  shapeCasts_S256_S1x256 : S256.ShapeCasts S1x256
  broadcasts_S1x256_S4096x256 : S1x256.Broadcasts S4096x256
  inb_S6x4096x80_S1x4096x80_1_0_0 : ∀ a, (![1, 0, 0] : Fin 3 → Nat) a + S1x4096x80.size a ≤ S6x4096x80.size a
  inb_S6x4096x80_S1x4096x80_2_0_0 : ∀ a, (![2, 0, 0] : Fin 3 → Nat) a + S1x4096x80.size a ≤ S6x4096x80.size a
  inb_S6x4096x80_S1x4096x80_3_0_0 : ∀ a, (![3, 0, 0] : Fin 3 → Nat) a + S1x4096x80.size a ≤ S6x4096x80.size a
  inb_S6x4096x80_S1x4096x80_4_0_0 : ∀ a, (![4, 0, 0] : Fin 3 → Nat) a + S1x4096x80.size a ≤ S6x4096x80.size a
  inb_S6x4096x80_S1x4096x80_5_0_0 : ∀ a, (![5, 0, 0] : Fin 3 → Nat) a + S1x4096x80.size a ≤ S6x4096x80.size a
  inb_S256x4_S256x4_0_0 : ∀ a, (![0, 0] : Fin 2 → Nat) a + S256x4.size a ≤ S256x4.size a
  h_S256x4 : 0 < S256x4.numel
  inb_S4_S4_0 : ∀ a, (![0] : Fin 1 → Nat) a + S4.size a ≤ S4.size a
  h_S4 : 0 < S4.numel
  shapeCasts_S4_S1x4 : S4.ShapeCasts S1x4
  broadcasts_S1x4_S4096x4 : S1x4.Broadcasts S4096x4
  inb_S4096x4_S4096x4_0_0 : ∀ a, (![0, 0] : Fin 2 → Nat) a + S4096x4.size a ≤ S4096x4.size a
  h_S4096x4 : 0 < S4096x4.numel
  gather_S65536x30_S20x1_S65536x20_0_1_n_n_1_1_655361_wf : GatherDims.WF S65536x30 S20x1 S65536x20 [0] [1] [] [1] [] 1 ![65536, 1]
  dot_S4096x80_S80x256_S4096x256_1_0_0_1_n_n_wf : DotDims.WF S4096x80 S80x256 S4096x256 [1] [0] [0] [1] [] []
  dot_S4096x256_S256x256_S4096x256_1_0_0_1_n_n_wf : DotDims.WF S4096x256 S256x256 S4096x256 [1] [0] [0] [1] [] []
  dot_S4096x256_S256x4_S4096x4_1_0_0_1_n_n_wf : DotDims.WF S4096x256 S256x4 S4096x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6x4096x80.size a ≤ S6x65536x80.size a
  hwx0_0 : ∀ i : grid0.Coords, EltTy.bits .bf16 = 32 ∨ (Rect.block (s := S6x65536x80) S6x4096x80.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S80x256.size a ≤ S80x256.size a
  hwx0_1 : ∀ i : grid0.Coords, EltTy.bits .f32 = 32 ∨ (Rect.block (s := S80x256) S80x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x4.size a ≤ S256x4.size a
  hwx0_7 : ∀ i : grid0.Coords, EltTy.bits .f32 = 32 ∨ (Rect.block (s := S256x4) S256x4.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4.size a ≤ S4.size a
  hwx0_8 : ∀ i : grid0.Coords, EltTy.bits .f32 = 32 ∨ (Rect.block (s := S4) S4.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x4.size a ≤ S256x4.size a
  hwx0_9 : ∀ i : grid0.Coords, EltTy.bits .f32 = 32 ∨ (Rect.block (s := S256x4) S256x4.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S4.size a ≤ S4.size a
  hwx0_10 : ∀ i : grid0.Coords, EltTy.bits .f32 = 32 ∨ (Rect.block (s := S4) S4.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4096x4.size a ≤ S65536x4.size a
  hwx0_11 : ∀ i : grid0.Coords, EltTy.bits .f32 = 32 ∨ (Rect.block (s := S65536x4) S4096x4.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S4096x4.size a ≤ S65536x4.size a
  hwx0_12 : ∀ i : grid0.Coords, EltTy.bits .f32 = 32 ∨ (Rect.block (s := S65536x4) S4096x4.size (cc0_transform_12 i) (hinb0_12 i)).WholeWords (EltTy.packing .f32)

variable [Facts₀]

def gather_S65536x30_S20x1_S65536x20_0_1_n_n_1_1_655361 : GatherDims S65536x30 S20x1 S65536x20 where
  offsetDims := [0]
  collapsedSliceDims := [1]
  operandBatchingDims := []
  startIndicesBatchingDims := []
  startIndexMap := [1]
  indexVectorDim := 1
  sliceSizes := ![65536, 1]
  wf := gather_S65536x30_S20x1_S65536x20_0_1_n_n_1_1_655361_wf
def dot_S4096x80_S80x256_S4096x256_1_0_0_1_n_n : DotDims S4096x80 S80x256 S4096x256 where
  lhsContracting := [1]
  rhsContracting := [0]
  lhsNonContracting := [0]
  rhsNonContracting := [1]
  lhsBatch := []
  rhsBatch := []
  wf := dot_S4096x80_S80x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x4_S4096x4_1_0_0_1_n_n : DotDims S4096x256 S256x4 S4096x4 where
  lhsContracting := [1]
  rhsContracting := [0]
  lhsNonContracting := [0]
  rhsNonContracting := [1]
  lhsBatch := []
  rhsBatch := []
  wf := dot_S4096x256_S256x4_S4096x4_1_0_0_1_n_n_wf

abbrev win0_0 : Pipeline.Window sig grid0 :=
  Pipeline.Window.ofSpec (Memref.whole main_v44) S6x4096x80.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S80x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S256x4.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S4.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg11) S256x4.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg12) S4.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v45_0) S4096x4.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v45_1) S4096x4.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S65536x55 : Shape := ⟨2, ![65536, 55]⟩
abbrev S65536x30 : Shape := ⟨2, ![65536, 30]⟩
abbrev S80x256 : Shape := ⟨2, ![80, 256]⟩
abbrev S256 : Shape := ⟨1, ![256]⟩
abbrev S256x256 : Shape := ⟨2, ![256, 256]⟩
abbrev S256x4 : Shape := ⟨2, ![256, 4]⟩
abbrev S4 : Shape := ⟨1, ![4]⟩
abbrev S20 : Shape := ⟨1, ![20]⟩
abbrev S65536x10 : Shape := ⟨2, ![65536, 10]⟩
abbrev S65536x15 : Shape := ⟨2, ![65536, 15]⟩
abbrev S_ : Shape := ⟨0, ![]⟩
abbrev S20x1 : Shape := ⟨2, ![20, 1]⟩
abbrev S65536x20 : Shape := ⟨2, ![65536, 20]⟩
abbrev S65536x80 : Shape := ⟨2, ![65536, 80]⟩
abbrev S1x65536x80 : Shape := ⟨3, ![1, 65536, 80]⟩
abbrev S6x65536x80 : Shape := ⟨3, ![6, 65536, 80]⟩
abbrev S6x65536x256 : Shape := ⟨3, ![6, 65536, 256]⟩
abbrev S1x1x256 : Shape := ⟨3, ![1, 1, 256]⟩
abbrev S65536x256 : Shape := ⟨2, ![65536, 256]⟩
abbrev S1x256 : Shape := ⟨2, ![1, 256]⟩
abbrev S65536x4 : Shape := ⟨2, ![65536, 4]⟩
abbrev S1x4 : Shape := ⟨2, ![1, 4]⟩

abbrev nBuf : Space → Nat
  | .hbm => 99
  | .vmem => 0
  | .smem => 0
  | _ => 0

abbrev bufTy : (tb : Table) → Fin (tcTables nBuf tb) → BufTy
  | .hbm, ⟨0, _⟩ => ⟨S65536x55, .f32⟩
  | .hbm, ⟨1, _⟩ => ⟨S65536x30, .f32⟩
  | .hbm, ⟨2, _⟩ => ⟨S65536x30, .f32⟩
  | .hbm, ⟨3, _⟩ => ⟨S80x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x4, .f32⟩
  | .hbm, ⟨10, _⟩ => ⟨S4, .f32⟩
  | .hbm, ⟨11, _⟩ => ⟨S256x4, .f32⟩
  | .hbm, ⟨12, _⟩ => ⟨S4, .f32⟩
  | .hbm, ⟨13, _⟩ => ⟨S20, .i32⟩
  | .hbm, ⟨14, _⟩ => ⟨S20, .i1⟩
  | .hbm, ⟨15, _⟩ => ⟨S20, .i1⟩
  | .hbm, ⟨16, _⟩ => ⟨S20, .i32⟩
  | .hbm, ⟨17, _⟩ => ⟨S20, .i1⟩
  | .hbm, ⟨18, _⟩ => ⟨S20, .i1⟩
  | .hbm, ⟨19, _⟩ => ⟨S65536x10, .f32⟩
  | .hbm, ⟨20, _⟩ => ⟨S65536x15, .f32⟩
  | .hbm, ⟨21, _⟩ => ⟨S65536x15, .f32⟩
  | .hbm, ⟨22, _⟩ => ⟨S65536x15, .f32⟩
  | .hbm, ⟨23, _⟩ => ⟨S_, .i32⟩
  | .hbm, ⟨24, _⟩ => ⟨S20, .i32⟩
  | .hbm, ⟨25, _⟩ => ⟨S20, .i32⟩
  | .hbm, ⟨26, _⟩ => ⟨S20, .i32⟩
  | .hbm, ⟨27, _⟩ => ⟨S20x1, .i32⟩
  | .hbm, ⟨28, _⟩ => ⟨S65536x20, .f32⟩
  | .hbm, ⟨29, _⟩ => ⟨S_, .i32⟩
  | .hbm, ⟨30, _⟩ => ⟨S20, .i32⟩
  | .hbm, ⟨31, _⟩ => ⟨S20, .i32⟩
  | .hbm, ⟨32, _⟩ => ⟨S20, .i32⟩
  | .hbm, ⟨33, _⟩ => ⟨S20x1, .i32⟩
  | .hbm, ⟨34, _⟩ => ⟨S65536x20, .f32⟩
  | .hbm, ⟨35, _⟩ => ⟨S_, .i32⟩
  | .hbm, ⟨36, _⟩ => ⟨S20, .i32⟩
  | .hbm, ⟨37, _⟩ => ⟨S20, .i32⟩
  | .hbm, ⟨38, _⟩ => ⟨S20, .i32⟩
  | .hbm, ⟨39, _⟩ => ⟨S20x1, .i32⟩
  | .hbm, ⟨40, _⟩ => ⟨S65536x20, .f32⟩
  | .hbm, ⟨41, _⟩ => ⟨S_, .i32⟩
  | .hbm, ⟨42, _⟩ => ⟨S20, .i32⟩
  | .hbm, ⟨43, _⟩ => ⟨S20, .i32⟩
  | .hbm, ⟨44, _⟩ => ⟨S20, .i32⟩
  | .hbm, ⟨45, _⟩ => ⟨S20x1, .i32⟩
  | .hbm, ⟨46, _⟩ => ⟨S65536x20, .f32⟩
  | .hbm, ⟨47, _⟩ => ⟨S65536x80, .f32⟩
  | .hbm, ⟨48, _⟩ => ⟨S65536x80, .f32⟩
  | .hbm, ⟨49, _⟩ => ⟨S65536x80, .f32⟩
  | .hbm, ⟨50, _⟩ => ⟨S65536x80, .f32⟩
  | .hbm, ⟨51, _⟩ => ⟨S65536x80, .f32⟩
  | .hbm, ⟨52, _⟩ => ⟨S65536x80, .f32⟩
  | .hbm, ⟨53, _⟩ => ⟨S1x65536x80, .f32⟩
  | .hbm, ⟨54, _⟩ => ⟨S1x65536x80, .f32⟩
  | .hbm, ⟨55, _⟩ => ⟨S1x65536x80, .f32⟩
  | .hbm, ⟨56, _⟩ => ⟨S1x65536x80, .f32⟩
  | .hbm, ⟨57, _⟩ => ⟨S1x65536x80, .f32⟩
  | .hbm, ⟨58, _⟩ => ⟨S1x65536x80, .f32⟩
  | .hbm, ⟨59, _⟩ => ⟨S6x65536x80, .f32⟩
  | .hbm, ⟨60, _⟩ => ⟨S6x65536x256, .f32⟩
  | .hbm, ⟨61, _⟩ => ⟨S1x1x256, .f32⟩
  | .hbm, ⟨62, _⟩ => ⟨S6x65536x256, .f32⟩
  | .hbm, ⟨63, _⟩ => ⟨S6x65536x256, .f32⟩
  | .hbm, ⟨64, _⟩ => ⟨S_, .f32⟩
  | .hbm, ⟨65, _⟩ => ⟨S6x65536x256, .f32⟩
  | .hbm, ⟨66, _⟩ => ⟨S6x65536x256, .f32⟩
  | .hbm, ⟨67, _⟩ => ⟨S6x65536x256, .f32⟩
  | .hbm, ⟨68, _⟩ => ⟨S1x1x256, .f32⟩
  | .hbm, ⟨69, _⟩ => ⟨S6x65536x256, .f32⟩
  | .hbm, ⟨70, _⟩ => ⟨S6x65536x256, .f32⟩
  | .hbm, ⟨71, _⟩ => ⟨S_, .f32⟩
  | .hbm, ⟨72, _⟩ => ⟨S6x65536x256, .f32⟩
  | .hbm, ⟨73, _⟩ => ⟨S6x65536x256, .f32⟩
  | .hbm, ⟨74, _⟩ => ⟨S_, .f32⟩
  | .hbm, ⟨75, _⟩ => ⟨S65536x256, .f32⟩
  | .hbm, ⟨76, _⟩ => ⟨S65536x256, .f32⟩
  | .hbm, ⟨77, _⟩ => ⟨S1x256, .f32⟩
  | .hbm, ⟨78, _⟩ => ⟨S65536x256, .f32⟩
  | .hbm, ⟨79, _⟩ => ⟨S65536x256, .f32⟩
  | .hbm, ⟨80, _⟩ => ⟨S_, .f32⟩
  | .hbm, ⟨81, _⟩ => ⟨S65536x256, .f32⟩
  | .hbm, ⟨82, _⟩ => ⟨S65536x256, .f32⟩
  | .hbm, ⟨83, _⟩ => ⟨S65536x4, .f32⟩
  | .hbm, ⟨84, _⟩ => ⟨S1x4, .f32⟩
  | .hbm, ⟨85, _⟩ => ⟨S65536x4, .f32⟩
  | .hbm, ⟨86, _⟩ => ⟨S65536x4, .f32⟩
  | .hbm, ⟨87, _⟩ => ⟨S65536x4, .f32⟩
  | .hbm, ⟨88, _⟩ => ⟨S1x4, .f32⟩
  | .hbm, ⟨89, _⟩ => ⟨S65536x4, .f32⟩
  | .hbm, ⟨90, _⟩ => ⟨S65536x4, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S65536x4, .f32⟩
  | .hbm, ⟨95, _⟩ => ⟨S65536x4, .f32⟩
  | .hbm, ⟨96, _⟩ => ⟨S_, .f32⟩
  | .hbm, ⟨97, _⟩ => ⟨S65536x4, .f32⟩
  | .hbm, ⟨98, _⟩ => ⟨S65536x4, .f32⟩
  | _, _ => ⟨S65536x55, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_c_0 : Ref sig .tc := ⟨.hbm, 14, rfl⟩
abbrev main_c_1 : Ref sig .tc := ⟨.hbm, 15, rfl⟩
abbrev main_c_2 : Ref sig .tc := ⟨.hbm, 16, rfl⟩
abbrev main_c_3 : Ref sig .tc := ⟨.hbm, 17, rfl⟩
abbrev main_c_4 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c_5 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_c_6 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c_7 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_c_8 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_call0_cst : Ref sig .tc := ⟨.hbm, 64, rfl⟩
abbrev main_call0_v0 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_call1_cst : Ref sig .tc := ⟨.hbm, 71, rfl⟩
abbrev main_call1_v0 : Ref sig .tc := ⟨.hbm, 72, rfl⟩
abbrev main_v46 : Ref sig .tc := ⟨.hbm, 73, rfl⟩
abbrev main_cst : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_call2_cst : Ref sig .tc := ⟨.hbm, 80, rfl⟩
abbrev main_call2_v0 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_9 : Ref sig .tc := ⟨.hbm, 91, rfl⟩
abbrev main_cst_10 : Ref sig .tc := ⟨.hbm, 92, rfl⟩
abbrev main_call3_v0 : Ref sig .tc := ⟨.hbm, 93, rfl⟩
abbrev main_call3_v1 : Ref sig .tc := ⟨.hbm, 94, rfl⟩
abbrev main_call3_v2 : Ref sig .tc := ⟨.hbm, 95, rfl⟩
abbrev main_call3_v3 : Ref sig .tc := ⟨.hbm, 96, rfl⟩
abbrev main_call3_v4 : Ref sig .tc := ⟨.hbm, 97, rfl⟩
abbrev main_v61 : Ref sig .tc := ⟨.hbm, 98, rfl⟩

abbrev nD : Nat := 1
abbrev τ : Topo := Topo.v7x

variable {F : FTy → Type} [FloatOps F]

class Facts₀ : Prop where
  slices_S65536x55_S65536x10_0_0 : S65536x55.Slices ![0, 0] S65536x10
  slices_S65536x55_S65536x15_0_10 : S65536x55.Slices ![0, 10] S65536x15
  slices_S65536x55_S65536x15_0_25 : S65536x55.Slices ![0, 25] S65536x15
  slices_S65536x55_S65536x15_0_40 : S65536x55.Slices ![0, 40] S65536x15
  bcast_S_S20 : S_.BroadcastsInDim S20 (![] : Fin 0 → Fin S20.rank)
  bcast_S20_S20x1_0 : S20.BroadcastsInDim S20x1 (![0] : Fin 1 → Fin S20x1.rank)
  concatenates_S65536x20_S65536x10_S65536x20_S65536x15_S65536x15_S65536x80_d1 : Shape.Concatenates [S65536x20, S65536x10, S65536x20, S65536x15, S65536x15] S65536x80 1
  bcast_S65536x80_S1x65536x80_1_2 : S65536x80.BroadcastsInDim S1x65536x80 (![1, 2] : Fin 2 → Fin S1x65536x80.rank)
  concatenates_S1x65536x80_S1x65536x80_S1x65536x80_S1x65536x80_S1x65536x80_S1x65536x80_S6x65536x80_d0 : Shape.Concatenates [S1x65536x80, S1x65536x80, S1x65536x80, S1x65536x80, S1x65536x80, S1x65536x80] S6x65536x80 0
  bcast_S256_S1x1x256_2 : S256.BroadcastsInDim S1x1x256 (![2] : Fin 1 → Fin S1x1x256.rank)
  bcast_S1x1x256_S6x65536x256_0_1_2 : S1x1x256.BroadcastsInDim S6x65536x256 (![0, 1, 2] : Fin 3 → Fin S6x65536x256.rank)
  bcast_S_S6x65536x256 : S_.BroadcastsInDim S6x65536x256 (![] : Fin 0 → Fin S6x65536x256.rank)
  reducesTo_S6x65536x256_S65536x256_d0 : S6x65536x256.ReducesTo [0] S65536x256
  h_S_ : 0 < S_.numel
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  bcast_S4_S1x4_1 : S4.BroadcastsInDim S1x4 (![1] : Fin 1 → Fin S1x4.rank)
  bcast_S1x4_S65536x4_0_1 : S1x4.BroadcastsInDim S65536x4 (![0, 1] : Fin 2 → Fin S65536x4.rank)
  bcast_S_S65536x4 : S_.BroadcastsInDim S65536x4 (![] : Fin 0 → Fin S65536x4.rank)
  gather_S65536x30_S20x1_S65536x20_0_1_n_n_1_1_655361_wf : GatherDims.WF S65536x30 S20x1 S65536x20 [0] [1] [] [1] [] 1 ![65536, 1]
  dot_S6x65536x80_S80x256_S6x65536x256_2_0_01_1_n_n_wf : DotDims.WF S6x65536x80 S80x256 S6x65536x256 [2] [0] [0, 1] [1] [] []
  dot_S6x65536x256_S256x256_S6x65536x256_2_0_01_1_n_n_wf : DotDims.WF S6x65536x256 S256x256 S6x65536x256 [2] [0] [0, 1] [1] [] []
  dot_S65536x256_S256x256_S65536x256_1_0_0_1_n_n_wf : DotDims.WF S65536x256 S256x256 S65536x256 [1] [0] [0] [1] [] []
  dot_S65536x256_S256x4_S65536x4_1_0_0_1_n_n_wf : DotDims.WF S65536x256 S256x4 S65536x4 [1] [0] [0] [1] [] []

variable [Facts₀]

def gather_S65536x30_S20x1_S65536x20_0_1_n_n_1_1_655361 : GatherDims S65536x30 S20x1 S65536x20 where
  offsetDims := [0]
  collapsedSliceDims := [1]
  operandBatchingDims := []
  startIndicesBatchingDims := []
  startIndexMap := [1]
  indexVectorDim := 1
  sliceSizes := ![65536, 1]
  wf := gather_S65536x30_S20x1_S65536x20_0_1_n_n_1_1_655361_wf
def dot_S6x65536x80_S80x256_S6x65536x256_2_0_01_1_n_n : DotDims S6x65536x80 S80x256 S6x65536x256 where
  lhsContracting := [2]
  rhsContracting := [0]
  lhsNonContracting := [0, 1]
  rhsNonContracting := [1]
  lhsBatch := []
  rhsBatch := []
  wf := dot_S6x65536x80_S80x256_S6x65536x256_2_0_01_1_n_n_wf
def dot_S6x65536x256_S256x256_S6x65536x256_2_0_01_1_n_n : DotDims S6x65536x256 S256x256 S6x65536x256 where
  lhsContracting := [2]
  rhsContracting := [0]
  lhsNonContracting := [0, 1]
  rhsNonContracting := [1]
  lhsBatch := []
  rhsBatch := []
  wf := dot_S6x65536x256_S256x256_S6x65536x256_2_0_01_1_n_n_wf
def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf
def dot_S65536x256_S256x4_S65536x4_1_0_0_1_n_n : DotDims S65536x256 S256x4 S65536x4 where
  lhsContracting := [1]
  rhsContracting := [0]
  lhsNonContracting := [0]
  rhsNonContracting := [1]
  lhsBatch := []
  rhsBatch := []
  wf := dot_S65536x256_S256x4_S65536x4_1_0_0_1_n_n_wf

class Facts : Prop extends Facts₀ where

variable [Facts]
-- ==== Proof.KOutBits.lean ====
/-
  What one grid step leaves in the two output blocks, as pure terms of the eleven input blocks: the body's arithmetic
  (the named payloads of the kernel function) applied to the blocks as the body loads them — the six pair-input slabs
  of the first block one at a time, every other block whole.
-/
import proofs.«105215_j11948599017715_1_alg».proof.Proof.Gen.Kernel.Skeleton
import Idealize.ShloMosaic.Lib.Pipeline.FrameBody

noncomputable section

namespace Cert.Kernel.KO

open Cert.Kernel Cert.Kernel.Gen Idealize.ShloMosaic Idealize.SL.Sem

variable {F : FTy → Type} [FloatOps F]

/-- Slab `p` of the pair-input block. -/
abbrev rX0 : Rect S6x4096x80 := Rect.unit (s := S6x4096x80) ![0, 0, 0] S1x4096x80.size inb_S6x4096x80_S1x4096x80_0_0_0
abbrev rX1 : Rect S6x4096x80 := Rect.unit (s := S6x4096x80) ![1, 0, 0] S1x4096x80.size inb_S6x4096x80_S1x4096x80_1_0_0
abbrev rX2 : Rect S6x4096x80 := Rect.unit (s := S6x4096x80) ![2, 0, 0] S1x4096x80.size inb_S6x4096x80_S1x4096x80_2_0_0
abbrev rX3 : Rect S6x4096x80 := Rect.unit (s := S6x4096x80) ![3, 0, 0] S1x4096x80.size inb_S6x4096x80_S1x4096x80_3_0_0
abbrev rX4 : Rect S6x4096x80 := Rect.unit (s := S6x4096x80) ![4, 0, 0] S1x4096x80.size inb_S6x4096x80_S1x4096x80_4_0_0
abbrev rX5 : Rect S6x4096x80 := Rect.unit (s := S6x4096x80) ![5, 0, 0] S1x4096x80.size inb_S6x4096x80_S1x4096x80_5_0_0
/-- The whole of each other block. -/
abbrev rW1 : Rect S80x256 := Rect.unit (s := S80x256) ![0, 0] S80x256.size inb_S80x256_S80x256_0_0
abbrev rB : Rect S256 := Rect.unit (s := S256) ![0] S256.size inb_S256_S256_0
abbrev rW2 : Rect S256x256 := Rect.unit (s := S256x256) ![0, 0] S256x256.size inb_S256x256_S256x256_0_0
abbrev rH : Rect S256x4 := Rect.unit (s := S256x4) ![0, 0] S256x4.size inb_S256x4_S256x4_0_0
abbrev rB4 : Rect S4 := Rect.unit (s := S4) ![0] S4.size inb_S4_S4_0
abbrev rO : Rect S4096x4 := Rect.unit (s := S4096x4) ![0, 0] S4096x4.size inb_S4096x4_S4096x4_0_0

section
variable (x0 : Vec F S6x4096x80 .bf16) (x1 : Vec F S80x256 .f32) (x2 : Vec F S256 .f32) (x3 : Vec F S256x256 .f32)
  (x4 : Vec F S256 .f32) (x5 : Vec F S256x256 .f32) (x6 : Vec F S256 .f32)

/-- The sum of the first four pair features. -/
def acc4 : FVec F S4096x256 .f32 :=
  k0_pay6 (k0_pay2 (View.ld x1 rW1)) (View.ld x2 rB) (k0_pay3 (View.ld x3 rW2)) (View.ld x4 rB)
    (k0_pay4 (View.ld x1 rW1) (View.ld x2 rB) (View.ld x3 rW2) (View.ld x4 rB) (View.ld x0 rX0))
    (k0_pay5 (View.ld x1 rW1) (View.ld x2 rB) (View.ld x3 rW2) (View.ld x4 rB) (View.ld x0 rX1))
    (View.ld x0 rX2) (View.ld x0 rX3)

/-- The fifth pair-input's first layer. -/
def hid5 : FVec F S4096x256 .f32 :=
  k0_pay7 (k0_pay2 (View.ld x1 rW1)) (View.ld x2 rB) (View.ld x0 rX4)

/-- The third layer's output, narrowed: what both heads multiply. -/
def rhoPay : FVec F S4096x256 .bf16 :=
  k0_pay8 (k0_pay2 (View.ld x1 rW1)) (View.ld x2 rB) (k0_pay3 (View.ld x3 rW2)) (View.ld x4 rB)
    (acc4 x0 x1 x2 x3 x4) (hid5 x0 x1 x2) (View.ld x0 rX5) (View.ld x5 rW2) (View.ld x6 rB)

/-- The mean head's block. -/
def meanPay (x7 : Vec F S256x4 .f32) (x8 : Vec F S4 .f32) : FVec F S4096x4 .f32 :=
  k0_pay9 (k0_pay2 (View.ld x1 rW1)) (View.ld x2 rB) (k0_pay3 (View.ld x3 rW2)) (View.ld x4 rB)
    (acc4 x0 x1 x2 x3 x4) (hid5 x0 x1 x2) (View.ld x0 rX5) (View.ld x5 rW2) (View.ld x6 rB) (View.ld x7 rH) (View.ld x8 rB4)

/-- The log-deviation head's block. -/
def logstdPay (x9 : Vec F S256x4 .f32) (x10 : Vec F S4 .f32) : FVec F S4096x4 .f32 :=
  k0_pay1 (rhoPay x0 x1 x2 x3 x4 x5 x6) (View.ld x9 rH) (View.ld x10 rB4)

/-- The first output block after the body: its one store, covering it. -/
def out0_11 (x7 : Vec F S256x4 .f32) (x8 : Vec F S4 .f32) : Vec F S4096x4 .f32 :=
  View.canon [⟨rO, meanPay x0 x1 x2 x3 x4 x5 x6 x7 x8⟩]

/-- The second output block after the body: its one store, covering it. -/
def out0_12 (x9 : Vec F S256x4 .f32) (x10 : Vec F S4 .f32) : Vec F S4096x4 .f32 :=
  View.canon [⟨rO, logstdPay x0 x1 x2 x3 x4 x5 x6 x9 x10⟩]
end

end Cert.Kernel.KO

end
-- ==== Proof.KBodyBits.lean ====
/-
  The kernel body's triple: run on whole blocks — the eleven inputs at read contents, the two outputs at anything — it
  ends with the inputs as they were and each output block holding its one store's value, the body's arithmetic
  (`KO.out0_11`, `KO.out0_12`) of the input blocks.
-/
import proofs.«105215_j11948599017715_1_alg».proof.Proof.Gen.Kernel.Launch
import proofs.«105215_j11948599017715_1_alg».proof.Proof.Gen.Kernel.Skeleton
import proofs.«105215_j11948599017715_1_alg».proof.Proof.Gen.Kernel.Points
import proofs.«105215_j11948599017715_1_alg».proof.Proof.KOutBits
import Idealize.ShloMosaic.Lib.Pipeline.FrameBody
import Idealize.ShloMosaic.Lib.Ring
import Idealize.ShloMosaic.Lib.Tactic

set_option maxRecDepth 16384

noncomputable section

namespace Cert.Kernel.Bd

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The one store's rectangle is the whole output block, so it covers it. -/
theorem coverO (p0 : KO.rO.shape.Idx → Elt F .f32) (y : S4096x4.Idx) :
    ∃ pc ∈ ([⟨KO.rO, p0⟩] : List (View.Piece (Elt F) S4096x4 .f32)), y ∈ pc.1.set :=
  View.cover_of_tiled [⟨KO.rO, p0⟩] S4096x4.size (by rfl) y

set_option maxHeartbeats 2000000 in
/-- The body's triple. Its loads read the input blocks through their literal rectangles, so each stored value is the
    body's arithmetic of those reads; each output block is written once, through the rectangle that is the whole block,
    so what it reads afterwards is that one store's value whatever it held before. -/
theorem sound_kernel (c : Dev nD) (E : Set ℕ) (i : grid0.Coords) (arg1 : Memref sig .tc .vmem S6x4096x80 .bf16) (harg1 : arg1.IsWhole) (arg2 : Memref sig .tc .vmem S80x256 .f32) (harg2 : arg2.IsWhole) (arg3 : Memref sig .tc .vmem S256 .f32) (harg3 : arg3.IsWhole) (arg4 : Memref sig .tc .vmem S256x256 .f32) (harg4 : arg4.IsWhole) (arg5 : Memref sig .tc .vmem S256 .f32) (harg5 : arg5.IsWhole) (arg6 : Memref sig .tc .vmem S256x256 .f32) (harg6 : arg6.IsWhole) (arg7 : Memref sig .tc .vmem S256 .f32) (harg7 : arg7.IsWhole) (arg8 : Memref sig .tc .vmem S256x4 .f32) (harg8 : arg8.IsWhole) (arg9 : Memref sig .tc .vmem S4 .f32) (harg9 : arg9.IsWhole) (arg10 : Memref sig .tc .vmem S256x4 .f32) (harg10 : arg10.IsWhole) (arg11 : Memref sig .tc .vmem S4 .f32) (harg11 : arg11.IsWhole) (arg12 : Memref sig .tc .vmem S4096x4 .f32) (harg12 : arg12.IsWhole) (arg13 : Memref sig .tc .vmem S4096x4 .f32) (harg13 : arg13.IsWhole)
    (x0 : Vec F S6x4096x80 .bf16) (x1 : Vec F S80x256 .f32) (x2 : Vec F S256 .f32) (x3 : Vec F S256x256 .f32) (x4 : Vec F S256 .f32) (x5 : Vec F S256x256 .f32) (x6 : Vec F S256 .f32) (x7 : Vec F S256x4 .f32) (x8 : Vec F S4 .f32) (x9 : Vec F S256x4 .f32) (x10 : Vec F S4 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
            ∗ owns (c : Thread nD τ) arg12 fullShare (KO.out0_11 x0 x1 x2 x3 x4 x5 x6 x7 x8)
            ∗ owns (c : Thread nD τ) arg13 fullShare (KO.out0_12 x0 x1 x2 x3 x4 x5 x6 x9 x10)) -∗ K ⟨⟩))
      ⊢ wp frame (wpE (defs₀ (F := F)) Variants.none c none) E (cc0__gnn_kernel i arg1 harg1 arg2 harg2 arg3 harg3 arg4 harg4 arg5 harg5 arg6 harg6 arg7 harg7 arg8 harg8 arg9 harg9 arg10 harg10 arg11 harg11 arg12 harg12 arg13 harg13) K := by
  simp only [cc0__gnn_kernel_eq_skeleton, k0_part1_eq_skeleton, k0_part2_eq_skeleton, k0_part3_eq_skeleton]
  unfold cc0__gnn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    sl_unfold_run_names
    unfold KO.out0_11 KO.meanPay KO.acc4 KO.hid5
    exact View.read_writes_eq_canon _ _ _ (coverO _)
  iexists _; isplitr
  swap; · iexact H12
  ipureintro
  sl_unfold_run_names
  unfold KO.out0_12 KO.logstdPay KO.rhoPay KO.acc4 KO.hid5
  exact View.read_writes_eq_canon _ _ _ (coverO _)

end Cert.Kernel.Bd

end
-- ==== Proof.KFrameBits.lean ====
/-
  The frame of the kernel program: its host operations run, the one launch runs its sixteen grid steps, nothing faults,
  and the thirteen argument arrays end as they began. Along the way each output array is named: what grid step `t`
  writes back is the body's block (`KO.out0_11`, `KO.out0_12`) of the step's input blocks.
-/
import proofs.«105215_j11948599017715_1_alg».proof.Proof.Gen.Kernel.Launch
import proofs.«105215_j11948599017715_1_alg».proof.Proof.Gen.Kernel.Skeleton
import proofs.«105215_j11948599017715_1_alg».proof.Proof.Gen.Kernel.Points
import proofs.«105215_j11948599017715_1_alg».proof.Proof.KOutBits
import proofs.«105215_j11948599017715_1_alg».proof.Proof.KBodyBits
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the launch is entered: after the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program up to its launch: the host operations, then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Window `w`'s block at step `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds the window's block at every step, fetched there or not, for any
    proof data over the arrays `V` whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-- The frame from a run to the launch's post: an argument array no window stages is as the launch found it, one an
    input window stages is never written back; either way it is as the program began. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 1).trans (((dats 0 c).arrAt_in 1 rfl _).trans ((hA c 1).trans (V_main_arg3 m c))),
      ((h c).1 2).trans (((dats 0 c).arrAt_in 2 rfl _).trans ((hA c 2).trans (V_main_arg4 m c))),
      ((h c).1 3).trans (((dats 0 c).arrAt_in 3 rfl _).trans ((hA c 3).trans (V_main_arg5 m c))),
      ((h c).1 4).trans (((dats 0 c).arrAt_in 4 rfl _).trans ((hA c 4).trans (V_main_arg6 m c))),
      ((h c).1 5).trans (((dats 0 c).arrAt_in 5 rfl _).trans ((hA c 5).trans (V_main_arg7 m c))),
      ((h c).1 6).trans (((dats 0 c).arrAt_in 6 rfl _).trans ((hA c 6).trans (V_main_arg8 m c))),
      ((h c).1 7).trans (((dats 0 c).arrAt_in 7 rfl _).trans ((hA c 7).trans (V_main_arg9 m c))),
      ((h c).1 8).trans (((dats 0 c).arrAt_in 8 rfl _).trans ((hA c 8).trans (V_main_arg10 m c))),
      ((h c).1 9).trans (((dats 0 c).arrAt_in 9 rfl _).trans ((hA c 9).trans (V_main_arg11 m c))),
      ((h c).1 10).trans (((dats 0 c).arrAt_in 10 rfl _).trans ((hA c 10).trans (V_main_arg12 m c)))⟩) h

/-- The proof data of the launch on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => KO.out0_11 (iblk m c 0 t) (iblk m c 1 t) (iblk m c 2 t) (iblk m c 3 t) (iblk m c 4 t) (iblk m c 5 t) (iblk m c 6 t) (iblk m c 7 t) (iblk m c 8 t)
    | ⟨12, _⟩ => KO.out0_12 (iblk m c 0 t) (iblk m c 1 t) (iblk m c 2 t) (iblk m c 3 t) (iblk m c 4 t) (iblk m c 5 t) (iblk m c 6 t) (iblk m c 9 t) (iblk m c 10 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_11 (c : Dev nD) (t : Fin cfg0.N) : (dats m 0 c).after 11 t
    = KO.out0_11 (iblk m c 0 t) (iblk m c 1 t) (iblk m c 2 t) (iblk m c 3 t) (iblk m c 4 t) (iblk m c 5 t) (iblk m c 6 t) (iblk m c 7 t) (iblk m c 8 t) := by
  dsimp only [dats]
theorem after0_12 (c : Dev nD) (t : Fin cfg0.N) : (dats m 0 c).after 12 t
    = KO.out0_12 (iblk m c 0 t) (iblk m c 1 t) (iblk m c 2 t) (iblk m c 3 t) (iblk m c 4 t) (iblk m c 5 t) (iblk m c 6 t) (iblk m c 9 t) (iblk m c 10 t) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-- What the body is called with at step `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

/-- The body at any step: the inputs' buffers hold their blocks, the outputs' hold something; the body's triple gives
    the inputs' back as they were and the outputs' at the body's blocks. The invariant and what is owed pass through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (Bd.sound_kernel c Set.univ (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body obligation of the launch, at every step. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of the program terminates, and every final state has each array of the launch at what
    the proof data say and every other buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and its thirteen argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

end Cert.Kernel.Fr

end
-- ==== Proof.KOut.lean ====
/-
  What one grid step leaves in the two output blocks, as pure terms of the eleven input blocks: the body's arithmetic
  (the named payloads of the kernel function) applied to the blocks as the body loads them — the six pair-input slabs
  of the first block one at a time, every other block whole.
-/
import proofs.«105215_j11948599017715_1_alg».proof.Proof.Gen.KernelIdeal.Skeleton
import Idealize.ShloMosaic.Lib.Pipeline.FrameBody

noncomputable section

namespace Cert.KernelIdeal.KO

open Cert.KernelIdeal Cert.KernelIdeal.Gen Idealize.ShloMosaic Idealize.SL.Sem

variable {F : FTy → Type} [FloatOps F]

/-- Slab `p` of the pair-input block. -/
abbrev rX0 : Rect S6x4096x80 := Rect.unit (s := S6x4096x80) ![0, 0, 0] S1x4096x80.size inb_S6x4096x80_S1x4096x80_0_0_0
abbrev rX1 : Rect S6x4096x80 := Rect.unit (s := S6x4096x80) ![1, 0, 0] S1x4096x80.size inb_S6x4096x80_S1x4096x80_1_0_0
abbrev rX2 : Rect S6x4096x80 := Rect.unit (s := S6x4096x80) ![2, 0, 0] S1x4096x80.size inb_S6x4096x80_S1x4096x80_2_0_0
abbrev rX3 : Rect S6x4096x80 := Rect.unit (s := S6x4096x80) ![3, 0, 0] S1x4096x80.size inb_S6x4096x80_S1x4096x80_3_0_0
abbrev rX4 : Rect S6x4096x80 := Rect.unit (s := S6x4096x80) ![4, 0, 0] S1x4096x80.size inb_S6x4096x80_S1x4096x80_4_0_0
abbrev rX5 : Rect S6x4096x80 := Rect.unit (s := S6x4096x80) ![5, 0, 0] S1x4096x80.size inb_S6x4096x80_S1x4096x80_5_0_0
/-- The whole of each other block. -/
abbrev rW1 : Rect S80x256 := Rect.unit (s := S80x256) ![0, 0] S80x256.size inb_S80x256_S80x256_0_0
abbrev rB : Rect S256 := Rect.unit (s := S256) ![0] S256.size inb_S256_S256_0
abbrev rW2 : Rect S256x256 := Rect.unit (s := S256x256) ![0, 0] S256x256.size inb_S256x256_S256x256_0_0
abbrev rH : Rect S256x4 := Rect.unit (s := S256x4) ![0, 0] S256x4.size inb_S256x4_S256x4_0_0
abbrev rB4 : Rect S4 := Rect.unit (s := S4) ![0] S4.size inb_S4_S4_0
abbrev rO : Rect S4096x4 := Rect.unit (s := S4096x4) ![0, 0] S4096x4.size inb_S4096x4_S4096x4_0_0

section
variable (x0 : Vec F S6x4096x80 .bf16) (x1 : Vec F S80x256 .f32) (x2 : Vec F S256 .f32) (x3 : Vec F S256x256 .f32)
  (x4 : Vec F S256 .f32) (x5 : Vec F S256x256 .f32) (x6 : Vec F S256 .f32)

/-- The sum of the first four pair features. -/
def acc4 : FVec F S4096x256 .f32 :=
  k0_pay6 (k0_pay2 (View.ld x1 rW1)) (View.ld x2 rB) (k0_pay3 (View.ld x3 rW2)) (View.ld x4 rB)
    (k0_pay4 (View.ld x1 rW1) (View.ld x2 rB) (View.ld x3 rW2) (View.ld x4 rB) (View.ld x0 rX0))
    (k0_pay5 (View.ld x1 rW1) (View.ld x2 rB) (View.ld x3 rW2) (View.ld x4 rB) (View.ld x0 rX1))
    (View.ld x0 rX2) (View.ld x0 rX3)

/-- The fifth pair-input's first layer. -/
def hid5 : FVec F S4096x256 .f32 :=
  k0_pay7 (k0_pay2 (View.ld x1 rW1)) (View.ld x2 rB) (View.ld x0 rX4)

/-- The third layer's output, narrowed: what both heads multiply. -/
def rhoPay : FVec F S4096x256 .bf16 :=
  k0_pay8 (k0_pay2 (View.ld x1 rW1)) (View.ld x2 rB) (k0_pay3 (View.ld x3 rW2)) (View.ld x4 rB)
    (acc4 x0 x1 x2 x3 x4) (hid5 x0 x1 x2) (View.ld x0 rX5) (View.ld x5 rW2) (View.ld x6 rB)

/-- The mean head's block. -/
def meanPay (x7 : Vec F S256x4 .f32) (x8 : Vec F S4 .f32) : FVec F S4096x4 .f32 :=
  k0_pay9 (k0_pay2 (View.ld x1 rW1)) (View.ld x2 rB) (k0_pay3 (View.ld x3 rW2)) (View.ld x4 rB)
    (acc4 x0 x1 x2 x3 x4) (hid5 x0 x1 x2) (View.ld x0 rX5) (View.ld x5 rW2) (View.ld x6 rB) (View.ld x7 rH) (View.ld x8 rB4)

/-- The log-deviation head's block. -/
def logstdPay (x9 : Vec F S256x4 .f32) (x10 : Vec F S4 .f32) : FVec F S4096x4 .f32 :=
  k0_pay1 (rhoPay x0 x1 x2 x3 x4 x5 x6) (View.ld x9 rH) (View.ld x10 rB4)

/-- The first output block after the body: its one store, covering it. -/
def out0_11 (x7 : Vec F S256x4 .f32) (x8 : Vec F S4 .f32) : Vec F S4096x4 .f32 :=
  View.canon [⟨rO, meanPay x0 x1 x2 x3 x4 x5 x6 x7 x8⟩]

/-- The second output block after the body: its one store, covering it. -/
def out0_12 (x9 : Vec F S256x4 .f32) (x10 : Vec F S4 .f32) : Vec F S4096x4 .f32 :=
  View.canon [⟨rO, logstdPay x0 x1 x2 x3 x4 x5 x6 x9 x10⟩]
end

end Cert.KernelIdeal.KO

end
-- ==== Proof.KBodyIdeal.lean ====
/-
  The kernel body's triple: run on whole blocks — the eleven inputs at read contents, the two outputs at anything — it
  ends with the inputs as they were and each output block holding its one store's value, the body's arithmetic
  (`KO.out0_11`, `KO.out0_12`) of the input blocks.
-/
import proofs.«105215_j11948599017715_1_alg».proof.Proof.Gen.KernelIdeal.Launch
import proofs.«105215_j11948599017715_1_alg».proof.Proof.Gen.KernelIdeal.Skeleton
import proofs.«105215_j11948599017715_1_alg».proof.Proof.Gen.KernelIdeal.Points
import proofs.«105215_j11948599017715_1_alg».proof.Proof.KOut
import Idealize.ShloMosaic.Lib.Pipeline.FrameBody
import Idealize.ShloMosaic.Lib.Ring
import Idealize.ShloMosaic.Lib.Tactic

set_option maxRecDepth 16384

noncomputable section

namespace Cert.KernelIdeal.Bd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The one store's rectangle is the whole output block, so it covers it. -/
theorem coverO (p0 : KO.rO.shape.Idx → Elt F .f32) (y : S4096x4.Idx) :
    ∃ pc ∈ ([⟨KO.rO, p0⟩] : List (View.Piece (Elt F) S4096x4 .f32)), y ∈ pc.1.set :=
  View.cover_of_tiled [⟨KO.rO, p0⟩] S4096x4.size (by rfl) y

set_option maxHeartbeats 2000000 in
/-- The body's triple. Its loads read the input blocks through their literal rectangles, so each stored value is the
    body's arithmetic of those reads; each output block is written once, through the rectangle that is the whole block,
    so what it reads afterwards is that one store's value whatever it held before. -/
theorem sound_kernel (c : Dev nD) (E : Set ℕ) (i : grid0.Coords) (arg1 : Memref sig .tc .vmem S6x4096x80 .bf16) (harg1 : arg1.IsWhole) (arg2 : Memref sig .tc .vmem S80x256 .f32) (harg2 : arg2.IsWhole) (arg3 : Memref sig .tc .vmem S256 .f32) (harg3 : arg3.IsWhole) (arg4 : Memref sig .tc .vmem S256x256 .f32) (harg4 : arg4.IsWhole) (arg5 : Memref sig .tc .vmem S256 .f32) (harg5 : arg5.IsWhole) (arg6 : Memref sig .tc .vmem S256x256 .f32) (harg6 : arg6.IsWhole) (arg7 : Memref sig .tc .vmem S256 .f32) (harg7 : arg7.IsWhole) (arg8 : Memref sig .tc .vmem S256x4 .f32) (harg8 : arg8.IsWhole) (arg9 : Memref sig .tc .vmem S4 .f32) (harg9 : arg9.IsWhole) (arg10 : Memref sig .tc .vmem S256x4 .f32) (harg10 : arg10.IsWhole) (arg11 : Memref sig .tc .vmem S4 .f32) (harg11 : arg11.IsWhole) (arg12 : Memref sig .tc .vmem S4096x4 .f32) (harg12 : arg12.IsWhole) (arg13 : Memref sig .tc .vmem S4096x4 .f32) (harg13 : arg13.IsWhole)
    (x0 : Vec F S6x4096x80 .bf16) (x1 : Vec F S80x256 .f32) (x2 : Vec F S256 .f32) (x3 : Vec F S256x256 .f32) (x4 : Vec F S256 .f32) (x5 : Vec F S256x256 .f32) (x6 : Vec F S256 .f32) (x7 : Vec F S256x4 .f32) (x8 : Vec F S4 .f32) (x9 : Vec F S256x4 .f32) (x10 : Vec F S4 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
            ∗ owns (c : Thread nD τ) arg12 fullShare (KO.out0_11 x0 x1 x2 x3 x4 x5 x6 x7 x8)
            ∗ owns (c : Thread nD τ) arg13 fullShare (KO.out0_12 x0 x1 x2 x3 x4 x5 x6 x9 x10)) -∗ K ⟨⟩))
      ⊢ wp frame (wpE (defs₀ (F := F)) Variants.none c none) E (cc0__gnn_kernel i arg1 harg1 arg2 harg2 arg3 harg3 arg4 harg4 arg5 harg5 arg6 harg6 arg7 harg7 arg8 harg8 arg9 harg9 arg10 harg10 arg11 harg11 arg12 harg12 arg13 harg13) K := by
  simp only [cc0__gnn_kernel_eq_skeleton, k0_part1_eq_skeleton, k0_part2_eq_skeleton, k0_part3_eq_skeleton]
  unfold cc0__gnn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    sl_unfold_run_names
    unfold KO.out0_11 KO.meanPay KO.acc4 KO.hid5
    exact View.read_writes_eq_canon _ _ _ (coverO _)
  iexists _; isplitr
  swap; · iexact H12
  ipureintro
  sl_unfold_run_names
  unfold KO.out0_12 KO.logstdPay KO.rhoPay KO.acc4 KO.hid5
  exact View.read_writes_eq_canon _ _ _ (coverO _)

end Cert.KernelIdeal.Bd

end
-- ==== Proof.KFrameIdeal.lean ====
/-
  The frame of the kernel program: its host operations run, the one launch runs its sixteen grid steps, nothing faults,
  and the thirteen argument arrays end as they began. Along the way each output array is named: what grid step `t`
  writes back is the body's block (`KO.out0_11`, `KO.out0_12`) of the step's input blocks.
-/
import proofs.«105215_j11948599017715_1_alg».proof.Proof.Gen.KernelIdeal.Launch
import proofs.«105215_j11948599017715_1_alg».proof.Proof.Gen.KernelIdeal.Skeleton
import proofs.«105215_j11948599017715_1_alg».proof.Proof.Gen.KernelIdeal.Points
import proofs.«105215_j11948599017715_1_alg».proof.Proof.KOut
import proofs.«105215_j11948599017715_1_alg».proof.Proof.KBodyIdeal
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the launch is entered: after the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program up to its launch: the host operations, then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Window `w`'s block at step `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds the window's block at every step, fetched there or not, for any
    proof data over the arrays `V` whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-- The frame from a run to the launch's post: an argument array no window stages is as the launch found it, one an
    input window stages is never written back; either way it is as the program began. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 1).trans (((dats 0 c).arrAt_in 1 rfl _).trans ((hA c 1).trans (V_main_arg3 m c))),
      ((h c).1 2).trans (((dats 0 c).arrAt_in 2 rfl _).trans ((hA c 2).trans (V_main_arg4 m c))),
      ((h c).1 3).trans (((dats 0 c).arrAt_in 3 rfl _).trans ((hA c 3).trans (V_main_arg5 m c))),
      ((h c).1 4).trans (((dats 0 c).arrAt_in 4 rfl _).trans ((hA c 4).trans (V_main_arg6 m c))),
      ((h c).1 5).trans (((dats 0 c).arrAt_in 5 rfl _).trans ((hA c 5).trans (V_main_arg7 m c))),
      ((h c).1 6).trans (((dats 0 c).arrAt_in 6 rfl _).trans ((hA c 6).trans (V_main_arg8 m c))),
      ((h c).1 7).trans (((dats 0 c).arrAt_in 7 rfl _).trans ((hA c 7).trans (V_main_arg9 m c))),
      ((h c).1 8).trans (((dats 0 c).arrAt_in 8 rfl _).trans ((hA c 8).trans (V_main_arg10 m c))),
      ((h c).1 9).trans (((dats 0 c).arrAt_in 9 rfl _).trans ((hA c 9).trans (V_main_arg11 m c))),
      ((h c).1 10).trans (((dats 0 c).arrAt_in 10 rfl _).trans ((hA c 10).trans (V_main_arg12 m c)))⟩) h

/-- The proof data of the launch on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => KO.out0_11 (iblk m c 0 t) (iblk m c 1 t) (iblk m c 2 t) (iblk m c 3 t) (iblk m c 4 t) (iblk m c 5 t) (iblk m c 6 t) (iblk m c 7 t) (iblk m c 8 t)
    | ⟨12, _⟩ => KO.out0_12 (iblk m c 0 t) (iblk m c 1 t) (iblk m c 2 t) (iblk m c 3 t) (iblk m c 4 t) (iblk m c 5 t) (iblk m c 6 t) (iblk m c 9 t) (iblk m c 10 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_11 (c : Dev nD) (t : Fin cfg0.N) : (dats m 0 c).after 11 t
    = KO.out0_11 (iblk m c 0 t) (iblk m c 1 t) (iblk m c 2 t) (iblk m c 3 t) (iblk m c 4 t) (iblk m c 5 t) (iblk m c 6 t) (iblk m c 7 t) (iblk m c 8 t) := by
  dsimp only [dats]
theorem after0_12 (c : Dev nD) (t : Fin cfg0.N) : (dats m 0 c).after 12 t
    = KO.out0_12 (iblk m c 0 t) (iblk m c 1 t) (iblk m c 2 t) (iblk m c 3 t) (iblk m c 4 t) (iblk m c 5 t) (iblk m c 6 t) (iblk m c 9 t) (iblk m c 10 t) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-- What the body is called with at step `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

/-- The body at any step: the inputs' buffers hold their blocks, the outputs' hold something; the body's triple gives
    the inputs' back as they were and the outputs' at the body's blocks. The invariant and what is owed pass through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (Bd.sound_kernel c Set.univ (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body obligation of the launch, at every step. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of the program terminates, and every final state has each array of the launch at what
    the proof data say and every other buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and its thirteen argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

end Cert.KernelIdeal.Fr

end
-- ==== Proof.Spec.lean ====
/-
  The function both programs compute, one batch row at a time.

  A batch row carries six pair-inputs `x p` (each a vector of 80 features). A shared two-layer perceptron with
  rectifiers maps each pair-input to 256 features; the six results are summed (starting from zero); a third rectified
  layer follows; the mean head is affine, and the log-deviation head is affine and then clipped to [-20, 2].
  Everything is read on the extended reals, where a change of float format is the identity.
-/
import Idealize.ShloMosaic.PureOps.Ideal
import Idealize.ShloMosaic.Lib.ValueIdx

noncomputable section

open scoped BigOperators

namespace Cert.Spec

open Idealize.ShloMosaic Idealize.ShloMosaic.ValueIdx

/-- The float zero, as the word both programs spell. -/
abbrev zeroF : EReal := Ideal.ofBits .f32 0x00000000#32
/-- The lower clip bound, -20, as the word both programs spell. -/
abbrev loF : EReal := Ideal.ofBits .f32 0xC1A00000#32
/-- The upper clip bound, 2, as the word both programs spell. -/
abbrev hiF : EReal := Ideal.ofBits .f32 0x40000000#32

abbrev T6x65536x80 : Shape := ⟨3, ![6, 65536, 80]⟩
abbrev T80x256 : Shape := ⟨2, ![80, 256]⟩
abbrev T256 : Shape := ⟨1, ![256]⟩
abbrev T256x256 : Shape := ⟨2, ![256, 256]⟩
abbrev T256x4 : Shape := ⟨2, ![256, 4]⟩
abbrev T4 : Shape := ⟨1, ![4]⟩
abbrev T65536x4 : Shape := ⟨2, ![65536, 4]⟩

section Row

variable (x : Fin 6 → Fin 80 → EReal)
  (w1 : T80x256.Idx → EReal) (b1 : T256.Idx → EReal) (w2 : T256x256.Idx → EReal) (b2 : T256.Idx → EReal)
  (wr : T256x256.Idx → EReal) (br : T256.Idx → EReal)

/-- First shared layer on pair-input `p`: `max (x p · w1 + b1) 0`. -/
def hid (p : Fin 6) (o : Fin 256) : EReal :=
  max ((∑ k : Fin 80, x p k * w1 (ix2 k o)) + b1 (ix1 o)) zeroF

/-- Second shared layer on pair-input `p`: `max (hid p · w2 + b2) 0`. -/
def phi (p : Fin 6) (o : Fin 256) : EReal :=
  max ((∑ h : Fin 256, hid x w1 b1 p h * w2 (ix2 h o)) + b2 (ix1 o)) zeroF

/-- The six pair features summed, from zero. -/
def agg (o : Fin 256) : EReal := zeroF + ∑ p : Fin 6, phi x w1 b1 w2 b2 p o

/-- The third layer: `max (agg · wr + br) 0`. -/
def rho (o : Fin 256) : EReal :=
  max ((∑ h : Fin 256, agg x w1 b1 w2 b2 h * wr (ix2 h o)) + br (ix1 o)) zeroF

/-- The mean head at output `j`. -/
def meanRow (wm : T256x4.Idx → EReal) (bm : T4.Idx → EReal) (j : Fin 4) : EReal :=
  (∑ h : Fin 256, rho x w1 b1 w2 b2 wr br h * wm (ix2 h j)) + bm (ix1 j)

/-- The log-deviation head at output `j`, clipped to [-20, 2]. -/
def logstdRow (wl : T256x4.Idx → EReal) (bl : T4.Idx → EReal) (j : Fin 4) : EReal :=
  min hiF (max loF ((∑ h : Fin 256, rho x w1 b1 w2 b2 wr br h * wl (ix2 h j)) + bl (ix1 j)))

end Row

/-- The mean array from the stacked pair-input array `X` (6 × batch × 80) and the weights. -/
def Gmean (X : T6x65536x80.Idx → EReal) (w1 : T80x256.Idx → EReal) (b1 : T256.Idx → EReal) (w2 : T256x256.Idx → EReal)
    (b2 : T256.Idx → EReal) (wr : T256x256.Idx → EReal) (br : T256.Idx → EReal) (wm : T256x4.Idx → EReal) (bm : T4.Idx → EReal) :
    T65536x4.Idx → EReal :=
  fun i => meanRow (fun p k => X (ix3 p (i 0) k)) w1 b1 w2 b2 wr br wm bm (i 1)

/-- The log-deviation array from the stacked pair-input array `X` and the weights. -/
def Glogstd (X : T6x65536x80.Idx → EReal) (w1 : T80x256.Idx → EReal) (b1 : T256.Idx → EReal) (w2 : T256x256.Idx → EReal)
    (b2 : T256.Idx → EReal) (wr : T256x256.Idx → EReal) (br : T256.Idx → EReal) (wl : T256x4.Idx → EReal) (bl : T4.Idx → EReal) :
    T65536x4.Idx → EReal :=
  fun i => logstdRow (fun p k => X (ix3 p (i 0) k)) w1 b1 w2 b2 wr br wl bl (i 1)

theorem Gmean_apply (X : T6x65536x80.Idx → EReal) (w1 : T80x256.Idx → EReal) (b1 : T256.Idx → EReal) (w2 : T256x256.Idx → EReal)
    (b2 : T256.Idx → EReal) (wr : T256x256.Idx → EReal) (br : T256.Idx → EReal) (wm : T256x4.Idx → EReal) (bm : T4.Idx → EReal)
    (b : Fin 65536) (j : Fin 4) :
    Gmean X w1 b1 w2 b2 wr br wm bm (ix2 b j) = meanRow (fun p k => X (ix3 p b k)) w1 b1 w2 b2 wr br wm bm j := rfl

theorem Glogstd_apply (X : T6x65536x80.Idx → EReal) (w1 : T80x256.Idx → EReal) (b1 : T256.Idx → EReal) (w2 : T256x256.Idx → EReal)
    (b2 : T256.Idx → EReal) (wr : T256x256.Idx → EReal) (br : T256.Idx → EReal) (wl : T256x4.Idx → EReal) (bl : T4.Idx → EReal)
    (b : Fin 65536) (j : Fin 4) :
    Glogstd X w1 b1 w2 b2 wr br wl bl (ix2 b j) = logstdRow (fun p k => X (ix3 p b k)) w1 b1 w2 b2 wr br wl bl j := rfl

end Cert.Spec

end
-- ==== Proof.LibDot.lean ====
/-
  A matrix product read at an entry.

  For dimension numbers that contract the left operand's second axis with the right operand's first and have no batch
  axes — an `[N, K]` by `[K, M]` product — the sum over the contraction index that the ideal instance gives for an
  entry `(p, q)` of the result is the textbook sum `∑ₖ l p k · r k q` over `k : Fin K`. The contraction index set has
  one axis, so it is re-indexed by its one coordinate; the operand indices at `(p, q)` and `k` are then `(p, k)` and
  `(k, q)`, read off the dimension numbers' lists.
-/
import Idealize.ShloMosaic.PureOps.Ideal.Laws
import Idealize.ShloMosaic.Lib.ValueIdx

noncomputable section

open scoped BigOperators

namespace Cert.LibDot

open Idealize.ShloMosaic Idealize.ShloMosaic.ValueIdx

variable {N K M : Nat} (D : DotDims ⟨2, ![N, K]⟩ ⟨2, ![K, M]⟩ ⟨2, ![N, M]⟩)

/-- The contraction index set of such a product has one axis … -/
theorem contr_rank (hlc : D.lhsContracting = [1]) : D.contr.rank = 1 := by
  rw [D.rank_contr, hlc]; rfl

/-- … of extent `K`. -/
theorem contr_size (hlc : D.lhsContracting = [1]) :
    D.contr.size ⟨0, by rw [contr_rank D hlc]; exact Nat.one_pos⟩ = K := by
  rw [D.size_contr 0 (by rw [hlc]; exact Nat.one_pos)]
  have : D.lhsContracting[0]'(by rw [hlc]; exact Nat.one_pos) = (1 : Fin 2) := by simp [hlc]
  rw [this]; rfl

/-- A coordinate of `ix2 p q` at an axis known to be the first. -/
theorem ix2_val_zero {n0 n1 : Nat} (p : Fin n0) (q : Fin n1) (n : Nat) (h : n < 2) (e : n = 0) :
    ((ix2 p q : (⟨2, ![n0, n1]⟩ : Shape).Idx) ⟨n, h⟩).val = p.val := by subst e; rfl

/-- A coordinate of `ix2 p q` at an axis known to be the second. -/
theorem ix2_val_one {n0 n1 : Nat} (p : Fin n0) (q : Fin n1) (n : Nat) (h : n < 2) (e : n = 1) :
    ((ix2 p q : (⟨2, ![n0, n1]⟩ : Shape).Idx) ⟨n, h⟩).val = q.val := by subst e; rfl

/-- The left operand's row at result entry `(p, q)` is `p`. -/
theorem lhs_row (hlb : D.lhsBatch = []) (hln : D.lhsNonContracting = [0]) (p : Fin N) (q : Fin M) (k : D.contr.Idx) :
    (D.lhsIdx (ix2 p q) k 0).val = p.val := by
  unfold DotDims.lhsIdx
  rw [dif_neg (by rw [hlb]; exact List.not_mem_nil), dif_pos (by rw [hln]; exact List.mem_singleton.mpr rfl)]
  simp only [Fin.val_cast]
  exact ix2_val_zero p q _ _ (by simp [hlb, hln])

/-- The right operand's column at result entry `(p, q)` is `q`. -/
theorem rhs_col (hlb : D.lhsBatch = []) (hln : D.lhsNonContracting = [0]) (hrb : D.rhsBatch = []) (hrn : D.rhsNonContracting = [1])
    (p : Fin N) (q : Fin M) (k : D.contr.Idx) :
    (D.rhsIdx (ix2 p q) k 1).val = q.val := by
  unfold DotDims.rhsIdx
  rw [dif_neg (by rw [hrb]; exact List.not_mem_nil), dif_pos (by rw [hrn]; exact List.mem_singleton.mpr rfl)]
  simp only [Fin.val_cast]
  exact ix2_val_one p q _ _ (by simp [hlb, hln, hrn])

/-- THE PRODUCT AT AN ENTRY: the contraction sum is `∑ₖ l (p, k) · r (k, q)`. -/
theorem sum_contr (hlc : D.lhsContracting = [1]) (hrc : D.rhsContracting = [0]) (hlb : D.lhsBatch = [])
    (hln : D.lhsNonContracting = [0]) (hrb : D.rhsBatch = []) (hrn : D.rhsNonContracting = [1])
    (l : (⟨2, ![N, K]⟩ : Shape).Idx → EReal) (r : (⟨2, ![K, M]⟩ : Shape).Idx → EReal) (p : Fin N) (q : Fin M) :
    ∑ k : D.contr.Idx, l (D.lhsIdx (ix2 p q) k) * r (D.rhsIdx (ix2 p q) k) = ∑ k : Fin K, l (ix2 p k) * r (ix2 k q) := by
  rw [← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 p q) ((contrEquiv1 D K (contr_rank D hlc) (contr_size D hlc)).symm k) = ix2 p k :=
    funext fun a => Fin.ext (by
      match a with
      | ⟨0, _⟩ => exact lhs_row D hlb hln p q _
      | ⟨1, _⟩ => exact (D.lhsIdx_val_of_single hlc _ _).trans hk)
  have er : D.rhsIdx (ix2 p q) ((contrEquiv1 D K (contr_rank D hlc) (contr_size D hlc)).symm k) = ix2 k q :=
    funext fun a => Fin.ext (by
      match a with
      | ⟨0, _⟩ => exact (D.rhsIdx_val_of_single hrc _ _).trans hk
      | ⟨1, _⟩ => exact rhs_col D hlb hln hrb hrn p q _)
  rw [el, er]

/-- A `tpu.matmul` into the zero accumulator, at an entry. -/
theorem matmul_zero_apply (hlc : D.lhsContracting = [1]) (hrc : D.rhsContracting = [0]) (hlb : D.lhsBatch = [])
    (hln : D.lhsNonContracting = [0]) (hrb : D.rhsBatch = []) (hrn : D.rhsNonContracting = [1])
    (prec : Option ContractPrecision) (l : FVec Ideal ⟨2, ![N, K]⟩ .f32) (r : FVec Ideal ⟨2, ![K, M]⟩ .f32) (p : Fin N) (q : Fin M) :
    matmul D prec l r (constant ⟨2, ![N, M]⟩ .f32 0x00000000#32) (ix2 p q) = ∑ k : Fin K, l (ix2 p k) * r (ix2 k q) := by
  simp only [matmul]
  rw [Ideal.matmul_constant_zero_apply]
  exact sum_contr D hlc hrc hlb hln hrb hrn l r p q

/-- The host's `dot_general`, at an entry. -/
theorem dotGeneral_apply (hlc : D.lhsContracting = [1]) (hrc : D.rhsContracting = [0]) (hlb : D.lhsBatch = [])
    (hln : D.lhsNonContracting = [0]) (hrb : D.rhsBatch = []) (hrn : D.rhsNonContracting = [1])
    (prec : Option ContractPrecision) (l : FVec Ideal ⟨2, ![N, K]⟩ .f32) (r : FVec Ideal ⟨2, ![K, M]⟩ .f32) (p : Fin N) (q : Fin M) :
    Host.dotGeneral D prec l r (ix2 p q) = ∑ k : Fin K, l (ix2 p k) * r (ix2 k q) := by
  simp only [Host.dotGeneral]
  rw [Ideal.dotGeneral_apply]
  exact sum_contr D hlc hrc hlb hln hrb hrn l r p q

end Cert.LibDot

end
-- ==== Proof.KPayValue.lean ====
/-
  The body's two blocks at an entry, on the extended reals: row `r` of the step's block depends only on row `r` of the
  six pair-input slabs, through the row function of `Spec`.
-/
import proofs.«105215_j11948599017715_1_alg».proof.Proof.KOut
import proofs.«105215_j11948599017715_1_alg».proof.Proof.Spec
import proofs.«105215_j11948599017715_1_alg».proof.Proof.LibDot
import Idealize.ShloMosaic.PureOps.Ideal.Laws
import Idealize.ShloMosaic.Lib.Pipeline.Value
import Idealize.ShloMosaic.Lib.ValueLayout

noncomputable section

open scoped BigOperators

namespace Cert.KernelIdeal.KPV

open Cert.KernelIdeal Cert.KernelIdeal.Gen Idealize.ShloMosaic Idealize.ShloMosaic.ValueIdx Idealize.SL.Sem

/-! ## One dense layer at an entry -/

section Dense

variable {N K M : Nat} (D : DotDims ⟨2, ![N, K]⟩ ⟨2, ![K, M]⟩ ⟨2, ![N, M]⟩)

/-- A matrix product into the zero accumulator, at an entry: the textbook sum, whatever the operands' formats. -/
theorem matmul_zero_apply {φ₁ φ₂ : FTy} (hlc : D.lhsContracting = [1]) (hrc : D.rhsContracting = [0]) (hlb : D.lhsBatch = [])
    (hln : D.lhsNonContracting = [0]) (hrb : D.rhsBatch = []) (hrn : D.rhsNonContracting = [1])
    (prec : Option ContractPrecision) (l : FVec Ideal ⟨2, ![N, K]⟩ φ₁) (w : FVec Ideal ⟨2, ![K, M]⟩ φ₂) (p : Fin N) (q : Fin M) :
    matmul D prec l w (constant (F := Ideal) ⟨2, ![N, M]⟩ .f32 0x00000000#32) (ix2 p q) = ∑ k : Fin K, l (ix2 p k) * w (ix2 k q) := by
  simp only [matmul]
  rw [Ideal.matmul_constant_zero_apply]
  exact Cert.LibDot.sum_contr D hlc hrc hlb hln hrb hrn l w p q

/-- A bias row laid under every row of a block, at an entry: the bias at the column. -/
theorem biasRow_apply (b : FVec Ideal ⟨1, ![M]⟩ .f32) (hs : (⟨1, ![M]⟩ : Shape).ShapeCasts ⟨2, ![1, M]⟩)
    (hb : (⟨2, ![1, M]⟩ : Shape).Broadcasts ⟨2, ![N, M]⟩) (p : Fin N) (q : Fin M) :
    broadcastTo ⟨2, ![N, M]⟩ (shapeCast ⟨2, ![1, M]⟩ b hs) hb (ix2 p q) = b (ix1 q) := by
  rw [broadcastTo_1b_ab_apply, shapeCast_a_1a_apply]

/-- A dense layer (product, bias row) at an entry. -/
theorem dense_apply {φ₁ φ₂ : FTy} (hlc : D.lhsContracting = [1]) (hrc : D.rhsContracting = [0]) (hlb : D.lhsBatch = [])
    (hln : D.lhsNonContracting = [0]) (hrb : D.rhsBatch = []) (hrn : D.rhsNonContracting = [1])
    (l : FVec Ideal ⟨2, ![N, K]⟩ φ₁) (w : FVec Ideal ⟨2, ![K, M]⟩ φ₂) (b : FVec Ideal ⟨1, ![M]⟩ .f32)
    (hs : (⟨1, ![M]⟩ : Shape).ShapeCasts ⟨2, ![1, M]⟩) (hb : (⟨2, ![1, M]⟩ : Shape).Broadcasts ⟨2, ![N, M]⟩) (p : Fin N) (q : Fin M) :
    addf (matmul D none l w (constant (F := Ideal) ⟨2, ![N, M]⟩ .f32 0x00000000#32))
        (broadcastTo ⟨2, ![N, M]⟩ (shapeCast ⟨2, ![1, M]⟩ b hs) hb) (ix2 p q)
      = (∑ k : Fin K, l (ix2 p k) * w (ix2 k q)) + b (ix1 q) := by
  rw [addf_apply, matmul_zero_apply D hlc hrc hlb hln hrb hrn, biasRow_apply]

/-- A dense layer cut at zero from below, at an entry. -/
theorem denseRelu_apply {φ₁ φ₂ : FTy} (hlc : D.lhsContracting = [1]) (hrc : D.rhsContracting = [0]) (hlb : D.lhsBatch = [])
    (hln : D.lhsNonContracting = [0]) (hrb : D.rhsBatch = []) (hrn : D.rhsNonContracting = [1])
    (l : FVec Ideal ⟨2, ![N, K]⟩ φ₁) (w : FVec Ideal ⟨2, ![K, M]⟩ φ₂) (b : FVec Ideal ⟨1, ![M]⟩ .f32)
    (hs : (⟨1, ![M]⟩ : Shape).ShapeCasts ⟨2, ![1, M]⟩) (hb : (⟨2, ![1, M]⟩ : Shape).Broadcasts ⟨2, ![N, M]⟩) (p : Fin N) (q : Fin M) :
    maximumf (addf (matmul D none l w (constant (F := Ideal) ⟨2, ![N, M]⟩ .f32 0x00000000#32))
        (broadcastTo ⟨2, ![N, M]⟩ (shapeCast ⟨2, ![1, M]⟩ b hs) hb))
        (broadcast ⟨2, ![N, M]⟩ (Scalar.ofBits (F := Ideal) .f32 0x00000000#32)) (ix2 p q)
      = max ((∑ k : Fin K, l (ix2 p k) * w (ix2 k q)) + b (ix1 q)) Spec.zeroF := by
  rw [maximumf_apply, dense_apply D hlc hrc hlb hln hrb hrn]
  rfl

end Dense

/-! ## The three products of the body -/

/-- The first shared layer's product: a slab's rows by the first weights. -/
abbrev D1 := dot_S4096x80_S80x256_S4096x256_1_0_0_1_n_n
/-- The second and third layers' product: hidden rows by a square weight block. -/
abbrev D2 := dot_S4096x256_S256x256_S4096x256_1_0_0_1_n_n
/-- The heads' product: hidden rows by a head's weights. -/
abbrev D3 := dot_S4096x256_S256x4_S4096x4_1_0_0_1_n_n

/-! ## A slab of the pair-input block, read at an entry -/

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a; rfl

/-- Slab `n` of the pair-input block at `(0, r, k)` is the block at `(n, r, k)`. -/
theorem ld_slab (x0 : Vec Ideal S6x4096x80 .bf16) (n : Nat) (hn : n < 6)
    (inb : ∀ a, (![n, 0, 0] : Fin 3 → Nat) a + S1x4096x80.size a ≤ S6x4096x80.size a) (r : Fin 4096) (k : Fin 80) :
    View.ld x0 (Rect.unit (s := S6x4096x80) ![n, 0, 0] S1x4096x80.size inb) (ix3 (0 : Fin 1) r k) = x0 (ix3 (⟨n, hn⟩ : Fin 6) r k) := by
  show x0 _ = x0 _
  refine congrArg x0 (funext fun a => Fin.ext ?_)
  match a with
  | ⟨0, _⟩ => show n + 1 * 0 = n; omega
  | ⟨1, _⟩ => show 0 + 1 * r.val = r.val; omega
  | ⟨2, _⟩ => show 0 + 1 * k.val = k.val; omega

/-! ## The shared layers on one slab, at an entry -/

/-- The first shared layer on a slab's row `r`, at hidden unit `o`. -/
theorem hidSlab_apply (X : FVec Ideal S1x4096x80 .bf16) (w1 : FVec Ideal S80x256 .bf16) (b1 : Vec Ideal S256 .f32) (r : Fin 4096) (o : Fin 256) :
    maximumf (addf (matmul D1 none (shapeCast S4096x80 X shapeCasts_S1x4096x80_S4096x80) w1 (constant (F := Ideal) S4096x256 .f32 0x00000000#32))
        (broadcastTo S4096x256 (shapeCast S1x256 b1 shapeCasts_S256_S1x256) broadcasts_S1x256_S4096x256))
        (broadcast S4096x256 (Scalar.ofBits (F := Ideal) .f32 0x00000000#32)) (ix2 r o)
      = max ((∑ k : Fin 80, X (ix3 (0 : Fin 1) r k) * w1 (ix2 k o)) + b1 (ix1 o)) Spec.zeroF := by
  refine (denseRelu_apply D1 rfl rfl rfl rfl rfl rfl _ w1 b1 _ _ r o).trans ?_
  simp only [shapeCast_1ab_ab_apply]

/-- A later layer on a hidden block's row `r` (the block narrowed first, which changes nothing), at unit `o`. -/
theorem layer_apply (H : FVec Ideal S4096x256 .f32) (w : FVec Ideal S256x256 .bf16) (b : Vec Ideal S256 .f32) (r : Fin 4096) (o : Fin 256) :
    maximumf (addf (matmul D2 none (truncf .bf16 H bitsLt_bf16_f32) w (constant (F := Ideal) S4096x256 .f32 0x00000000#32))
        (broadcastTo S4096x256 (shapeCast S1x256 b shapeCasts_S256_S1x256) broadcasts_S1x256_S4096x256))
        (broadcast S4096x256 (Scalar.ofBits (F := Ideal) .f32 0x00000000#32)) (ix2 r o)
      = max ((∑ h : Fin 256, H (ix2 r h) * w (ix2 h o)) + b (ix1 o)) Spec.zeroF :=
  denseRelu_apply D2 rfl rfl rfl rfl rfl rfl _ w b _ _ r o

/-- A head on the narrowed third layer's row `r`, at output `j`. -/
theorem head_apply (R : FVec Ideal S4096x256 .bf16) (w : FVec Ideal S256x4 .bf16) (b : Vec Ideal S4 .f32) (r : Fin 4096) (j : Fin 4) :
    addf (matmul D3 none R w (constant (F := Ideal) S4096x4 .f32 0x00000000#32))
        (broadcastTo S4096x4 (shapeCast S1x4 b shapeCasts_S4_S1x4) broadcasts_S1x4_S4096x4) (ix2 r j)
      = (∑ h : Fin 256, R (ix2 r h) * w (ix2 h j)) + b (ix1 j) :=
  dense_apply D3 rfl rfl rfl rfl rfl rfl R w b _ _ r j

/-- The pair feature of a slab's row `r` at unit `o`: both shared layers. -/
def phiE (X : FVec Ideal S1x4096x80 .bf16) (w1 : FVec Ideal S80x256 .bf16) (b1 : Vec Ideal S256 .f32) (w2 : FVec Ideal S256x256 .bf16)
    (b2 : Vec Ideal S256 .f32) (r : Fin 4096) (o : Fin 256) : EReal :=
  max ((∑ h : Fin 256, max ((∑ k : Fin 80, X (ix3 (0 : Fin 1) r k) * w1 (ix2 k h)) + b1 (ix1 h)) Spec.zeroF * w2 (ix2 h o)) + b2 (ix1 o)) Spec.zeroF

/-- Both shared layers on a slab, at an entry. -/
theorem phiSlab_apply (X : FVec Ideal S1x4096x80 .bf16) (w1 : FVec Ideal S80x256 .bf16) (b1 : Vec Ideal S256 .f32) (w2 : FVec Ideal S256x256 .bf16)
    (b2 : Vec Ideal S256 .f32) (r : Fin 4096) (o : Fin 256) :
    maximumf (addf (matmul D2 none (truncf .bf16
          (maximumf (addf (matmul D1 none (shapeCast S4096x80 X shapeCasts_S1x4096x80_S4096x80) w1 (constant (F := Ideal) S4096x256 .f32 0x00000000#32))
            (broadcastTo S4096x256 (shapeCast S1x256 b1 shapeCasts_S256_S1x256) broadcasts_S1x256_S4096x256))
            (broadcast S4096x256 (Scalar.ofBits (F := Ideal) .f32 0x00000000#32))) bitsLt_bf16_f32) w2 (constant (F := Ideal) S4096x256 .f32 0x00000000#32))
        (broadcastTo S4096x256 (shapeCast S1x256 b2 shapeCasts_S256_S1x256) broadcasts_S1x256_S4096x256))
        (broadcast S4096x256 (Scalar.ofBits (F := Ideal) .f32 0x00000000#32)) (ix2 r o)
      = phiE X w1 b1 w2 b2 r o := by
  refine (layer_apply _ w2 b2 r o).trans ?_
  unfold phiE
  simp only [hidSlab_apply]

/-! ## The named payloads at an entry -/

section Payloads

variable (v0 : Vec Ideal S80x256 .f32) (v1 : FVec Ideal S80x256 .bf16) (v2 : Vec Ideal S256 .f32) (v3 : Vec Ideal S256x256 .f32)
  (v4 : FVec Ideal S256x256 .bf16) (v5 : Vec Ideal S256 .f32) (r : Fin 4096) (o : Fin 256)

theorem pay2_apply (i : S80x256.Idx) : k0_pay2 v0 i = v0 i := rfl

theorem pay3_apply (i : S256x256.Idx) : k0_pay3 v3 i = v3 i := rfl

/-- The running sum after the first slab. -/
theorem pay4_apply (v7 : Vec Ideal S1x4096x80 .bf16) :
    k0_pay4 v0 v2 v3 v5 v7 (ix2 r o) = Spec.zeroF + phiE v7 (k0_pay2 v0) v2 (k0_pay3 v3) v5 r o := by
  unfold k0_pay4
  exact congrArg (Spec.zeroF + ·) (phiSlab_apply v7 (k0_pay2 v0) v2 (k0_pay3 v3) v5 r o)

/-- The second slab's pair feature. -/
theorem pay5_apply (v23 : Vec Ideal S1x4096x80 .bf16) :
    k0_pay5 v0 v2 v3 v5 v23 (ix2 r o) = phiE v23 (k0_pay2 v0) v2 (k0_pay3 v3) v5 r o := by
  unfold k0_pay5
  exact phiSlab_apply v23 (k0_pay2 v0) v2 (k0_pay3 v3) v5 r o

/-- The running sum after the fourth slab, from the sum after the first and the second's feature. -/
theorem pay6_apply (v22 v37 : FVec Ideal S4096x256 .f32) (v39 v55 : Vec Ideal S1x4096x80 .bf16) :
    k0_pay6 v1 v2 v4 v5 v22 v37 v39 v55 (ix2 r o)
      = ((v22 (ix2 r o) + v37 (ix2 r o)) + phiE v39 v1 v2 v4 v5 r o) + phiE v55 v1 v2 v4 v5 r o := by
  unfold k0_pay6
  exact congrArg₂ (· + ·) (congrArg ((v22 (ix2 r o) + v37 (ix2 r o)) + ·) (phiSlab_apply v39 v1 v2 v4 v5 r o))
    (phiSlab_apply v55 v1 v2 v4 v5 r o)

/-- The fifth slab's first layer. -/
theorem pay7_apply (v71 : Vec Ideal S1x4096x80 .bf16) :
    k0_pay7 v1 v2 v71 (ix2 r o) = max ((∑ k : Fin 80, v71 (ix3 (0 : Fin 1) r k) * v1 (ix2 k o)) + v2 (ix1 o)) Spec.zeroF := by
  unfold k0_pay7
  exact hidSlab_apply v71 v1 v2 r o

/-- The third layer on the full sum: the sum after four slabs, the fifth's second layer, the sixth's feature. -/
theorem pay8_apply (v70 v78 : FVec Ideal S4096x256 .f32) (v87 : Vec Ideal S1x4096x80 .bf16) (v103 : Vec Ideal S256x256 .f32)
    (v105 : Vec Ideal S256 .f32) :
    k0_pay8 v1 v2 v4 v5 v70 v78 v87 v103 v105 (ix2 r o)
      = max ((∑ h : Fin 256,
            ((v70 (ix2 r h) + max ((∑ g : Fin 256, v78 (ix2 r g) * v4 (ix2 g h)) + v5 (ix1 h)) Spec.zeroF)
              + phiE v87 v1 v2 v4 v5 r h) * v103 (ix2 h o)) + v105 (ix1 o)) Spec.zeroF := by
  unfold k0_pay8
  show maximumf (F := Ideal) (s := S4096x256) (φ := .f32) _ _ (ix2 r o) = _
  refine (layer_apply _ _ v105 r o).trans ?_
  refine congrArg (max · Spec.zeroF) (congrArg (· + v105 (ix1 o)) (Finset.sum_congr rfl fun h _ => ?_))
  refine congrArg₂ (· * ·) ?_ rfl
  exact congrArg₂ (· + ·) (congrArg (v70 (ix2 r h) + ·) (layer_apply v78 v4 v5 r h)) (phiSlab_apply v87 v1 v2 v4 v5 r h)

end Payloads

/-- The mean head on the third layer. -/
theorem pay9_apply (v1 : FVec Ideal S80x256 .bf16) (v2 : Vec Ideal S256 .f32) (v4 : FVec Ideal S256x256 .bf16) (v5 : Vec Ideal S256 .f32)
    (v70 v78 : FVec Ideal S4096x256 .f32) (v87 : Vec Ideal S1x4096x80 .bf16) (v103 : Vec Ideal S256x256 .f32)
    (v105 : Vec Ideal S256 .f32) (v114 : Vec Ideal S256x4 .f32) (v116 : Vec Ideal S4 .f32) (r : Fin 4096) (j : Fin 4) :
    k0_pay9 v1 v2 v4 v5 v70 v78 v87 v103 v105 v114 v116 (ix2 r j)
      = (∑ h : Fin 256, k0_pay8 v1 v2 v4 v5 v70 v78 v87 v103 v105 (ix2 r h) * v114 (ix2 h j)) + v116 (ix1 j) := by
  unfold k0_pay9
  exact head_apply (k0_pay8 v1 v2 v4 v5 v70 v78 v87 v103 v105) (truncf .bf16 v114 bitsLt_bf16_f32) v116 r j

/-- The log-deviation head on the third layer, clipped. -/
theorem pay1_apply (v113 : FVec Ideal S4096x256 .bf16) (v121 : Vec Ideal S256x4 .f32) (v123 : Vec Ideal S4 .f32) (r : Fin 4096) (j : Fin 4) :
    k0_pay1 v113 v121 v123 (ix2 r j)
      = min Spec.hiF (max Spec.loF ((∑ h : Fin 256, v113 (ix2 r h) * v121 (ix2 h j)) + v123 (ix1 j))) := by
  unfold k0_pay1
  exact congrArg (fun t => min Spec.hiF (max Spec.loF t)) (head_apply v113 (truncf .bf16 v121 bitsLt_bf16_f32) v123 r j)

/-! ## The body's loads -/

/-- A block loaded whole is the block. -/
theorem ldW1 (x : Vec Ideal S80x256 .f32) : View.ld x KO.rW1 = x := View.ld_unit_zero (S := S80x256) hz2 _ x
theorem ldB (x : Vec Ideal S256 .f32) : View.ld x KO.rB = x := View.ld_unit_zero (S := S256) hz1 _ x
theorem ldW2 (x : Vec Ideal S256x256 .f32) : View.ld x KO.rW2 = x := View.ld_unit_zero (S := S256x256) hz2 _ x
theorem ldH (x : Vec Ideal S256x4 .f32) : View.ld x KO.rH = x := View.ld_unit_zero (S := S256x4) hz2 _ x
theorem ldB4 (x : Vec Ideal S4 .f32) : View.ld x KO.rB4 = x := View.ld_unit_zero (S := S4) hz1 _ x

section Rows

variable (x0 : Vec Ideal S6x4096x80 .bf16) (x1 : Vec Ideal S80x256 .f32) (x2 : Vec Ideal S256 .f32) (x3 : Vec Ideal S256x256 .f32)
  (x4 : Vec Ideal S256 .f32) (x5 : Vec Ideal S256x256 .f32) (x6 : Vec Ideal S256 .f32) (r : Fin 4096)

/-- The pair feature of slab `n`'s row `r` is the specification's on pair-input `n` of row `r`. -/
theorem phiE_slab (n : Nat) (hn : n < 6) (inb : ∀ a, (![n, 0, 0] : Fin 3 → Nat) a + S1x4096x80.size a ≤ S6x4096x80.size a) (o : Fin 256) :
    phiE (View.ld x0 (Rect.unit (s := S6x4096x80) ![n, 0, 0] S1x4096x80.size inb)) (k0_pay2 x1) x2 (k0_pay3 x3) x4 r o
      = Spec.phi (fun p k => x0 (ix3 p r k)) x1 x2 x3 x4 ⟨n, hn⟩ o := by
  unfold phiE Spec.phi Spec.hid
  simp only [ld_slab x0 n hn inb, pay2_apply, pay3_apply]

/-- The sum of the first four pair features of row `r`. -/
theorem acc4_apply (o : Fin 256) :
    KO.acc4 x0 x1 x2 x3 x4 (ix2 r o)
      = (((Spec.zeroF + Spec.phi (fun p k => x0 (ix3 p r k)) x1 x2 x3 x4 0 o) + Spec.phi (fun p k => x0 (ix3 p r k)) x1 x2 x3 x4 1 o)
          + Spec.phi (fun p k => x0 (ix3 p r k)) x1 x2 x3 x4 2 o) + Spec.phi (fun p k => x0 (ix3 p r k)) x1 x2 x3 x4 3 o := by
  unfold KO.acc4
  rw [pay6_apply, pay4_apply, pay5_apply]
  simp only [ldW1, ldB, ldW2]
  exact congrArg₂ (· + ·) (congrArg₂ (· + ·) (congrArg₂ (· + ·)
    (congrArg (Spec.zeroF + ·) (phiE_slab x0 x1 x2 x3 x4 r 0 (by omega) _ o))
    (phiE_slab x0 x1 x2 x3 x4 r 1 (by omega) _ o)) (phiE_slab x0 x1 x2 x3 x4 r 2 (by omega) _ o))
    (phiE_slab x0 x1 x2 x3 x4 r 3 (by omega) _ o)

/-- The fifth pair-input's first layer on row `r`. -/
theorem hid5_apply (o : Fin 256) :
    KO.hid5 x0 x1 x2 (ix2 r o) = Spec.hid (fun p k => x0 (ix3 p r k)) x1 x2 4 o := by
  unfold KO.hid5
  simp only [ldW1, ldB]
  rw [pay7_apply]
  simp only [pay2_apply, ld_slab x0 4 (by omega)]
  rfl

/-- The third layer on row `r`: the running sum of six features from zero is the specification's sum. -/
theorem rho_apply (o : Fin 256) :
    k0_pay8 (k0_pay2 x1) x2 (k0_pay3 x3) x4 (KO.acc4 x0 x1 x2 x3 x4) (KO.hid5 x0 x1 x2) (View.ld x0 KO.rX5) x5 x6 (ix2 r o)
      = Spec.rho (fun p k => x0 (ix3 p r k)) x1 x2 x3 x4 x5 x6 o := by
  rw [pay8_apply]
  simp only [acc4_apply, hid5_apply, pay3_apply]
  unfold Spec.rho
  refine congrArg (max · Spec.zeroF) (congrArg (· + x6 (ix1 o)) (Finset.sum_congr rfl fun h _ => congrArg (· * x5 (ix2 h o)) ?_))
  rw [phiE_slab x0 x1 x2 x3 x4 r 5 (by omega)]
  unfold Spec.agg
  rw [Fin.sum_univ_six]
  show _ + Spec.phi (fun p k => x0 (ix3 p r k)) x1 x2 x3 x4 4 h + Spec.phi (fun p k => x0 (ix3 p r k)) x1 x2 x3 x4 5 h = _
  simp only [add_assoc]

end Rows

theorem meanPay_apply (x0 : Vec Ideal S6x4096x80 .bf16) (x1 : Vec Ideal S80x256 .f32) (x2 : Vec Ideal S256 .f32) (x3 : Vec Ideal S256x256 .f32)
    (x4 : Vec Ideal S256 .f32) (x5 : Vec Ideal S256x256 .f32) (x6 : Vec Ideal S256 .f32) (x7 : Vec Ideal S256x4 .f32) (x8 : Vec Ideal S4 .f32)
    (r : Fin 4096) (j : Fin 4) :
    KO.meanPay x0 x1 x2 x3 x4 x5 x6 x7 x8 (ix2 r j)
      = Spec.meanRow (fun p k => x0 (ix3 p r k)) x1 x2 x3 x4 x5 x6 x7 x8 j := by
  unfold KO.meanPay
  simp only [ldW1, ldB, ldW2, ldH, ldB4]
  rw [pay9_apply]
  simp only [rho_apply]
  rfl

theorem logstdPay_apply (x0 : Vec Ideal S6x4096x80 .bf16) (x1 : Vec Ideal S80x256 .f32) (x2 : Vec Ideal S256 .f32) (x3 : Vec Ideal S256x256 .f32)
    (x4 : Vec Ideal S256 .f32) (x5 : Vec Ideal S256x256 .f32) (x6 : Vec Ideal S256 .f32) (x9 : Vec Ideal S256x4 .f32) (x10 : Vec Ideal S4 .f32)
    (r : Fin 4096) (j : Fin 4) :
    KO.logstdPay x0 x1 x2 x3 x4 x5 x6 x9 x10 (ix2 r j)
      = Spec.logstdRow (fun p k => x0 (ix3 p r k)) x1 x2 x3 x4 x5 x6 x9 x10 j := by
  unfold KO.logstdPay KO.rhoPay
  simp only [ldW1, ldB, ldW2, ldH, ldB4]
  rw [pay1_apply]
  simp only [rho_apply]
  rfl

end Cert.KernelIdeal.KPV

end
-- ==== Proof.KTerm.lean ====
/-
  The kernel program's pair-input array as a pure term of its first three argument arrays: the host operations of its
  text before the launch, composed. Each column block is narrowed to the 16-bit format before the blocks are laid side by
  side; the six pair-inputs are then stacked.
-/
import proofs.«105215_j11948599017715_1_alg».proof.Proof.Gen.KernelIdeal

noncomputable section

namespace Cert.KernelIdeal.KT

open Cert.KernelIdeal Cert.KernelIdeal.Gen Idealize.ShloMosaic Idealize.SL.Sem

variable {F : FTy → Type} [FloatOps F]

/-- The column table of a feature selection, as the text builds it: the literal table, with 30 added where an entry is
    flagged negative (no entry is), as a 20 × 1 array. -/
def idxTab (lit : Fin 20 → BitVec 32) : (⟨S20x1, .i32⟩ : BufTy).Contents (Elt F) :=
  broadcastInDim S20x1 ![0] bcast_S20_S20x1_0
    (select (constantI S20 1 0#1 : (⟨S20, .i1⟩ : BufTy).Contents (Elt F))
      (addi (fun i => lit (S20.rowMajor i) : (⟨S20, .i32⟩ : BufTy).Contents (Elt F))
        (broadcastInDim S20 ![] bcast_S_S20 (constantI S_ 32 30#32 : (⟨S_, .i32⟩ : BufTy).Contents (Elt F))))
      (fun i => lit (S20.rowMajor i) : (⟨S20, .i32⟩ : BufTy).Contents (Elt F)))

/-- Twenty selected columns of a 30-column array, narrowed. -/
def gath (x : (⟨S65536x30, .f32⟩ : BufTy).Contents (Elt F)) (lit : Fin 20 → BitVec 32) : (⟨S65536x20, .bf16⟩ : BufTy).Contents (Elt F) :=
  truncf .bf16 (Host.gather gather_S65536x30_S20x1_S65536x20_0_1_n_n_1_1_655361 x (idxTab (F := F) lit)) bitsLt_bf16_f32

def body (a0 : (⟨S65536x55, .f32⟩ : BufTy).Contents (Elt F)) : (⟨S65536x10, .bf16⟩ : BufTy).Contents (Elt F) :=
  truncf .bf16 (extractStridedSlice S65536x10 ![0, 0] a0 slices_S65536x55_S65536x10_0_0) bitsLt_bf16_f32
def obj0 (a0 : (⟨S65536x55, .f32⟩ : BufTy).Contents (Elt F)) : (⟨S65536x15, .bf16⟩ : BufTy).Contents (Elt F) :=
  truncf .bf16 (extractStridedSlice S65536x15 ![0, 10] a0 slices_S65536x55_S65536x15_0_10) bitsLt_bf16_f32
def obj1 (a0 : (⟨S65536x55, .f32⟩ : BufTy).Contents (Elt F)) : (⟨S65536x15, .bf16⟩ : BufTy).Contents (Elt F) :=
  truncf .bf16 (extractStridedSlice S65536x15 ![0, 25] a0 slices_S65536x55_S65536x15_0_25) bitsLt_bf16_f32
def obj2 (a0 : (⟨S65536x55, .f32⟩ : BufTy).Contents (Elt F)) : (⟨S65536x15, .bf16⟩ : BufTy).Contents (Elt F) :=
  truncf .bf16 (extractStridedSlice S65536x15 ![0, 40] a0 slices_S65536x55_S65536x15_0_40) bitsLt_bf16_f32

/-- Five column blocks side by side: one pair-input for every batch row. -/
def cat (u0 : (⟨S65536x20, .bf16⟩ : BufTy).Contents (Elt F)) (u1 : (⟨S65536x10, .bf16⟩ : BufTy).Contents (Elt F))
    (u2 : (⟨S65536x20, .bf16⟩ : BufTy).Contents (Elt F)) (u3 u4 : (⟨S65536x15, .bf16⟩ : BufTy).Contents (Elt F)) :
    (⟨S65536x80, .bf16⟩ : BufTy).Contents (Elt F) :=
  concatenate S65536x80 1 [⟨S65536x20, u0⟩, ⟨S65536x10, u1⟩, ⟨S65536x20, u2⟩, ⟨S65536x15, u3⟩, ⟨S65536x15, u4⟩]
    concatenates_S65536x20_S65536x10_S65536x20_S65536x15_S65536x15_S65536x80_d1

def lift3 (x : (⟨S65536x80, .bf16⟩ : BufTy).Contents (Elt F)) : (⟨S1x65536x80, .bf16⟩ : BufTy).Contents (Elt F) :=
  broadcastInDim S1x65536x80 ![1, 2] bcast_S65536x80_S1x65536x80_1_2 x

/-- The six pair-inputs stacked: the launch's first operand. -/
def inp (a0 : (⟨S65536x55, .f32⟩ : BufTy).Contents (Elt F)) (a1 a2 : (⟨S65536x30, .f32⟩ : BufTy).Contents (Elt F)) :
    (⟨S6x65536x80, .bf16⟩ : BufTy).Contents (Elt F) :=
  concatenate S6x65536x80 0
    [⟨S1x65536x80, lift3 (cat (gath a1 lit0) (body a0) (gath a2 lit0) (obj0 a0) (obj1 a0))⟩,
     ⟨S1x65536x80, lift3 (cat (gath a1 lit0) (body a0) (gath a2 lit0) (obj0 a0) (obj2 a0))⟩,
     ⟨S1x65536x80, lift3 (cat (gath a1 lit1) (body a0) (gath a2 lit1) (obj1 a0) (obj0 a0))⟩,
     ⟨S1x65536x80, lift3 (cat (gath a1 lit0) (body a0) (gath a2 lit0) (obj1 a0) (obj2 a0))⟩,
     ⟨S1x65536x80, lift3 (cat (gath a1 lit1) (body a0) (gath a2 lit1) (obj2 a0) (obj0 a0))⟩,
     ⟨S1x65536x80, lift3 (cat (gath a1 lit1) (body a0) (gath a2 lit1) (obj2 a0) (obj1 a0))⟩]
    concatenates_S1x65536x80_S1x65536x80_S1x65536x80_S1x65536x80_S1x65536x80_S1x65536x80_S6x65536x80_d0

end Cert.KernelIdeal.KT

end
-- ==== Proof.RefTerm.lean ====
/-
  The reference's result arrays as pure terms of its thirteen argument arrays: the host operations of its text,
  composed. The pair-inputs are five column blocks side by side (selected goal features, body, selected goal features,
  two objects), stacked six deep; then two shared rectified layers, a sum over the six, a third rectified layer, and the
  two heads (the second clipped).
-/
import proofs.«105215_j11948599017715_1_alg».proof.Proof.Gen.ReferenceIdeal

noncomputable section

namespace Cert.ReferenceIdeal.RT

open Cert.ReferenceIdeal Cert.ReferenceIdeal.Gen Idealize.ShloMosaic Idealize.SL.Sem

variable {F : FTy → Type} [FloatOps F]

/-- The column table of a feature selection, as the text builds it: the literal table, with 30 added where an entry is
    flagged negative (no entry is), as a 20 × 1 array. -/
def idxTab (lit : Fin 20 → BitVec 32) : (⟨S20x1, .i32⟩ : BufTy).Contents (Elt F) :=
  broadcastInDim S20x1 ![0] bcast_S20_S20x1_0
    (select (constantI S20 1 0#1 : (⟨S20, .i1⟩ : BufTy).Contents (Elt F))
      (addi (fun i => lit (S20.rowMajor i) : (⟨S20, .i32⟩ : BufTy).Contents (Elt F))
        (broadcastInDim S20 ![] bcast_S_S20 (constantI S_ 32 30#32 : (⟨S_, .i32⟩ : BufTy).Contents (Elt F))))
      (fun i => lit (S20.rowMajor i) : (⟨S20, .i32⟩ : BufTy).Contents (Elt F)))

/-- Twenty selected columns of a 30-column array. -/
def gath (x : (⟨S65536x30, .f32⟩ : BufTy).Contents (Elt F)) (lit : Fin 20 → BitVec 32) : (⟨S65536x20, .f32⟩ : BufTy).Contents (Elt F) :=
  Host.gather gather_S65536x30_S20x1_S65536x20_0_1_n_n_1_1_655361 x (idxTab (F := F) lit)

def body (a0 : (⟨S65536x55, .f32⟩ : BufTy).Contents (Elt F)) : (⟨S65536x10, .f32⟩ : BufTy).Contents (Elt F) :=
  extractStridedSlice S65536x10 ![0, 0] a0 slices_S65536x55_S65536x10_0_0
def obj0 (a0 : (⟨S65536x55, .f32⟩ : BufTy).Contents (Elt F)) : (⟨S65536x15, .f32⟩ : BufTy).Contents (Elt F) :=
  extractStridedSlice S65536x15 ![0, 10] a0 slices_S65536x55_S65536x15_0_10
def obj1 (a0 : (⟨S65536x55, .f32⟩ : BufTy).Contents (Elt F)) : (⟨S65536x15, .f32⟩ : BufTy).Contents (Elt F) :=
  extractStridedSlice S65536x15 ![0, 25] a0 slices_S65536x55_S65536x15_0_25
def obj2 (a0 : (⟨S65536x55, .f32⟩ : BufTy).Contents (Elt F)) : (⟨S65536x15, .f32⟩ : BufTy).Contents (Elt F) :=
  extractStridedSlice S65536x15 ![0, 40] a0 slices_S65536x55_S65536x15_0_40

/-- Five column blocks side by side: one pair-input for every batch row. -/
def cat (u0 : (⟨S65536x20, .f32⟩ : BufTy).Contents (Elt F)) (u1 : (⟨S65536x10, .f32⟩ : BufTy).Contents (Elt F))
    (u2 : (⟨S65536x20, .f32⟩ : BufTy).Contents (Elt F)) (u3 u4 : (⟨S65536x15, .f32⟩ : BufTy).Contents (Elt F)) :
    (⟨S65536x80, .f32⟩ : BufTy).Contents (Elt F) :=
  concatenate S65536x80 1 [⟨S65536x20, u0⟩, ⟨S65536x10, u1⟩, ⟨S65536x20, u2⟩, ⟨S65536x15, u3⟩, ⟨S65536x15, u4⟩]
    concatenates_S65536x20_S65536x10_S65536x20_S65536x15_S65536x15_S65536x80_d1

def lift3 (x : (⟨S65536x80, .f32⟩ : BufTy).Contents (Elt F)) : (⟨S1x65536x80, .f32⟩ : BufTy).Contents (Elt F) :=
  broadcastInDim S1x65536x80 ![1, 2] bcast_S65536x80_S1x65536x80_1_2 x

/-- The six pair-inputs stacked. -/
def inp (a0 : (⟨S65536x55, .f32⟩ : BufTy).Contents (Elt F)) (a1 a2 : (⟨S65536x30, .f32⟩ : BufTy).Contents (Elt F)) :
    (⟨S6x65536x80, .f32⟩ : BufTy).Contents (Elt F) :=
  concatenate S6x65536x80 0
    [⟨S1x65536x80, lift3 (cat (gath a1 lit0) (body a0) (gath a2 lit0) (obj0 a0) (obj1 a0))⟩,
     ⟨S1x65536x80, lift3 (cat (gath a1 lit0) (body a0) (gath a2 lit0) (obj0 a0) (obj2 a0))⟩,
     ⟨S1x65536x80, lift3 (cat (gath a1 lit1) (body a0) (gath a2 lit1) (obj1 a0) (obj0 a0))⟩,
     ⟨S1x65536x80, lift3 (cat (gath a1 lit0) (body a0) (gath a2 lit0) (obj1 a0) (obj2 a0))⟩,
     ⟨S1x65536x80, lift3 (cat (gath a1 lit1) (body a0) (gath a2 lit1) (obj2 a0) (obj0 a0))⟩,
     ⟨S1x65536x80, lift3 (cat (gath a1 lit1) (body a0) (gath a2 lit1) (obj2 a0) (obj1 a0))⟩]
    concatenates_S1x65536x80_S1x65536x80_S1x65536x80_S1x65536x80_S1x65536x80_S1x65536x80_S6x65536x80_d0

def relu3 (x : (⟨S6x65536x256, .f32⟩ : BufTy).Contents (Elt F)) : (⟨S6x65536x256, .f32⟩ : BufTy).Contents (Elt F) :=
  maximumf x (broadcastInDim S6x65536x256 ![] bcast_S_S6x65536x256 (constant S_ .f32 0x00000000#32))
def bias3 (b : (⟨S256, .f32⟩ : BufTy).Contents (Elt F)) : (⟨S6x65536x256, .f32⟩ : BufTy).Contents (Elt F) :=
  broadcastInDim S6x65536x256 ![0, 1, 2] bcast_S1x1x256_S6x65536x256_0_1_2 (broadcastInDim S1x1x256 ![2] bcast_S256_S1x1x256_2 b)
def layer1 (X : (⟨S6x65536x80, .f32⟩ : BufTy).Contents (Elt F)) (a3 : (⟨S80x256, .f32⟩ : BufTy).Contents (Elt F))
    (a4 : (⟨S256, .f32⟩ : BufTy).Contents (Elt F)) : (⟨S6x65536x256, .f32⟩ : BufTy).Contents (Elt F) :=
  relu3 (addf (Host.dotGeneral dot_S6x65536x80_S80x256_S6x65536x256_2_0_01_1_n_n none X a3) (bias3 a4))
def layer2 (H : (⟨S6x65536x256, .f32⟩ : BufTy).Contents (Elt F)) (a5 : (⟨S256x256, .f32⟩ : BufTy).Contents (Elt F))
    (a6 : (⟨S256, .f32⟩ : BufTy).Contents (Elt F)) : (⟨S6x65536x256, .f32⟩ : BufTy).Contents (Elt F) :=
  relu3 (addf (Host.dotGeneral dot_S6x65536x256_S256x256_S6x65536x256_2_0_01_1_n_n none H a5) (bias3 a6))
def aggr (P : (⟨S6x65536x256, .f32⟩ : BufTy).Contents (Elt F)) : (⟨S65536x256, .f32⟩ : BufTy).Contents (Elt F) :=
  Host.reduceAdd P (constant S_ .f32 0x00000000#32) reducesTo_S6x65536x256_S65536x256_d0 h_S_
def relu2 (x : (⟨S65536x256, .f32⟩ : BufTy).Contents (Elt F)) : (⟨S65536x256, .f32⟩ : BufTy).Contents (Elt F) :=
  maximumf x (broadcastInDim S65536x256 ![] bcast_S_S65536x256 (constant S_ .f32 0x00000000#32))
def bias2 (b : (⟨S256, .f32⟩ : BufTy).Contents (Elt F)) : (⟨S65536x256, .f32⟩ : BufTy).Contents (Elt F) :=
  broadcastInDim S65536x256 ![0, 1] bcast_S1x256_S65536x256_0_1 (broadcastInDim S1x256 ![1] bcast_S256_S1x256_1 b)
def layer3 (A : (⟨S65536x256, .f32⟩ : BufTy).Contents (Elt F)) (a7 : (⟨S256x256, .f32⟩ : BufTy).Contents (Elt F))
    (a8 : (⟨S256, .f32⟩ : BufTy).Contents (Elt F)) : (⟨S65536x256, .f32⟩ : BufTy).Contents (Elt F) :=
  relu2 (addf (Host.dotGeneral dot_S65536x256_S256x256_S65536x256_1_0_0_1_n_n none A a7) (bias2 a8))
def bias4 (b : (⟨S4, .f32⟩ : BufTy).Contents (Elt F)) : (⟨S65536x4, .f32⟩ : BufTy).Contents (Elt F) :=
  broadcastInDim S65536x4 ![0, 1] bcast_S1x4_S65536x4_0_1 (broadcastInDim S1x4 ![1] bcast_S4_S1x4_1 b)
def head (R : (⟨S65536x256, .f32⟩ : BufTy).Contents (Elt F)) (w : (⟨S256x4, .f32⟩ : BufTy).Contents (Elt F))
    (b : (⟨S4, .f32⟩ : BufTy).Contents (Elt F)) : (⟨S65536x4, .f32⟩ : BufTy).Contents (Elt F) :=
  addf (Host.dotGeneral dot_S65536x256_S256x4_S65536x4_1_0_0_1_n_n none R w) (bias4 b)
def clip (x : (⟨S65536x4, .f32⟩ : BufTy).Contents (Elt F)) : (⟨S65536x4, .f32⟩ : BufTy).Contents (Elt F) :=
  minimumf (broadcastInDim S65536x4 ![] bcast_S_S65536x4 (id (constant S_ .f32 0x40000000#32 : (⟨S_, .f32⟩ : BufTy).Contents (Elt F))))
    (maximumf (broadcastInDim S65536x4 ![] bcast_S_S65536x4 (id (constant S_ .f32 0xC1A00000#32 : (⟨S_, .f32⟩ : BufTy).Contents (Elt F)))) x)

/-- The third layer's output from the stacked pair-inputs. -/
def hr (X : (⟨S6x65536x80, .f32⟩ : BufTy).Contents (Elt F)) (a3 : (⟨S80x256, .f32⟩ : BufTy).Contents (Elt F))
    (a4 : (⟨S256, .f32⟩ : BufTy).Contents (Elt F)) (a5 : (⟨S256x256, .f32⟩ : BufTy).Contents (Elt F))
    (a6 : (⟨S256, .f32⟩ : BufTy).Contents (Elt F)) (a7 : (⟨S256x256, .f32⟩ : BufTy).Contents (Elt F))
    (a8 : (⟨S256, .f32⟩ : BufTy).Contents (Elt F)) : (⟨S65536x256, .f32⟩ : BufTy).Contents (Elt F) :=
  layer3 (aggr (layer2 (layer1 X a3 a4) a5 a6)) a7 a8

/-- The reference's first result, from the stacked pair-inputs and the weights. -/
def meanOf (X : (⟨S6x65536x80, .f32⟩ : BufTy).Contents (Elt F)) (a3 : (⟨S80x256, .f32⟩ : BufTy).Contents (Elt F))
    (a4 : (⟨S256, .f32⟩ : BufTy).Contents (Elt F)) (a5 : (⟨S256x256, .f32⟩ : BufTy).Contents (Elt F))
    (a6 : (⟨S256, .f32⟩ : BufTy).Contents (Elt F)) (a7 : (⟨S256x256, .f32⟩ : BufTy).Contents (Elt F))
    (a8 : (⟨S256, .f32⟩ : BufTy).Contents (Elt F)) (a9 : (⟨S256x4, .f32⟩ : BufTy).Contents (Elt F))
    (a10 : (⟨S4, .f32⟩ : BufTy).Contents (Elt F)) : (⟨S65536x4, .f32⟩ : BufTy).Contents (Elt F) :=
  head (hr X a3 a4 a5 a6 a7 a8) a9 a10

/-- The reference's second result, from the stacked pair-inputs and the weights. -/
def logstdOf (X : (⟨S6x65536x80, .f32⟩ : BufTy).Contents (Elt F)) (a3 : (⟨S80x256, .f32⟩ : BufTy).Contents (Elt F))
    (a4 : (⟨S256, .f32⟩ : BufTy).Contents (Elt F)) (a5 : (⟨S256x256, .f32⟩ : BufTy).Contents (Elt F))
    (a6 : (⟨S256, .f32⟩ : BufTy).Contents (Elt F)) (a7 : (⟨S256x256, .f32⟩ : BufTy).Contents (Elt F))
    (a8 : (⟨S256, .f32⟩ : BufTy).Contents (Elt F)) (a11 : (⟨S256x4, .f32⟩ : BufTy).Contents (Elt F))
    (a12 : (⟨S4, .f32⟩ : BufTy).Contents (Elt F)) : (⟨S65536x4, .f32⟩ : BufTy).Contents (Elt F) :=
  clip (head (hr X a3 a4 a5 a6 a7 a8) a11 a12)

end Cert.ReferenceIdeal.RT

end
-- ==== Proof.InpEq.lean ====
/-
  The two programs' pair-input arrays. The kernel program's first launch operand, when the launch is entered, is the
  composed term `KT.inp` of its first three arguments; and on the extended reals, where narrowing a float is the
  identity, that term is the reference's `RT.inp` entry by entry.
-/
import proofs.«105215_j11948599017715_1_alg».proof.Proof.KTerm
import proofs.«105215_j11948599017715_1_alg».proof.Proof.RefTerm
import proofs.«105215_j11948599017715_1_alg».proof.Proof.Gen.KernelIdeal.Launch
import Idealize.ShloMosaic.Lib.StableHlo.Run
import Idealize.ShloMosaic.PureOps.Ideal
import Idealize.ShloMosaic.Lib.Pipeline.Value

noncomputable section

namespace Cert.KernelIdeal.IE

open Idealize.ShloMosaic Idealize.ShloMosaic.TcCoe Idealize.SL.Sem

/-! ## The two concatenations as functions of their operands

A concatenation takes its operands as a list of arrays paired with their shapes. Naming the two concatenations of the
kernel program's text (five column blocks side by side; six pair-inputs stacked) as functions of the operand arrays
lets an equation between operands be carried to the concatenations. -/

section Fold
open Cert.KernelIdeal Cert.KernelIdeal.Gen
variable {α : Type}

/-- Six arrays of one pair-input's shape stacked along a new leading axis. -/
def stack6 (x0 x1 x2 x3 x4 x5 : S1x65536x80.Idx → α) : S6x65536x80.Idx → α :=
  concatenate S6x65536x80 0
    [⟨S1x65536x80, x0⟩, ⟨S1x65536x80, x1⟩, ⟨S1x65536x80, x2⟩, ⟨S1x65536x80, x3⟩, ⟨S1x65536x80, x4⟩, ⟨S1x65536x80, x5⟩]
    concatenates_S1x65536x80_S1x65536x80_S1x65536x80_S1x65536x80_S1x65536x80_S1x65536x80_S6x65536x80_d0

/-- Five column blocks (20, 10, 20, 15 and 15 columns) laid side by side. -/
def cat5 (u0 : S65536x20.Idx → α) (u1 : S65536x10.Idx → α) (u2 : S65536x20.Idx → α) (u3 u4 : S65536x15.Idx → α) :
    S65536x80.Idx → α :=
  concatenate S65536x80 1 [⟨S65536x20, u0⟩, ⟨S65536x10, u1⟩, ⟨S65536x20, u2⟩, ⟨S65536x15, u3⟩, ⟨S65536x15, u4⟩]
    concatenates_S65536x20_S65536x10_S65536x20_S65536x15_S65536x15_S65536x80_d1

/-- The stack of six is `stack6` of its operands. -/
theorem stack6_fold (x0 x1 x2 x3 x4 x5 : S1x65536x80.Idx → α) :
    concatenate S6x65536x80 0
      [⟨S1x65536x80, x0⟩, ⟨S1x65536x80, x1⟩, ⟨S1x65536x80, x2⟩, ⟨S1x65536x80, x3⟩, ⟨S1x65536x80, x4⟩, ⟨S1x65536x80, x5⟩]
      concatenates_S1x65536x80_S1x65536x80_S1x65536x80_S1x65536x80_S1x65536x80_S1x65536x80_S6x65536x80_d0
    = stack6 x0 x1 x2 x3 x4 x5 := rfl

/-- The five blocks side by side are `cat5` of the blocks. -/
theorem cat5_fold (u0 : S65536x20.Idx → α) (u1 : S65536x10.Idx → α) (u2 : S65536x20.Idx → α) (u3 u4 : S65536x15.Idx → α) :
    concatenate S65536x80 1 [⟨S65536x20, u0⟩, ⟨S65536x10, u1⟩, ⟨S65536x20, u2⟩, ⟨S65536x15, u3⟩, ⟨S65536x15, u4⟩]
      concatenates_S65536x20_S65536x10_S65536x20_S65536x15_S65536x15_S65536x80_d1
    = cat5 u0 u1 u2 u3 u4 := rfl

end Fold

open StableHlo in
attribute [local irreducible] Host.gather concatenate broadcastInDim extractStridedSlice select addi constantI in
/-- The launch's first operand after the kernel program's host operations. -/
theorem after_inp {F : FTy → Type} [FloatOps F] (m : (ℓ : Loc Cert.KernelIdeal.nD Cert.KernelIdeal.τ Cert.KernelIdeal.sig) → Buf (Elt F) ℓ)
    (c : Dev Cert.KernelIdeal.nD) :
    StableHlo.after (Cert.KernelIdeal.Gen.hostOps0 (F := F)) (fun b => m (c, b)) (Proc.devRef .tc Cert.KernelIdeal.main_v44)
      = Cert.KernelIdeal.KT.inp (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) := by
  -- each operation's result buffer holds its function of the operand buffers' contents, and every other buffer is
  -- left as it was: the fold over the 55 operations, read at the last result, is the composed term
  simp (disch := decide) only [after_cons, after_nil, stack6_fold, cat5_fold,
      nullary_result', unary_result', binary_result', ternary_result', nary_result',
      nullary_result_ne', unary_result_ne', binary_result_ne', ternary_result_ne', nary_result_ne', Matrix.cons_val]
  rfl

/-! ## Narrowing is the identity on the extended reals

Block by block: a narrowed block of the kernel program's term is the reference's block, the two programs' shape names
being the same literals, their dimension records having the same fields, and their side facts being proofs. -/

/-- On the extended reals a narrowed array is the array. -/
theorem truncf_id {s : Shape} (x : FVec Ideal s .f32) (h : FTy.bits .bf16 < FTy.bits .f32) :
    (truncf .bf16 x h : s.Idx → EReal) = x := rfl

/-- The two programs' literal column tables are the same tables. -/
theorem lit0_eq : Cert.KernelIdeal.lit0 = Cert.ReferenceIdeal.lit0 := rfl
theorem lit1_eq : Cert.KernelIdeal.lit1 = Cert.ReferenceIdeal.lit1 := rfl

attribute [local irreducible] Host.gather concatenate broadcastInDim extractStridedSlice select addi constantI in
/-- The column table of a selection is built the same way in both programs. -/
theorem idxTab_eq (lit : Fin 20 → BitVec 32) :
    Cert.KernelIdeal.KT.idxTab (F := Ideal) lit = Cert.ReferenceIdeal.RT.idxTab (F := Ideal) lit := rfl

attribute [local irreducible] Host.gather concatenate broadcastInDim extractStridedSlice select addi constantI in
/-- The selected columns, narrowed, are the selected columns. -/
theorem gath_eq (x : FVec Ideal Cert.KernelIdeal.S65536x30 .f32) (lit : Fin 20 → BitVec 32) :
    (Cert.KernelIdeal.KT.gath (F := Ideal) x lit : Cert.KernelIdeal.S65536x20.Idx → EReal)
      = Cert.ReferenceIdeal.RT.gath (F := Ideal) x lit := by
  unfold Cert.KernelIdeal.KT.gath Cert.ReferenceIdeal.RT.gath
  rw [truncf_id, idxTab_eq]
  rfl

attribute [local irreducible] Host.gather concatenate broadcastInDim extractStridedSlice select addi constantI in
/-- The body columns, narrowed, are the body columns. -/
theorem body_eq (a0 : FVec Ideal Cert.KernelIdeal.S65536x55 .f32) :
    (Cert.KernelIdeal.KT.body (F := Ideal) a0 : Cert.KernelIdeal.S65536x10.Idx → EReal)
      = Cert.ReferenceIdeal.RT.body (F := Ideal) a0 := by
  unfold Cert.KernelIdeal.KT.body Cert.ReferenceIdeal.RT.body
  rw [truncf_id]

attribute [local irreducible] Host.gather concatenate broadcastInDim extractStridedSlice select addi constantI in
/-- Each object's columns, narrowed, are the object's columns. -/
theorem obj0_eq (a0 : FVec Ideal Cert.KernelIdeal.S65536x55 .f32) :
    (Cert.KernelIdeal.KT.obj0 (F := Ideal) a0 : Cert.KernelIdeal.S65536x15.Idx → EReal)
      = Cert.ReferenceIdeal.RT.obj0 (F := Ideal) a0 := by
  unfold Cert.KernelIdeal.KT.obj0 Cert.ReferenceIdeal.RT.obj0
  rw [truncf_id]

attribute [local irreducible] Host.gather concatenate broadcastInDim extractStridedSlice select addi constantI in
theorem obj1_eq (a0 : FVec Ideal Cert.KernelIdeal.S65536x55 .f32) :
    (Cert.KernelIdeal.KT.obj1 (F := Ideal) a0 : Cert.KernelIdeal.S65536x15.Idx → EReal)
      = Cert.ReferenceIdeal.RT.obj1 (F := Ideal) a0 := by
  unfold Cert.KernelIdeal.KT.obj1 Cert.ReferenceIdeal.RT.obj1
  rw [truncf_id]

attribute [local irreducible] Host.gather concatenate broadcastInDim extractStridedSlice select addi constantI in
theorem obj2_eq (a0 : FVec Ideal Cert.KernelIdeal.S65536x55 .f32) :
    (Cert.KernelIdeal.KT.obj2 (F := Ideal) a0 : Cert.KernelIdeal.S65536x15.Idx → EReal)
      = Cert.ReferenceIdeal.RT.obj2 (F := Ideal) a0 := by
  unfold Cert.KernelIdeal.KT.obj2 Cert.ReferenceIdeal.RT.obj2
  rw [truncf_id]

attribute [local irreducible] Host.gather concatenate broadcastInDim extractStridedSlice select addi constantI in
/-- On the extended reals the two pair-input terms agree at every entry. -/
theorem inp_eq (a0 : FVec Ideal Cert.KernelIdeal.S65536x55 .f32) (a1 a2 : FVec Ideal Cert.KernelIdeal.S65536x30 .f32)
    (i : Cert.KernelIdeal.S6x65536x80.Idx) :
    Cert.KernelIdeal.KT.inp (F := Ideal) a0 a1 a2 i = Cert.ReferenceIdeal.RT.inp (F := Ideal) a0 a1 a2 i := by
  -- as whole arrays: with every block the reference's block, the two terms are the same concatenations of the same
  -- operands
  have e : (Cert.KernelIdeal.KT.inp (F := Ideal) a0 a1 a2 : Cert.KernelIdeal.S6x65536x80.Idx → EReal)
      = Cert.ReferenceIdeal.RT.inp (F := Ideal) a0 a1 a2 := by
    unfold Cert.KernelIdeal.KT.inp Cert.ReferenceIdeal.RT.inp
    rw [← lit0_eq, ← lit1_eq]
    rw [gath_eq a1, gath_eq a2, gath_eq a1, gath_eq a2, body_eq, obj0_eq, obj1_eq, obj2_eq]
    rfl
  exact congrFun e i

end Cert.KernelIdeal.IE

end
-- ==== Proof.KValue.lean ====
/-
  The kernel program's results as arrays. From the frame run, whose post names each output array by the proof data,
  each output array is one function of the arrays the launch finds: grid step `t` writes back rows `4096 t … 4096 t + 4095`,
  each row the row function of `Spec` of the same row of the six pair-input slabs (the weight blocks are the whole
  weight arrays at every step), and the sixteen steps' blocks cover the array. The launch's first operand is the
  composed pair-input term of the first three arguments; every argument is found, and left, as launched.
-/
import proofs.«105215_j11948599017715_1_alg».proof.Proof.KFrameIdeal
import proofs.«105215_j11948599017715_1_alg».proof.Proof.KPayValue
import proofs.«105215_j11948599017715_1_alg».proof.Proof.InpEq
import proofs.«105215_j11948599017715_1_alg».proof.Proof.Spec
import Idealize.ShloMosaic.Lib.Pipeline.Value

set_option maxRecDepth 16384

noncomputable section

namespace Cert.KernelIdeal.KV

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl

/-! ## The index maps, decided over the sixteen steps -/

/-- The pair-input window and the two output windows move along the batch axis with the step; nothing else moves. -/
theorem idx_moving : ∀ t : Fin cfg0.N,
    win0_0.index t (0 : Fin 3) = 0 ∧ win0_0.index t (1 : Fin 3) = t.val ∧ win0_0.index t (2 : Fin 3) = 0
    ∧ win0_11.index t (0 : Fin 2) = t.val ∧ win0_11.index t (1 : Fin 2) = 0
    ∧ win0_12.index t (0 : Fin 2) = t.val ∧ win0_12.index t (1 : Fin 2) = 0 :=
  (by decide +kernel : ∀ t : Fin grid0.N, _)

/-- The matrix weight windows sit at block (0, 0) at every step. -/
theorem idx_mat : ∀ t : Fin cfg0.N,
    (win0_1.index t (0 : Fin 2) = 0 ∧ win0_1.index t (1 : Fin 2) = 0)
    ∧ (win0_3.index t (0 : Fin 2) = 0 ∧ win0_3.index t (1 : Fin 2) = 0)
    ∧ (win0_5.index t (0 : Fin 2) = 0 ∧ win0_5.index t (1 : Fin 2) = 0)
    ∧ (win0_7.index t (0 : Fin 2) = 0 ∧ win0_7.index t (1 : Fin 2) = 0)
    ∧ (win0_9.index t (0 : Fin 2) = 0 ∧ win0_9.index t (1 : Fin 2) = 0) :=
  (by decide +kernel : ∀ t : Fin grid0.N, _)

/-- The bias windows sit at block 0 at every step. -/
theorem idx_vec : ∀ t : Fin cfg0.N,
    win0_2.index t (0 : Fin 1) = 0 ∧ win0_4.index t (0 : Fin 1) = 0 ∧ win0_6.index t (0 : Fin 1) = 0
    ∧ win0_8.index t (0 : Fin 1) = 0 ∧ win0_10.index t (0 : Fin 1) = 0 :=
  (by decide +kernel : ∀ t : Fin grid0.N, _)

theorem t_lt (t : Fin cfg0.N) : t.val < 16 := lt_of_lt_of_eq t.isLt (N_0 : cfg0.N = 16)

theorem row_lt (t : Fin cfg0.N) (r : Fin 4096) : 4096 * t.val + r.val < 65536 := by
  have := t_lt t; have := r.isLt; omega

/-! ## The input blocks -/

/-- A weight matrix's block is the whole array. -/
theorem iblk1 (c : Dev nD) (t : Fin cfg0.N) : (iblk m c 1 t : Vec Ideal S80x256 .f32) = V m c main_arg3 := by
  funext y
  unfold iblk
  rw [View.read_apply]
  show V m c main_arg3 _ = V m c main_arg3 y
  congr 1
  funext a; apply Fin.ext
  obtain ⟨⟨e0, e1⟩, -⟩ := idx_mat t
  match a with
  | ⟨0, _⟩ => show win0_1.index t (0 : Fin 2) * 80 + 1 * (y 0).val = (y 0).val; rw [e0]; omega
  | ⟨1, _⟩ => show win0_1.index t (1 : Fin 2) * 256 + 1 * (y 1).val = (y 1).val; rw [e1]; omega

/-- A weight matrix's block is the whole array. -/
theorem iblk3 (c : Dev nD) (t : Fin cfg0.N) : (iblk m c 3 t : Vec Ideal S256x256 .f32) = V m c main_arg5 := by
  funext y
  unfold iblk
  rw [View.read_apply]
  show V m c main_arg5 _ = V m c main_arg5 y
  congr 1
  funext a; apply Fin.ext
  obtain ⟨-, ⟨e0, e1⟩, -⟩ := idx_mat t
  match a with
  | ⟨0, _⟩ => show win0_3.index t (0 : Fin 2) * 256 + 1 * (y 0).val = (y 0).val; rw [e0]; omega
  | ⟨1, _⟩ => show win0_3.index t (1 : Fin 2) * 256 + 1 * (y 1).val = (y 1).val; rw [e1]; omega

/-- A weight matrix's block is the whole array. -/
theorem iblk5 (c : Dev nD) (t : Fin cfg0.N) : (iblk m c 5 t : Vec Ideal S256x256 .f32) = V m c main_arg7 := by
  funext y
  unfold iblk
  rw [View.read_apply]
  show V m c main_arg7 _ = V m c main_arg7 y
  congr 1
  funext a; apply Fin.ext
  obtain ⟨-, -, ⟨e0, e1⟩, -⟩ := idx_mat t
  match a with
  | ⟨0, _⟩ => show win0_5.index t (0 : Fin 2) * 256 + 1 * (y 0).val = (y 0).val; rw [e0]; omega
  | ⟨1, _⟩ => show win0_5.index t (1 : Fin 2) * 256 + 1 * (y 1).val = (y 1).val; rw [e1]; omega

/-- A weight matrix's block is the whole array. -/
theorem iblk7 (c : Dev nD) (t : Fin cfg0.N) : (iblk m c 7 t : Vec Ideal S256x4 .f32) = V m c main_arg9 := by
  funext y
  unfold iblk
  rw [View.read_apply]
  show V m c main_arg9 _ = V m c main_arg9 y
  congr 1
  funext a; apply Fin.ext
  obtain ⟨-, -, -, ⟨e0, e1⟩, -⟩ := idx_mat t
  match a with
  | ⟨0, _⟩ => show win0_7.index t (0 : Fin 2) * 256 + 1 * (y 0).val = (y 0).val; rw [e0]; omega
  | ⟨1, _⟩ => show win0_7.index t (1 : Fin 2) * 4 + 1 * (y 1).val = (y 1).val; rw [e1]; omega

/-- A weight matrix's block is the whole array. -/
theorem iblk9 (c : Dev nD) (t : Fin cfg0.N) : (iblk m c 9 t : Vec Ideal S256x4 .f32) = V m c main_arg11 := by
  funext y
  unfold iblk
  rw [View.read_apply]
  show V m c main_arg11 _ = V m c main_arg11 y
  congr 1
  funext a; apply Fin.ext
  obtain ⟨-, -, -, -, e0, e1⟩ := idx_mat t
  match a with
  | ⟨0, _⟩ => show win0_9.index t (0 : Fin 2) * 256 + 1 * (y 0).val = (y 0).val; rw [e0]; omega
  | ⟨1, _⟩ => show win0_9.index t (1 : Fin 2) * 4 + 1 * (y 1).val = (y 1).val; rw [e1]; omega

/-- A bias vector's block is the whole array. -/
theorem iblk2 (c : Dev nD) (t : Fin cfg0.N) : (iblk m c 2 t : Vec Ideal S256 .f32) = V m c main_arg4 := by
  funext y
  unfold iblk
  rw [View.read_apply]
  show V m c main_arg4 _ = V m c main_arg4 y
  congr 1
  funext a; apply Fin.ext
  obtain ⟨e0, -⟩ := idx_vec t
  match a with
  | ⟨0, _⟩ => show win0_2.index t (0 : Fin 1) * 256 + 1 * (y 0).val = (y 0).val; rw [e0]; omega

/-- A bias vector's block is the whole array. -/
theorem iblk4 (c : Dev nD) (t : Fin cfg0.N) : (iblk m c 4 t : Vec Ideal S256 .f32) = V m c main_arg6 := by
  funext y
  unfold iblk
  rw [View.read_apply]
  show V m c main_arg6 _ = V m c main_arg6 y
  congr 1
  funext a; apply Fin.ext
  obtain ⟨-, e0, -⟩ := idx_vec t
  match a with
  | ⟨0, _⟩ => show win0_4.index t (0 : Fin 1) * 256 + 1 * (y 0).val = (y 0).val; rw [e0]; omega

/-- A bias vector's block is the whole array. -/
theorem iblk6 (c : Dev nD) (t : Fin cfg0.N) : (iblk m c 6 t : Vec Ideal S256 .f32) = V m c main_arg8 := by
  funext y
  unfold iblk
  rw [View.read_apply]
  show V m c main_arg8 _ = V m c main_arg8 y
  congr 1
  funext a; apply Fin.ext
  obtain ⟨-, -, e0, -⟩ := idx_vec t
  match a with
  | ⟨0, _⟩ => show win0_6.index t (0 : Fin 1) * 256 + 1 * (y 0).val = (y 0).val; rw [e0]; omega

/-- A bias vector's block is the whole array. -/
theorem iblk8 (c : Dev nD) (t : Fin cfg0.N) : (iblk m c 8 t : Vec Ideal S4 .f32) = V m c main_arg10 := by
  funext y
  unfold iblk
  rw [View.read_apply]
  show V m c main_arg10 _ = V m c main_arg10 y
  congr 1
  funext a; apply Fin.ext
  obtain ⟨-, -, -, e0, -⟩ := idx_vec t
  match a with
  | ⟨0, _⟩ => show win0_8.index t (0 : Fin 1) * 4 + 1 * (y 0).val = (y 0).val; rw [e0]; omega

/-- A bias vector's block is the whole array. -/
theorem iblk10 (c : Dev nD) (t : Fin cfg0.N) : (iblk m c 10 t : Vec Ideal S4 .f32) = V m c main_arg12 := by
  funext y
  unfold iblk
  rw [View.read_apply]
  show V m c main_arg12 _ = V m c main_arg12 y
  congr 1
  funext a; apply Fin.ext
  obtain ⟨-, -, -, -, e0⟩ := idx_vec t
  match a with
  | ⟨0, _⟩ => show win0_10.index t (0 : Fin 1) * 4 + 1 * (y 0).val = (y 0).val; rw [e0]; omega

/-- Row `r` of slab `p` of step `t`'s pair-input block is batch row `4096 t + r` of pair-input `p`. -/
theorem iblk0_apply (c : Dev nD) (t : Fin cfg0.N) (p : Fin 6) (r : Fin 4096) (k : Fin 80) :
    (iblk m c 0 t : Vec Ideal S6x4096x80 .bf16) (ix3 p r k) = V m c main_v44 (ix3 p ⟨4096 * t.val + r.val, row_lt t r⟩ k) := by
  unfold iblk
  rw [View.read_apply]
  show V m c main_v44 _ = V m c main_v44 _
  congr 1
  funext a; apply Fin.ext
  obtain ⟨e0, e1, e2, -⟩ := idx_moving t
  match a with
  | ⟨0, _⟩ => show win0_0.index t (0 : Fin 3) * 6 + 1 * p.val = p.val; rw [e0]; omega
  | ⟨1, _⟩ => show win0_0.index t (1 : Fin 3) * 4096 + 1 * r.val = 4096 * t.val + r.val; rw [e1]; omega
  | ⟨2, _⟩ => show win0_0.index t (2 : Fin 3) * 80 + 1 * k.val = k.val; rw [e2]; omega

/-- Entry `(r, j)` of step `t`'s block of the first output array is entry `(4096 t + r, j)` of the array. -/
theorem emb11 (t : Fin cfg0.N) (r : Fin 4096) (j : Fin 4) :
    ((cfg0.win 11).blk t).view.emb (ix2 r j) = (ix2 ⟨4096 * t.val + r.val, row_lt t r⟩ j : S65536x4.Idx) := by
  funext a; apply Fin.ext
  obtain ⟨-, -, -, e0, e1, -⟩ := idx_moving t
  match a with
  | ⟨0, _⟩ => show win0_11.index t (0 : Fin 2) * 4096 + 1 * r.val = 4096 * t.val + r.val; rw [e0]; omega
  | ⟨1, _⟩ => show win0_11.index t (1 : Fin 2) * 4 + 1 * j.val = j.val; rw [e1]; omega

/-- The same for the second output array. -/
theorem emb12 (t : Fin cfg0.N) (r : Fin 4096) (j : Fin 4) :
    ((cfg0.win 12).blk t).view.emb (ix2 r j) = (ix2 ⟨4096 * t.val + r.val, row_lt t r⟩ j : S65536x4.Idx) := by
  funext a; apply Fin.ext
  obtain ⟨-, -, -, -, -, e0, e1⟩ := idx_moving t
  match a with
  | ⟨0, _⟩ => show win0_12.index t (0 : Fin 2) * 4096 + 1 * r.val = 4096 * t.val + r.val; rw [e0]; omega
  | ⟨1, _⟩ => show win0_12.index t (1 : Fin 2) * 4 + 1 * j.val = j.val; rw [e1]; omega

/-! ## The two output arrays -/

/-- Output array one (the mean) as the launch's arrays determine it. -/
abbrev G11 (c : Dev nD) : Buf (Elt Ideal) ((c.tc : Thread nD τ).loc main_v45_0) :=
  Spec.Gmean (V m c main_v44) (V m c main_arg3) (V m c main_arg4) (V m c main_arg5) (V m c main_arg6) (V m c main_arg7) (V m c main_arg8) (V m c main_arg9) (V m c main_arg10)

/-- Step `t` writes back block `t` of that array. -/
theorem flushed11_eq (c : Dev nD) (t : Fin cfg0.N) :
    (dats m 0 c).flushed 11 t = ((cfg0.win 11).blk t).view.read (Elt Ideal) (G11 m c) := by
  show (cfg0.win 11).cut (grid0.coords t) ((dats m 0 c).after 11 t) = _
  rw [after0_11]
  unfold KO.out0_11
  rw [View.canon_unit_zero hz2]
  funext y
  obtain ⟨r, j, rfl⟩ : ∃ (r : Fin 4096) (j : Fin 4), y = ix2 r j := ⟨y 0, y 1, eq_ix2 y⟩
  show KO.meanPay (iblk m c 0 t) (iblk m c 1 t) (iblk m c 2 t) (iblk m c 3 t) (iblk m c 4 t) (iblk m c 5 t) (iblk m c 6 t) (iblk m c 7 t) (iblk m c 8 t) (ix2 r j) = G11 m c (((cfg0.win 11).blk t).view.emb (ix2 r j))
  rw [emb11 t r j]
  refine (KPV.meanPay_apply (iblk m c 0 t) (iblk m c 1 t) (iblk m c 2 t) (iblk m c 3 t) (iblk m c 4 t) (iblk m c 5 t) (iblk m c 6 t) (iblk m c 7 t) (iblk m c 8 t) r j).trans ?_
  rw [iblk1 m c t, iblk2 m c t, iblk3 m c t, iblk4 m c t, iblk5 m c t, iblk6 m c t, iblk7 m c t, iblk8 m c t]
  show _ = Spec.meanRow (fun p k => V m c main_v44 (ix3 p ⟨4096 * t.val + r.val, row_lt t r⟩ k)) (V m c main_arg3) (V m c main_arg4) (V m c main_arg5) (V m c main_arg6) (V m c main_arg7) (V m c main_arg8) (V m c main_arg9) (V m c main_arg10) j
  congr 1
  funext p k
  exact iblk0_apply m c t p r k

/-- The sixteen blocks cover the array: row `b` is in block `b / 4096`. -/
theorem cover11 (i : S65536x4.Idx) : ∃ t : Fin cfg0.N, (cfg0.win 11).flush t = true ∧ i ∈ ((cfg0.win 11).blk t).view.set := by
  have hi0 : (i 0).val < 65536 := (i 0).isLt
  have hi1 : (i 1).val < 4 := (i 1).isLt
  obtain ⟨t, ht⟩ : ∃ t : Fin cfg0.N, t.val = (i 0).val / 4096 :=
    ⟨⟨(i 0).val / 4096, by rw [show cfg0.N = 16 from N_0]; omega⟩, rfl⟩
  refine ⟨t, flush0_11 t, ?_⟩
  show i ∈ ((View.whole main_v45_0).slice (win0_11.rect t)).set
  rw [View.set_slice_whole, Rect.mem_set_unit]
  obtain ⟨-, -, -, e0, e1, -, -⟩ := idx_moving t
  intro a
  match a with
  | ⟨0, _⟩ => show win0_11.index t (0 : Fin 2) * 4096 ≤ (i 0).val ∧ (i 0).val < win0_11.index t (0 : Fin 2) * 4096 + 4096; rw [e0, ht]; omega
  | ⟨1, _⟩ => show win0_11.index t (1 : Fin 2) * 4 ≤ (i 1).val ∧ (i 1).val < win0_11.index t (1 : Fin 2) * 4 + 4; rw [e1]; omega

/-- So the array ends holding it. -/
theorem final11 (c : Dev nD) : (dats m 0 c).arrAt 11 cfg0.N = G11 m c :=
  (dats m 0 c).arrAt_eq_of_cover 11 (G11 m c) (fun t _ => flushed11_eq m c t) (cover11)

/-- Read at the arguments as launched. -/
theorem G11_eq (c : Dev nD) : G11 m c = Spec.Gmean (KT.inp (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold G11
  rw [V_main_arg3 m c, V_main_arg4 m c, V_main_arg5 m c, V_main_arg6 m c, V_main_arg7 m c, V_main_arg8 m c, V_main_arg9 m c, V_main_arg10 m c]
  show Spec.Gmean (StableHlo.after hostOps0 (fun b => m (c, b)) (Proc.devRef .tc main_v44)) _ _ _ _ _ _ _ _ = _
  rw [IE.after_inp m c]

/-- Output array two (the log-deviation) as the launch's arrays determine it. -/
abbrev G12 (c : Dev nD) : Buf (Elt Ideal) ((c.tc : Thread nD τ).loc main_v45_1) :=
  Spec.Glogstd (V m c main_v44) (V m c main_arg3) (V m c main_arg4) (V m c main_arg5) (V m c main_arg6) (V m c main_arg7) (V m c main_arg8) (V m c main_arg11) (V m c main_arg12)

/-- Step `t` writes back block `t` of that array. -/
theorem flushed12_eq (c : Dev nD) (t : Fin cfg0.N) :
    (dats m 0 c).flushed 12 t = ((cfg0.win 12).blk t).view.read (Elt Ideal) (G12 m c) := by
  show (cfg0.win 12).cut (grid0.coords t) ((dats m 0 c).after 12 t) = _
  rw [after0_12]
  unfold KO.out0_12
  rw [View.canon_unit_zero hz2]
  funext y
  obtain ⟨r, j, rfl⟩ : ∃ (r : Fin 4096) (j : Fin 4), y = ix2 r j := ⟨y 0, y 1, eq_ix2 y⟩
  show KO.logstdPay (iblk m c 0 t) (iblk m c 1 t) (iblk m c 2 t) (iblk m c 3 t) (iblk m c 4 t) (iblk m c 5 t) (iblk m c 6 t) (iblk m c 9 t) (iblk m c 10 t) (ix2 r j) = G12 m c (((cfg0.win 12).blk t).view.emb (ix2 r j))
  rw [emb12 t r j]
  refine (KPV.logstdPay_apply (iblk m c 0 t) (iblk m c 1 t) (iblk m c 2 t) (iblk m c 3 t) (iblk m c 4 t) (iblk m c 5 t) (iblk m c 6 t) (iblk m c 9 t) (iblk m c 10 t) r j).trans ?_
  rw [iblk1 m c t, iblk2 m c t, iblk3 m c t, iblk4 m c t, iblk5 m c t, iblk6 m c t, iblk9 m c t, iblk10 m c t]
  show _ = Spec.logstdRow (fun p k => V m c main_v44 (ix3 p ⟨4096 * t.val + r.val, row_lt t r⟩ k)) (V m c main_arg3) (V m c main_arg4) (V m c main_arg5) (V m c main_arg6) (V m c main_arg7) (V m c main_arg8) (V m c main_arg11) (V m c main_arg12) j
  congr 1
  funext p k
  exact iblk0_apply m c t p r k

/-- The sixteen blocks cover the array: row `b` is in block `b / 4096`. -/
theorem cover12 (i : S65536x4.Idx) : ∃ t : Fin cfg0.N, (cfg0.win 12).flush t = true ∧ i ∈ ((cfg0.win 12).blk t).view.set := by
  have hi0 : (i 0).val < 65536 := (i 0).isLt
  have hi1 : (i 1).val < 4 := (i 1).isLt
  obtain ⟨t, ht⟩ : ∃ t : Fin cfg0.N, t.val = (i 0).val / 4096 :=
    ⟨⟨(i 0).val / 4096, by rw [show cfg0.N = 16 from N_0]; omega⟩, rfl⟩
  refine ⟨t, flush0_12 t, ?_⟩
  show i ∈ ((View.whole main_v45_1).slice (win0_12.rect t)).set
  rw [View.set_slice_whole, Rect.mem_set_unit]
  obtain ⟨-, -, -, -, -, e0, e1⟩ := idx_moving t
  intro a
  match a with
  | ⟨0, _⟩ => show win0_12.index t (0 : Fin 2) * 4096 ≤ (i 0).val ∧ (i 0).val < win0_12.index t (0 : Fin 2) * 4096 + 4096; rw [e0, ht]; omega
  | ⟨1, _⟩ => show win0_12.index t (1 : Fin 2) * 4 ≤ (i 1).val ∧ (i 1).val < win0_12.index t (1 : Fin 2) * 4 + 4; rw [e1]; omega

/-- So the array ends holding it. -/
theorem final12 (c : Dev nD) : (dats m 0 c).arrAt 12 cfg0.N = G12 m c :=
  (dats m 0 c).arrAt_eq_of_cover 12 (G12 m c) (fun t _ => flushed12_eq m c t) (cover12)

/-- Read at the arguments as launched. -/
theorem G12_eq (c : Dev nD) : G12 m c = Spec.Glogstd (KT.inp (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  unfold G12
  rw [V_main_arg3 m c, V_main_arg4 m c, V_main_arg5 m c, V_main_arg6 m c, V_main_arg7 m c, V_main_arg8 m c, V_main_arg11 m c, V_main_arg12 m c]
  show Spec.Glogstd (StableHlo.after hostOps0 (fun b => m (c, b)) (Proc.devRef .tc main_v44)) _ _ _ _ _ _ _ _ = _
  rw [IE.after_inp m c]

/-! ## The arguments, and the run -/

theorem kept0 (r : PUnit × MemSt nD τ sig (Elt Ideal)) (h : Pipeline.FramePost cfgs (dats m) 0 (V m) r) (c : Dev nD) :
    r.2.mem ((c.tc : Thread nD τ).loc main_arg0) = m ((c.tc : Thread nD τ).loc main_arg0) :=
  ((h c).2 main_arg0 (by decide)).trans (V_main_arg0 m c)
theorem kept1 (r : PUnit × MemSt nD τ sig (Elt Ideal)) (h : Pipeline.FramePost cfgs (dats m) 0 (V m) r) (c : Dev nD) :
    r.2.mem ((c.tc : Thread nD τ).loc main_arg1) = m ((c.tc : Thread nD τ).loc main_arg1) :=
  ((h c).2 main_arg1 (by decide)).trans (V_main_arg1 m c)
theorem kept2 (r : PUnit × MemSt nD τ sig (Elt Ideal)) (h : Pipeline.FramePost cfgs (dats m) 0 (V m) r) (c : Dev nD) :
    r.2.mem ((c.tc : Thread nD τ).loc main_arg2) = m ((c.tc : Thread nD τ).loc main_arg2) :=
  ((h c).2 main_arg2 (by decide)).trans (V_main_arg2 m c)
theorem kept3 (r : PUnit × MemSt nD τ sig (Elt Ideal)) (h : Pipeline.FramePost cfgs (dats m) 0 (V m) r) (c : Dev nD) :
    r.2.mem ((c.tc : Thread nD τ).loc main_arg3) = m ((c.tc : Thread nD τ).loc main_arg3) :=
  ((h c).1 1).trans (((dats m 0 c).arrAt_in 1 rfl _).trans ((A_eq m c 1).trans (V_main_arg3 m c)))
theorem kept4 (r : PUnit × MemSt nD τ sig (Elt Ideal)) (h : Pipeline.FramePost cfgs (dats m) 0 (V m) r) (c : Dev nD) :
    r.2.mem ((c.tc : Thread nD τ).loc main_arg4) = m ((c.tc : Thread nD τ).loc main_arg4) :=
  ((h c).1 2).trans (((dats m 0 c).arrAt_in 2 rfl _).trans ((A_eq m c 2).trans (V_main_arg4 m c)))
theorem kept5 (r : PUnit × MemSt nD τ sig (Elt Ideal)) (h : Pipeline.FramePost cfgs (dats m) 0 (V m) r) (c : Dev nD) :
    r.2.mem ((c.tc : Thread nD τ).loc main_arg5) = m ((c.tc : Thread nD τ).loc main_arg5) :=
  ((h c).1 3).trans (((dats m 0 c).arrAt_in 3 rfl _).trans ((A_eq m c 3).trans (V_main_arg5 m c)))
theorem kept6 (r : PUnit × MemSt nD τ sig (Elt Ideal)) (h : Pipeline.FramePost cfgs (dats m) 0 (V m) r) (c : Dev nD) :
    r.2.mem ((c.tc : Thread nD τ).loc main_arg6) = m ((c.tc : Thread nD τ).loc main_arg6) :=
  ((h c).1 4).trans (((dats m 0 c).arrAt_in 4 rfl _).trans ((A_eq m c 4).trans (V_main_arg6 m c)))
theorem kept7 (r : PUnit × MemSt nD τ sig (Elt Ideal)) (h : Pipeline.FramePost cfgs (dats m) 0 (V m) r) (c : Dev nD) :
    r.2.mem ((c.tc : Thread nD τ).loc main_arg7) = m ((c.tc : Thread nD τ).loc main_arg7) :=
  ((h c).1 5).trans (((dats m 0 c).arrAt_in 5 rfl _).trans ((A_eq m c 5).trans (V_main_arg7 m c)))
theorem kept8 (r : PUnit × MemSt nD τ sig (Elt Ideal)) (h : Pipeline.FramePost cfgs (dats m) 0 (V m) r) (c : Dev nD) :
    r.2.mem ((c.tc : Thread nD τ).loc main_arg8) = m ((c.tc : Thread nD τ).loc main_arg8) :=
  ((h c).1 6).trans (((dats m 0 c).arrAt_in 6 rfl _).trans ((A_eq m c 6).trans (V_main_arg8 m c)))
theorem kept9 (r : PUnit × MemSt nD τ sig (Elt Ideal)) (h : Pipeline.FramePost cfgs (dats m) 0 (V m) r) (c : Dev nD) :
    r.2.mem ((c.tc : Thread nD τ).loc main_arg9) = m ((c.tc : Thread nD τ).loc main_arg9) :=
  ((h c).1 7).trans (((dats m 0 c).arrAt_in 7 rfl _).trans ((A_eq m c 7).trans (V_main_arg9 m c)))
theorem kept10 (r : PUnit × MemSt nD τ sig (Elt Ideal)) (h : Pipeline.FramePost cfgs (dats m) 0 (V m) r) (c : Dev nD) :
    r.2.mem ((c.tc : Thread nD τ).loc main_arg10) = m ((c.tc : Thread nD τ).loc main_arg10) :=
  ((h c).1 8).trans (((dats m 0 c).arrAt_in 8 rfl _).trans ((A_eq m c 8).trans (V_main_arg10 m c)))
theorem kept11 (r : PUnit × MemSt nD τ sig (Elt Ideal)) (h : Pipeline.FramePost cfgs (dats m) 0 (V m) r) (c : Dev nD) :
    r.2.mem ((c.tc : Thread nD τ).loc main_arg11) = m ((c.tc : Thread nD τ).loc main_arg11) :=
  ((h c).1 9).trans (((dats m 0 c).arrAt_in 9 rfl _).trans ((A_eq m c 9).trans (V_main_arg11 m c)))
theorem kept12 (r : PUnit × MemSt nD τ sig (Elt Ideal)) (h : Pipeline.FramePost cfgs (dats m) 0 (V m) r) (c : Dev nD) :
    r.2.mem ((c.tc : Thread nD τ).loc main_arg12) = m ((c.tc : Thread nD τ).loc main_arg12) :=
  ((h c).1 10).trans (((dats m 0 c).arrAt_in 10 rfl _).trans ((A_eq m c 10).trans (V_main_arg12 m c)))

/-- Every weakly fair execution of the kernel program ends with its two results at `Spec`'s arrays of the composed
    pair-input term and the weights, and with its thirteen arguments unchanged. -/
theorem run : θ_run defs (onTc (τ := τ) (main (F := Ideal))) ⟨m, fun _ => 0, ρ⟩ fun r => ∀ c : Dev nD,
      r.2.mem ((c.tc : Thread nD τ).loc main_v45_0) = Spec.Gmean (KT.inp (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v45_1) = Spec.Glogstd (KT.inp (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r h c => ⟨((h c).1 11).trans ((final11 m c).trans (G11_eq m c)),
      ((h c).1 12).trans ((final12 m c).trans (G12_eq m c)),
      kept0 m r h c, kept1 m r h c, kept2 m r h c, kept3 m r h c, kept4 m r h c, kept5 m r h c, kept6 m r h c, kept7 m r h c, kept8 m r h c, kept9 m r h c, kept10 m r h c, kept11 m r h c, kept12 m r h c⟩)
    (run_main m ρ)

end Cert.KernelIdeal.KV

end
-- ==== Proof.RefRun.lean ====
/-
  The reference program's run: its host operations in order (the three outlined functions' bodies at their calls), and
  what every weakly fair execution ends with — the two results at the composed terms of `RT`, the arguments unchanged.
-/
import proofs.«105215_j11948599017715_1_alg».proof.Proof.RefTerm
import Idealize.ShloMosaic.Lib.StableHlo.Run

noncomputable section

namespace Cert.ReferenceIdeal.RR

open Cert.ReferenceIdeal Cert.ReferenceIdeal.Gen Idealize.ShloMosaic Idealize.ShloMosaic.TcCoe Idealize.SL.Sem Idealize.ShloMosaic.StableHlo

variable {F : FTy → Type} [FloatOps F]

/-- The program's 86 host operations, in order; each outlined function's operations stand at its call, over the call's
    own buffers. -/
abbrev ops : List (HloOp τ sig (Elt F)) :=
  [ nullary main_c (fun i => lit0 (S20.rowMajor i)),
    nullary main_c_0 (constantI S20 1 0#1),
    nullary main_c_1 (constantI S20 1 0#1),
    nullary main_c_2 (fun i => lit1 (S20.rowMajor i)),
    nullary main_c_3 (constantI S20 1 0#1),
    nullary main_c_4 (constantI S20 1 0#1),
    unary main_arg0 main_v0 ((extractStridedSlice S65536x10 ![0, 0] · slices_S65536x55_S65536x10_0_0) : (⟨S65536x55, .f32⟩ : BufTy).Contents (Elt F) → (⟨S65536x10, .f32⟩ : BufTy).Contents (Elt F)),
    unary main_arg0 main_v1 ((extractStridedSlice S65536x15 ![0, 10] · slices_S65536x55_S65536x15_0_10) : (⟨S65536x55, .f32⟩ : BufTy).Contents (Elt F) → (⟨S65536x15, .f32⟩ : BufTy).Contents (Elt F)),
    unary main_arg0 main_v2 ((extractStridedSlice S65536x15 ![0, 25] · slices_S65536x55_S65536x15_0_25) : (⟨S65536x55, .f32⟩ : BufTy).Contents (Elt F) → (⟨S65536x15, .f32⟩ : BufTy).Contents (Elt F)),
    unary main_arg0 main_v3 ((extractStridedSlice S65536x15 ![0, 40] · slices_S65536x55_S65536x15_0_40) : (⟨S65536x55, .f32⟩ : BufTy).Contents (Elt F) → (⟨S65536x15, .f32⟩ : BufTy).Contents (Elt F)),
    nullary main_c_5 (constantI S_ 32 30#32),
    unary main_c_5 main_v4 (broadcastInDim S20 ![] bcast_S_S20 : (⟨S_, .i32⟩ : BufTy).Contents (Elt F) → (⟨S20, .i32⟩ : BufTy).Contents (Elt F)),
    binary main_c main_v4 main_v5 (addi : (⟨S20, .i32⟩ : BufTy).Contents (Elt F) → (⟨S20, .i32⟩ : BufTy).Contents (Elt F) → (⟨S20, .i32⟩ : BufTy).Contents (Elt F)),
    ternary main_c_0 main_v5 main_c main_v6 (select : (⟨S20, .i1⟩ : BufTy).Contents (Elt F) → (⟨S20, .i32⟩ : BufTy).Contents (Elt F) → (⟨S20, .i32⟩ : BufTy).Contents (Elt F) → (⟨S20, .i32⟩ : BufTy).Contents (Elt F)),
    unary main_v6 main_v7 (broadcastInDim S20x1 ![0] bcast_S20_S20x1_0 : (⟨S20, .i32⟩ : BufTy).Contents (Elt F) → (⟨S20x1, .i32⟩ : BufTy).Contents (Elt F)),
    binary main_arg1 main_v7 main_v8 ((fun x i => Host.gather gather_S65536x30_S20x1_S65536x20_0_1_n_n_1_1_655361 x i) : (⟨S65536x30, .f32⟩ : BufTy).Contents (Elt F) → (⟨S20x1, .i32⟩ : BufTy).Contents (Elt F) → (⟨S65536x20, .f32⟩ : BufTy).Contents (Elt F)),
    nullary main_c_6 (constantI S_ 32 30#32),
    unary main_c_6 main_v9 (broadcastInDim S20 ![] bcast_S_S20 : (⟨S_, .i32⟩ : BufTy).Contents (Elt F) → (⟨S20, .i32⟩ : BufTy).Contents (Elt F)),
    binary main_c main_v9 main_v10 (addi : (⟨S20, .i32⟩ : BufTy).Contents (Elt F) → (⟨S20, .i32⟩ : BufTy).Contents (Elt F) → (⟨S20, .i32⟩ : BufTy).Contents (Elt F)),
    ternary main_c_1 main_v10 main_c main_v11 (select : (⟨S20, .i1⟩ : BufTy).Contents (Elt F) → (⟨S20, .i32⟩ : BufTy).Contents (Elt F) → (⟨S20, .i32⟩ : BufTy).Contents (Elt F) → (⟨S20, .i32⟩ : BufTy).Contents (Elt F)),
    unary main_v11 main_v12 (broadcastInDim S20x1 ![0] bcast_S20_S20x1_0 : (⟨S20, .i32⟩ : BufTy).Contents (Elt F) → (⟨S20x1, .i32⟩ : BufTy).Contents (Elt F)),
    binary main_arg2 main_v12 main_v13 ((fun x i => Host.gather gather_S65536x30_S20x1_S65536x20_0_1_n_n_1_1_655361 x i) : (⟨S65536x30, .f32⟩ : BufTy).Contents (Elt F) → (⟨S20x1, .i32⟩ : BufTy).Contents (Elt F) → (⟨S65536x20, .f32⟩ : BufTy).Contents (Elt F)),
    nullary main_c_7 (constantI S_ 32 30#32),
    unary main_c_7 main_v14 (broadcastInDim S20 ![] bcast_S_S20 : (⟨S_, .i32⟩ : BufTy).Contents (Elt F) → (⟨S20, .i32⟩ : BufTy).Contents (Elt F)),
    binary main_c_2 main_v14 main_v15 (addi : (⟨S20, .i32⟩ : BufTy).Contents (Elt F) → (⟨S20, .i32⟩ : BufTy).Contents (Elt F) → (⟨S20, .i32⟩ : BufTy).Contents (Elt F)),
    ternary main_c_3 main_v15 main_c_2 main_v16 (select : (⟨S20, .i1⟩ : BufTy).Contents (Elt F) → (⟨S20, .i32⟩ : BufTy).Contents (Elt F) → (⟨S20, .i32⟩ : BufTy).Contents (Elt F) → (⟨S20, .i32⟩ : BufTy).Contents (Elt F)),
    unary main_v16 main_v17 (broadcastInDim S20x1 ![0] bcast_S20_S20x1_0 : (⟨S20, .i32⟩ : BufTy).Contents (Elt F) → (⟨S20x1, .i32⟩ : BufTy).Contents (Elt F)),
    binary main_arg1 main_v17 main_v18 ((fun x i => Host.gather gather_S65536x30_S20x1_S65536x20_0_1_n_n_1_1_655361 x i) : (⟨S65536x30, .f32⟩ : BufTy).Contents (Elt F) → (⟨S20x1, .i32⟩ : BufTy).Contents (Elt F) → (⟨S65536x20, .f32⟩ : BufTy).Contents (Elt F)),
    nullary main_c_8 (constantI S_ 32 30#32),
    unary main_c_8 main_v19 (broadcastInDim S20 ![] bcast_S_S20 : (⟨S_, .i32⟩ : BufTy).Contents (Elt F) → (⟨S20, .i32⟩ : BufTy).Contents (Elt F)),
    binary main_c_2 main_v19 main_v20 (addi : (⟨S20, .i32⟩ : BufTy).Contents (Elt F) → (⟨S20, .i32⟩ : BufTy).Contents (Elt F) → (⟨S20, .i32⟩ : BufTy).Contents (Elt F)),
    ternary main_c_4 main_v20 main_c_2 main_v21 (select : (⟨S20, .i1⟩ : BufTy).Contents (Elt F) → (⟨S20, .i32⟩ : BufTy).Contents (Elt F) → (⟨S20, .i32⟩ : BufTy).Contents (Elt F) → (⟨S20, .i32⟩ : BufTy).Contents (Elt F)),
    unary main_v21 main_v22 (broadcastInDim S20x1 ![0] bcast_S20_S20x1_0 : (⟨S20, .i32⟩ : BufTy).Contents (Elt F) → (⟨S20x1, .i32⟩ : BufTy).Contents (Elt F)),
    binary main_arg2 main_v22 main_v23 ((fun x i => Host.gather gather_S65536x30_S20x1_S65536x20_0_1_n_n_1_1_655361 x i) : (⟨S65536x30, .f32⟩ : BufTy).Contents (Elt F) → (⟨S20x1, .i32⟩ : BufTy).Contents (Elt F) → (⟨S65536x20, .f32⟩ : BufTy).Contents (Elt F)),
    nary ![main_v8, main_v0, main_v13, main_v1, main_v2] main_v24 (fun u => concatenate S65536x80 1 [⟨S65536x20, u 0⟩, ⟨S65536x10, u 1⟩, ⟨S65536x20, u 2⟩, ⟨S65536x15, u 3⟩, ⟨S65536x15, u 4⟩] concatenates_S65536x20_S65536x10_S65536x20_S65536x15_S65536x15_S65536x80_d1),
    nary ![main_v8, main_v0, main_v13, main_v1, main_v3] main_v25 (fun u => concatenate S65536x80 1 [⟨S65536x20, u 0⟩, ⟨S65536x10, u 1⟩, ⟨S65536x20, u 2⟩, ⟨S65536x15, u 3⟩, ⟨S65536x15, u 4⟩] concatenates_S65536x20_S65536x10_S65536x20_S65536x15_S65536x15_S65536x80_d1),
    nary ![main_v18, main_v0, main_v23, main_v2, main_v1] main_v26 (fun u => concatenate S65536x80 1 [⟨S65536x20, u 0⟩, ⟨S65536x10, u 1⟩, ⟨S65536x20, u 2⟩, ⟨S65536x15, u 3⟩, ⟨S65536x15, u 4⟩] concatenates_S65536x20_S65536x10_S65536x20_S65536x15_S65536x15_S65536x80_d1),
    nary ![main_v8, main_v0, main_v13, main_v2, main_v3] main_v27 (fun u => concatenate S65536x80 1 [⟨S65536x20, u 0⟩, ⟨S65536x10, u 1⟩, ⟨S65536x20, u 2⟩, ⟨S65536x15, u 3⟩, ⟨S65536x15, u 4⟩] concatenates_S65536x20_S65536x10_S65536x20_S65536x15_S65536x15_S65536x80_d1),
    nary ![main_v18, main_v0, main_v23, main_v3, main_v1] main_v28 (fun u => concatenate S65536x80 1 [⟨S65536x20, u 0⟩, ⟨S65536x10, u 1⟩, ⟨S65536x20, u 2⟩, ⟨S65536x15, u 3⟩, ⟨S65536x15, u 4⟩] concatenates_S65536x20_S65536x10_S65536x20_S65536x15_S65536x15_S65536x80_d1),
    nary ![main_v18, main_v0, main_v23, main_v3, main_v2] main_v29 (fun u => concatenate S65536x80 1 [⟨S65536x20, u 0⟩, ⟨S65536x10, u 1⟩, ⟨S65536x20, u 2⟩, ⟨S65536x15, u 3⟩, ⟨S65536x15, u 4⟩] concatenates_S65536x20_S65536x10_S65536x20_S65536x15_S65536x15_S65536x80_d1),
    unary main_v24 main_v30 (broadcastInDim S1x65536x80 ![1, 2] bcast_S65536x80_S1x65536x80_1_2 : (⟨S65536x80, .f32⟩ : BufTy).Contents (Elt F) → (⟨S1x65536x80, .f32⟩ : BufTy).Contents (Elt F)),
    unary main_v25 main_v31 (broadcastInDim S1x65536x80 ![1, 2] bcast_S65536x80_S1x65536x80_1_2 : (⟨S65536x80, .f32⟩ : BufTy).Contents (Elt F) → (⟨S1x65536x80, .f32⟩ : BufTy).Contents (Elt F)),
    unary main_v26 main_v32 (broadcastInDim S1x65536x80 ![1, 2] bcast_S65536x80_S1x65536x80_1_2 : (⟨S65536x80, .f32⟩ : BufTy).Contents (Elt F) → (⟨S1x65536x80, .f32⟩ : BufTy).Contents (Elt F)),
    unary main_v27 main_v33 (broadcastInDim S1x65536x80 ![1, 2] bcast_S65536x80_S1x65536x80_1_2 : (⟨S65536x80, .f32⟩ : BufTy).Contents (Elt F) → (⟨S1x65536x80, .f32⟩ : BufTy).Contents (Elt F)),
    unary main_v28 main_v34 (broadcastInDim S1x65536x80 ![1, 2] bcast_S65536x80_S1x65536x80_1_2 : (⟨S65536x80, .f32⟩ : BufTy).Contents (Elt F) → (⟨S1x65536x80, .f32⟩ : BufTy).Contents (Elt F)),
    unary main_v29 main_v35 (broadcastInDim S1x65536x80 ![1, 2] bcast_S65536x80_S1x65536x80_1_2 : (⟨S65536x80, .f32⟩ : BufTy).Contents (Elt F) → (⟨S1x65536x80, .f32⟩ : BufTy).Contents (Elt F)),
    nary ![main_v30, main_v31, main_v32, main_v33, main_v34, main_v35] main_v36 (fun u => concatenate S6x65536x80 0 [⟨S1x65536x80, u 0⟩, ⟨S1x65536x80, u 1⟩, ⟨S1x65536x80, u 2⟩, ⟨S1x65536x80, u 3⟩, ⟨S1x65536x80, u 4⟩, ⟨S1x65536x80, u 5⟩] concatenates_S1x65536x80_S1x65536x80_S1x65536x80_S1x65536x80_S1x65536x80_S1x65536x80_S6x65536x80_d0),
    binary main_v36 main_arg3 main_v37 ((fun l r => Host.dotGeneral dot_S6x65536x80_S80x256_S6x65536x256_2_0_01_1_n_n none l r) : (⟨S6x65536x80, .f32⟩ : BufTy).Contents (Elt F) → (⟨S80x256, .f32⟩ : BufTy).Contents (Elt F) → (⟨S6x65536x256, .f32⟩ : BufTy).Contents (Elt F)),
    unary main_arg4 main_v38 (broadcastInDim S1x1x256 ![2] bcast_S256_S1x1x256_2 : (⟨S256, .f32⟩ : BufTy).Contents (Elt F) → (⟨S1x1x256, .f32⟩ : BufTy).Contents (Elt F)),
    unary main_v38 main_v39 (broadcastInDim S6x65536x256 ![0, 1, 2] bcast_S1x1x256_S6x65536x256_0_1_2 : (⟨S1x1x256, .f32⟩ : BufTy).Contents (Elt F) → (⟨S6x65536x256, .f32⟩ : BufTy).Contents (Elt F)),
    binary main_v37 main_v39 main_v40 (addf : (⟨S6x65536x256, .f32⟩ : BufTy).Contents (Elt F) → (⟨S6x65536x256, .f32⟩ : BufTy).Contents (Elt F) → (⟨S6x65536x256, .f32⟩ : BufTy).Contents (Elt F)),
    TRef.nullary main_call0.cst (constant S_ .f32 0x00000000#32),
    TRef.unary main_call0.cst main_call0.v0 (broadcastInDim S6x65536x256 ![] bcast_S_S6x65536x256),
    TRef.binary (.of main_v40) main_call0.v0 main_call0.v1 maximumf,
    binary main_v41 main_arg5 main_v42 ((fun l r => Host.dotGeneral dot_S6x65536x256_S256x256_S6x65536x256_2_0_01_1_n_n none l r) : (⟨S6x65536x256, .f32⟩ : BufTy).Contents (Elt F) → (⟨S256x256, .f32⟩ : BufTy).Contents (Elt F) → (⟨S6x65536x256, .f32⟩ : BufTy).Contents (Elt F)),
    unary main_arg6 main_v43 (broadcastInDim S1x1x256 ![2] bcast_S256_S1x1x256_2 : (⟨S256, .f32⟩ : BufTy).Contents (Elt F) → (⟨S1x1x256, .f32⟩ : BufTy).Contents (Elt F)),
    unary main_v43 main_v44 (broadcastInDim S6x65536x256 ![0, 1, 2] bcast_S1x1x256_S6x65536x256_0_1_2 : (⟨S1x1x256, .f32⟩ : BufTy).Contents (Elt F) → (⟨S6x65536x256, .f32⟩ : BufTy).Contents (Elt F)),
    binary main_v42 main_v44 main_v45 (addf : (⟨S6x65536x256, .f32⟩ : BufTy).Contents (Elt F) → (⟨S6x65536x256, .f32⟩ : BufTy).Contents (Elt F) → (⟨S6x65536x256, .f32⟩ : BufTy).Contents (Elt F)),
    TRef.nullary main_call1.cst (constant S_ .f32 0x00000000#32),
    TRef.unary main_call1.cst main_call1.v0 (broadcastInDim S6x65536x256 ![] bcast_S_S6x65536x256),
    TRef.binary (.of main_v45) main_call1.v0 main_call1.v1 maximumf,
    nullary main_cst (constant S_ .f32 0x00000000#32),
    binary main_v46 main_cst main_v47 ((fun x v => Host.reduceAdd x v reducesTo_S6x65536x256_S65536x256_d0 h_S_) : (⟨S6x65536x256, .f32⟩ : BufTy).Contents (Elt F) → (⟨S_, .f32⟩ : BufTy).Contents (Elt F) → (⟨S65536x256, .f32⟩ : BufTy).Contents (Elt F)),
    binary main_v47 main_arg7 main_v48 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    unary main_arg8 main_v49 (broadcastInDim S1x256 ![1] bcast_S256_S1x256_1 : (⟨S256, .f32⟩ : BufTy).Contents (Elt F) → (⟨S1x256, .f32⟩ : BufTy).Contents (Elt F)),
    unary main_v49 main_v50 (broadcastInDim S65536x256 ![0, 1] bcast_S1x256_S65536x256_0_1 : (⟨S1x256, .f32⟩ : BufTy).Contents (Elt F) → (⟨S65536x256, .f32⟩ : BufTy).Contents (Elt F)),
    binary main_v48 main_v50 main_v51 (addf : (⟨S65536x256, .f32⟩ : BufTy).Contents (Elt F) → (⟨S65536x256, .f32⟩ : BufTy).Contents (Elt F) → (⟨S65536x256, .f32⟩ : BufTy).Contents (Elt F)),
    TRef.nullary main_call2.cst (constant S_ .f32 0x00000000#32),
    TRef.unary main_call2.cst main_call2.v0 (broadcastInDim S65536x256 ![] bcast_S_S65536x256),
    TRef.binary (.of main_v51) main_call2.v0 main_call2.v1 maximumf,
    binary main_v52 main_arg9 main_v53 ((fun l r => Host.dotGeneral dot_S65536x256_S256x4_S65536x4_1_0_0_1_n_n none l r) : (⟨S65536x256, .f32⟩ : BufTy).Contents (Elt F) → (⟨S256x4, .f32⟩ : BufTy).Contents (Elt F) → (⟨S65536x4, .f32⟩ : BufTy).Contents (Elt F)),
    unary main_arg10 main_v54 (broadcastInDim S1x4 ![1] bcast_S4_S1x4_1 : (⟨S4, .f32⟩ : BufTy).Contents (Elt F) → (⟨S1x4, .f32⟩ : BufTy).Contents (Elt F)),
    unary main_v54 main_v55 (broadcastInDim S65536x4 ![0, 1] bcast_S1x4_S65536x4_0_1 : (⟨S1x4, .f32⟩ : BufTy).Contents (Elt F) → (⟨S65536x4, .f32⟩ : BufTy).Contents (Elt F)),
    binary main_v53 main_v55 main_v56 (addf : (⟨S65536x4, .f32⟩ : BufTy).Contents (Elt F) → (⟨S65536x4, .f32⟩ : BufTy).Contents (Elt F) → (⟨S65536x4, .f32⟩ : BufTy).Contents (Elt F)),
    binary main_v52 main_arg11 main_v57 ((fun l r => Host.dotGeneral dot_S65536x256_S256x4_S65536x4_1_0_0_1_n_n none l r) : (⟨S65536x256, .f32⟩ : BufTy).Contents (Elt F) → (⟨S256x4, .f32⟩ : BufTy).Contents (Elt F) → (⟨S65536x4, .f32⟩ : BufTy).Contents (Elt F)),
    unary main_arg12 main_v58 (broadcastInDim S1x4 ![1] bcast_S4_S1x4_1 : (⟨S4, .f32⟩ : BufTy).Contents (Elt F) → (⟨S1x4, .f32⟩ : BufTy).Contents (Elt F)),
    unary main_v58 main_v59 (broadcastInDim S65536x4 ![0, 1] bcast_S1x4_S65536x4_0_1 : (⟨S1x4, .f32⟩ : BufTy).Contents (Elt F) → (⟨S65536x4, .f32⟩ : BufTy).Contents (Elt F)),
    binary main_v57 main_v59 main_v60 (addf : (⟨S65536x4, .f32⟩ : BufTy).Contents (Elt F) → (⟨S65536x4, .f32⟩ : BufTy).Contents (Elt F) → (⟨S65536x4, .f32⟩ : BufTy).Contents (Elt F)),
    nullary main_cst_9 (constant S_ .f32 0xC1A00000#32),
    nullary main_cst_10 (constant S_ .f32 0x40000000#32),
    TRef.unary (.of main_cst_9) main_call3.v0 id,
    TRef.unary main_call3.v0 main_call3.v1 (broadcastInDim S65536x4 ![] bcast_S_S65536x4),
    TRef.binary main_call3.v1 (.of main_v60) main_call3.v2 maximumf,
    TRef.unary (.of main_cst_10) main_call3.v3 id,
    TRef.unary main_call3.v3 main_call3.v4 (broadcastInDim S65536x4 ![] bcast_S_S65536x4),
    TRef.binary main_call3.v4 main_call3.v2 main_call3.v5 minimumf ]

set_option maxRecDepth 8192 in
set_option maxHeartbeats 4000000 in
/-- The program is that straight line: the outlined functions unfolded at their calls, the sequencing reassociated. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., nullary_bufs_sub .., nullary_bufs_sub .., nullary_bufs_sub .., nullary_bufs_sub .., unary_bufs_sub .., unary_bufs_sub .., unary_bufs_sub .., unary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., nary_bufs_sub .., nary_bufs_sub .., nary_bufs_sub .., nary_bufs_sub .., nary_bufs_sub .., nary_bufs_sub .., unary_bufs_sub .., unary_bufs_sub .., unary_bufs_sub .., unary_bufs_sub .., unary_bufs_sub .., unary_bufs_sub .., nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub ..⟩

/-- The first 34: the literal tables, the four column blocks of the first argument, the four feature selections. -/
abbrev opsA : List (HloOp τ sig (Elt F)) :=
  [ nullary main_c (fun i => lit0 (S20.rowMajor i)),
    nullary main_c_0 (constantI S20 1 0#1),
    nullary main_c_1 (constantI S20 1 0#1),
    nullary main_c_2 (fun i => lit1 (S20.rowMajor i)),
    nullary main_c_3 (constantI S20 1 0#1),
    nullary main_c_4 (constantI S20 1 0#1),
    unary main_arg0 main_v0 ((extractStridedSlice S65536x10 ![0, 0] · slices_S65536x55_S65536x10_0_0) : (⟨S65536x55, .f32⟩ : BufTy).Contents (Elt F) → (⟨S65536x10, .f32⟩ : BufTy).Contents (Elt F)),
    unary main_arg0 main_v1 ((extractStridedSlice S65536x15 ![0, 10] · slices_S65536x55_S65536x15_0_10) : (⟨S65536x55, .f32⟩ : BufTy).Contents (Elt F) → (⟨S65536x15, .f32⟩ : BufTy).Contents (Elt F)),
    unary main_arg0 main_v2 ((extractStridedSlice S65536x15 ![0, 25] · slices_S65536x55_S65536x15_0_25) : (⟨S65536x55, .f32⟩ : BufTy).Contents (Elt F) → (⟨S65536x15, .f32⟩ : BufTy).Contents (Elt F)),
    unary main_arg0 main_v3 ((extractStridedSlice S65536x15 ![0, 40] · slices_S65536x55_S65536x15_0_40) : (⟨S65536x55, .f32⟩ : BufTy).Contents (Elt F) → (⟨S65536x15, .f32⟩ : BufTy).Contents (Elt F)),
    nullary main_c_5 (constantI S_ 32 30#32),
    unary main_c_5 main_v4 (broadcastInDim S20 ![] bcast_S_S20 : (⟨S_, .i32⟩ : BufTy).Contents (Elt F) → (⟨S20, .i32⟩ : BufTy).Contents (Elt F)),
    binary main_c main_v4 main_v5 (addi : (⟨S20, .i32⟩ : BufTy).Contents (Elt F) → (⟨S20, .i32⟩ : BufTy).Contents (Elt F) → (⟨S20, .i32⟩ : BufTy).Contents (Elt F)),
    ternary main_c_0 main_v5 main_c main_v6 (select : (⟨S20, .i1⟩ : BufTy).Contents (Elt F) → (⟨S20, .i32⟩ : BufTy).Contents (Elt F) → (⟨S20, .i32⟩ : BufTy).Contents (Elt F) → (⟨S20, .i32⟩ : BufTy).Contents (Elt F)),
    unary main_v6 main_v7 (broadcastInDim S20x1 ![0] bcast_S20_S20x1_0 : (⟨S20, .i32⟩ : BufTy).Contents (Elt F) → (⟨S20x1, .i32⟩ : BufTy).Contents (Elt F)),
    binary main_arg1 main_v7 main_v8 ((fun x i => Host.gather gather_S65536x30_S20x1_S65536x20_0_1_n_n_1_1_655361 x i) : (⟨S65536x30, .f32⟩ : BufTy).Contents (Elt F) → (⟨S20x1, .i32⟩ : BufTy).Contents (Elt F) → (⟨S65536x20, .f32⟩ : BufTy).Contents (Elt F)),
    nullary main_c_6 (constantI S_ 32 30#32),
    unary main_c_6 main_v9 (broadcastInDim S20 ![] bcast_S_S20 : (⟨S_, .i32⟩ : BufTy).Contents (Elt F) → (⟨S20, .i32⟩ : BufTy).Contents (Elt F)),
    binary main_c main_v9 main_v10 (addi : (⟨S20, .i32⟩ : BufTy).Contents (Elt F) → (⟨S20, .i32⟩ : BufTy).Contents (Elt F) → (⟨S20, .i32⟩ : BufTy).Contents (Elt F)),
    ternary main_c_1 main_v10 main_c main_v11 (select : (⟨S20, .i1⟩ : BufTy).Contents (Elt F) → (⟨S20, .i32⟩ : BufTy).Contents (Elt F) → (⟨S20, .i32⟩ : BufTy).Contents (Elt F) → (⟨S20, .i32⟩ : BufTy).Contents (Elt F)),
    unary main_v11 main_v12 (broadcastInDim S20x1 ![0] bcast_S20_S20x1_0 : (⟨S20, .i32⟩ : BufTy).Contents (Elt F) → (⟨S20x1, .i32⟩ : BufTy).Contents (Elt F)),
    binary main_arg2 main_v12 main_v13 ((fun x i => Host.gather gather_S65536x30_S20x1_S65536x20_0_1_n_n_1_1_655361 x i) : (⟨S65536x30, .f32⟩ : BufTy).Contents (Elt F) → (⟨S20x1, .i32⟩ : BufTy).Contents (Elt F) → (⟨S65536x20, .f32⟩ : BufTy).Contents (Elt F)),
    nullary main_c_7 (constantI S_ 32 30#32),
    unary main_c_7 main_v14 (broadcastInDim S20 ![] bcast_S_S20 : (⟨S_, .i32⟩ : BufTy).Contents (Elt F) → (⟨S20, .i32⟩ : BufTy).Contents (Elt F)),
    binary main_c_2 main_v14 main_v15 (addi : (⟨S20, .i32⟩ : BufTy).Contents (Elt F) → (⟨S20, .i32⟩ : BufTy).Contents (Elt F) → (⟨S20, .i32⟩ : BufTy).Contents (Elt F)),
    ternary main_c_3 main_v15 main_c_2 main_v16 (select : (⟨S20, .i1⟩ : BufTy).Contents (Elt F) → (⟨S20, .i32⟩ : BufTy).Contents (Elt F) → (⟨S20, .i32⟩ : BufTy).Contents (Elt F) → (⟨S20, .i32⟩ : BufTy).Contents (Elt F)),
    unary main_v16 main_v17 (broadcastInDim S20x1 ![0] bcast_S20_S20x1_0 : (⟨S20, .i32⟩ : BufTy).Contents (Elt F) → (⟨S20x1, .i32⟩ : BufTy).Contents (Elt F)),
    binary main_arg1 main_v17 main_v18 ((fun x i => Host.gather gather_S65536x30_S20x1_S65536x20_0_1_n_n_1_1_655361 x i) : (⟨S65536x30, .f32⟩ : BufTy).Contents (Elt F) → (⟨S20x1, .i32⟩ : BufTy).Contents (Elt F) → (⟨S65536x20, .f32⟩ : BufTy).Contents (Elt F)),
    nullary main_c_8 (constantI S_ 32 30#32),
    unary main_c_8 main_v19 (broadcastInDim S20 ![] bcast_S_S20 : (⟨S_, .i32⟩ : BufTy).Contents (Elt F) → (⟨S20, .i32⟩ : BufTy).Contents (Elt F)),
    binary main_c_2 main_v19 main_v20 (addi : (⟨S20, .i32⟩ : BufTy).Contents (Elt F) → (⟨S20, .i32⟩ : BufTy).Contents (Elt F) → (⟨S20, .i32⟩ : BufTy).Contents (Elt F)),
    ternary main_c_4 main_v20 main_c_2 main_v21 (select : (⟨S20, .i1⟩ : BufTy).Contents (Elt F) → (⟨S20, .i32⟩ : BufTy).Contents (Elt F) → (⟨S20, .i32⟩ : BufTy).Contents (Elt F) → (⟨S20, .i32⟩ : BufTy).Contents (Elt F)),
    unary main_v21 main_v22 (broadcastInDim S20x1 ![0] bcast_S20_S20x1_0 : (⟨S20, .i32⟩ : BufTy).Contents (Elt F) → (⟨S20x1, .i32⟩ : BufTy).Contents (Elt F)),
    binary main_arg2 main_v22 main_v23 ((fun x i => Host.gather gather_S65536x30_S20x1_S65536x20_0_1_n_n_1_1_655361 x i) : (⟨S65536x30, .f32⟩ : BufTy).Contents (Elt F) → (⟨S20x1, .i32⟩ : BufTy).Contents (Elt F) → (⟨S65536x20, .f32⟩ : BufTy).Contents (Elt F)) ]
/-- The next 13: the six pair-inputs side by side, each lifted, and stacked. -/
abbrev opsB : List (HloOp τ sig (Elt F)) :=
  [ nary ![main_v8, main_v0, main_v13, main_v1, main_v2] main_v24 (fun u => concatenate S65536x80 1 [⟨S65536x20, u 0⟩, ⟨S65536x10, u 1⟩, ⟨S65536x20, u 2⟩, ⟨S65536x15, u 3⟩, ⟨S65536x15, u 4⟩] concatenates_S65536x20_S65536x10_S65536x20_S65536x15_S65536x15_S65536x80_d1),
    nary ![main_v8, main_v0, main_v13, main_v1, main_v3] main_v25 (fun u => concatenate S65536x80 1 [⟨S65536x20, u 0⟩, ⟨S65536x10, u 1⟩, ⟨S65536x20, u 2⟩, ⟨S65536x15, u 3⟩, ⟨S65536x15, u 4⟩] concatenates_S65536x20_S65536x10_S65536x20_S65536x15_S65536x15_S65536x80_d1),
    nary ![main_v18, main_v0, main_v23, main_v2, main_v1] main_v26 (fun u => concatenate S65536x80 1 [⟨S65536x20, u 0⟩, ⟨S65536x10, u 1⟩, ⟨S65536x20, u 2⟩, ⟨S65536x15, u 3⟩, ⟨S65536x15, u 4⟩] concatenates_S65536x20_S65536x10_S65536x20_S65536x15_S65536x15_S65536x80_d1),
    nary ![main_v8, main_v0, main_v13, main_v2, main_v3] main_v27 (fun u => concatenate S65536x80 1 [⟨S65536x20, u 0⟩, ⟨S65536x10, u 1⟩, ⟨S65536x20, u 2⟩, ⟨S65536x15, u 3⟩, ⟨S65536x15, u 4⟩] concatenates_S65536x20_S65536x10_S65536x20_S65536x15_S65536x15_S65536x80_d1),
    nary ![main_v18, main_v0, main_v23, main_v3, main_v1] main_v28 (fun u => concatenate S65536x80 1 [⟨S65536x20, u 0⟩, ⟨S65536x10, u 1⟩, ⟨S65536x20, u 2⟩, ⟨S65536x15, u 3⟩, ⟨S65536x15, u 4⟩] concatenates_S65536x20_S65536x10_S65536x20_S65536x15_S65536x15_S65536x80_d1),
    nary ![main_v18, main_v0, main_v23, main_v3, main_v2] main_v29 (fun u => concatenate S65536x80 1 [⟨S65536x20, u 0⟩, ⟨S65536x10, u 1⟩, ⟨S65536x20, u 2⟩, ⟨S65536x15, u 3⟩, ⟨S65536x15, u 4⟩] concatenates_S65536x20_S65536x10_S65536x20_S65536x15_S65536x15_S65536x80_d1),
    unary main_v24 main_v30 (broadcastInDim S1x65536x80 ![1, 2] bcast_S65536x80_S1x65536x80_1_2 : (⟨S65536x80, .f32⟩ : BufTy).Contents (Elt F) → (⟨S1x65536x80, .f32⟩ : BufTy).Contents (Elt F)),
    unary main_v25 main_v31 (broadcastInDim S1x65536x80 ![1, 2] bcast_S65536x80_S1x65536x80_1_2 : (⟨S65536x80, .f32⟩ : BufTy).Contents (Elt F) → (⟨S1x65536x80, .f32⟩ : BufTy).Contents (Elt F)),
    unary main_v26 main_v32 (broadcastInDim S1x65536x80 ![1, 2] bcast_S65536x80_S1x65536x80_1_2 : (⟨S65536x80, .f32⟩ : BufTy).Contents (Elt F) → (⟨S1x65536x80, .f32⟩ : BufTy).Contents (Elt F)),
    unary main_v27 main_v33 (broadcastInDim S1x65536x80 ![1, 2] bcast_S65536x80_S1x65536x80_1_2 : (⟨S65536x80, .f32⟩ : BufTy).Contents (Elt F) → (⟨S1x65536x80, .f32⟩ : BufTy).Contents (Elt F)),
    unary main_v28 main_v34 (broadcastInDim S1x65536x80 ![1, 2] bcast_S65536x80_S1x65536x80_1_2 : (⟨S65536x80, .f32⟩ : BufTy).Contents (Elt F) → (⟨S1x65536x80, .f32⟩ : BufTy).Contents (Elt F)),
    unary main_v29 main_v35 (broadcastInDim S1x65536x80 ![1, 2] bcast_S65536x80_S1x65536x80_1_2 : (⟨S65536x80, .f32⟩ : BufTy).Contents (Elt F) → (⟨S1x65536x80, .f32⟩ : BufTy).Contents (Elt F)),
    nary ![main_v30, main_v31, main_v32, main_v33, main_v34, main_v35] main_v36 (fun u => concatenate S6x65536x80 0 [⟨S1x65536x80, u 0⟩, ⟨S1x65536x80, u 1⟩, ⟨S1x65536x80, u 2⟩, ⟨S1x65536x80, u 3⟩, ⟨S1x65536x80, u 4⟩, ⟨S1x65536x80, u 5⟩] concatenates_S1x65536x80_S1x65536x80_S1x65536x80_S1x65536x80_S1x65536x80_S1x65536x80_S6x65536x80_d0) ]
/-- The last 39: the three rectified layers with the sum over the six between, and the two heads. -/
abbrev opsC : List (HloOp τ sig (Elt F)) :=
  [ binary main_v36 main_arg3 main_v37 ((fun l r => Host.dotGeneral dot_S6x65536x80_S80x256_S6x65536x256_2_0_01_1_n_n none l r) : (⟨S6x65536x80, .f32⟩ : BufTy).Contents (Elt F) → (⟨S80x256, .f32⟩ : BufTy).Contents (Elt F) → (⟨S6x65536x256, .f32⟩ : BufTy).Contents (Elt F)),
    unary main_arg4 main_v38 (broadcastInDim S1x1x256 ![2] bcast_S256_S1x1x256_2 : (⟨S256, .f32⟩ : BufTy).Contents (Elt F) → (⟨S1x1x256, .f32⟩ : BufTy).Contents (Elt F)),
    unary main_v38 main_v39 (broadcastInDim S6x65536x256 ![0, 1, 2] bcast_S1x1x256_S6x65536x256_0_1_2 : (⟨S1x1x256, .f32⟩ : BufTy).Contents (Elt F) → (⟨S6x65536x256, .f32⟩ : BufTy).Contents (Elt F)),
    binary main_v37 main_v39 main_v40 (addf : (⟨S6x65536x256, .f32⟩ : BufTy).Contents (Elt F) → (⟨S6x65536x256, .f32⟩ : BufTy).Contents (Elt F) → (⟨S6x65536x256, .f32⟩ : BufTy).Contents (Elt F)),
    TRef.nullary main_call0.cst (constant S_ .f32 0x00000000#32),
    TRef.unary main_call0.cst main_call0.v0 (broadcastInDim S6x65536x256 ![] bcast_S_S6x65536x256),
    TRef.binary (.of main_v40) main_call0.v0 main_call0.v1 maximumf,
    binary main_v41 main_arg5 main_v42 ((fun l r => Host.dotGeneral dot_S6x65536x256_S256x256_S6x65536x256_2_0_01_1_n_n none l r) : (⟨S6x65536x256, .f32⟩ : BufTy).Contents (Elt F) → (⟨S256x256, .f32⟩ : BufTy).Contents (Elt F) → (⟨S6x65536x256, .f32⟩ : BufTy).Contents (Elt F)),
    unary main_arg6 main_v43 (broadcastInDim S1x1x256 ![2] bcast_S256_S1x1x256_2 : (⟨S256, .f32⟩ : BufTy).Contents (Elt F) → (⟨S1x1x256, .f32⟩ : BufTy).Contents (Elt F)),
    unary main_v43 main_v44 (broadcastInDim S6x65536x256 ![0, 1, 2] bcast_S1x1x256_S6x65536x256_0_1_2 : (⟨S1x1x256, .f32⟩ : BufTy).Contents (Elt F) → (⟨S6x65536x256, .f32⟩ : BufTy).Contents (Elt F)),
    binary main_v42 main_v44 main_v45 (addf : (⟨S6x65536x256, .f32⟩ : BufTy).Contents (Elt F) → (⟨S6x65536x256, .f32⟩ : BufTy).Contents (Elt F) → (⟨S6x65536x256, .f32⟩ : BufTy).Contents (Elt F)),
    TRef.nullary main_call1.cst (constant S_ .f32 0x00000000#32),
    TRef.unary main_call1.cst main_call1.v0 (broadcastInDim S6x65536x256 ![] bcast_S_S6x65536x256),
    TRef.binary (.of main_v45) main_call1.v0 main_call1.v1 maximumf,
    nullary main_cst (constant S_ .f32 0x00000000#32),
    binary main_v46 main_cst main_v47 ((fun x v => Host.reduceAdd x v reducesTo_S6x65536x256_S65536x256_d0 h_S_) : (⟨S6x65536x256, .f32⟩ : BufTy).Contents (Elt F) → (⟨S_, .f32⟩ : BufTy).Contents (Elt F) → (⟨S65536x256, .f32⟩ : BufTy).Contents (Elt F)),
    binary main_v47 main_arg7 main_v48 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    unary main_arg8 main_v49 (broadcastInDim S1x256 ![1] bcast_S256_S1x256_1 : (⟨S256, .f32⟩ : BufTy).Contents (Elt F) → (⟨S1x256, .f32⟩ : BufTy).Contents (Elt F)),
    unary main_v49 main_v50 (broadcastInDim S65536x256 ![0, 1] bcast_S1x256_S65536x256_0_1 : (⟨S1x256, .f32⟩ : BufTy).Contents (Elt F) → (⟨S65536x256, .f32⟩ : BufTy).Contents (Elt F)),
    binary main_v48 main_v50 main_v51 (addf : (⟨S65536x256, .f32⟩ : BufTy).Contents (Elt F) → (⟨S65536x256, .f32⟩ : BufTy).Contents (Elt F) → (⟨S65536x256, .f32⟩ : BufTy).Contents (Elt F)),
    TRef.nullary main_call2.cst (constant S_ .f32 0x00000000#32),
    TRef.unary main_call2.cst main_call2.v0 (broadcastInDim S65536x256 ![] bcast_S_S65536x256),
    TRef.binary (.of main_v51) main_call2.v0 main_call2.v1 maximumf,
    binary main_v52 main_arg9 main_v53 ((fun l r => Host.dotGeneral dot_S65536x256_S256x4_S65536x4_1_0_0_1_n_n none l r) : (⟨S65536x256, .f32⟩ : BufTy).Contents (Elt F) → (⟨S256x4, .f32⟩ : BufTy).Contents (Elt F) → (⟨S65536x4, .f32⟩ : BufTy).Contents (Elt F)),
    unary main_arg10 main_v54 (broadcastInDim S1x4 ![1] bcast_S4_S1x4_1 : (⟨S4, .f32⟩ : BufTy).Contents (Elt F) → (⟨S1x4, .f32⟩ : BufTy).Contents (Elt F)),
    unary main_v54 main_v55 (broadcastInDim S65536x4 ![0, 1] bcast_S1x4_S65536x4_0_1 : (⟨S1x4, .f32⟩ : BufTy).Contents (Elt F) → (⟨S65536x4, .f32⟩ : BufTy).Contents (Elt F)),
    binary main_v53 main_v55 main_v56 (addf : (⟨S65536x4, .f32⟩ : BufTy).Contents (Elt F) → (⟨S65536x4, .f32⟩ : BufTy).Contents (Elt F) → (⟨S65536x4, .f32⟩ : BufTy).Contents (Elt F)),
    binary main_v52 main_arg11 main_v57 ((fun l r => Host.dotGeneral dot_S65536x256_S256x4_S65536x4_1_0_0_1_n_n none l r) : (⟨S65536x256, .f32⟩ : BufTy).Contents (Elt F) → (⟨S256x4, .f32⟩ : BufTy).Contents (Elt F) → (⟨S65536x4, .f32⟩ : BufTy).Contents (Elt F)),
    unary main_arg12 main_v58 (broadcastInDim S1x4 ![1] bcast_S4_S1x4_1 : (⟨S4, .f32⟩ : BufTy).Contents (Elt F) → (⟨S1x4, .f32⟩ : BufTy).Contents (Elt F)),
    unary main_v58 main_v59 (broadcastInDim S65536x4 ![0, 1] bcast_S1x4_S65536x4_0_1 : (⟨S1x4, .f32⟩ : BufTy).Contents (Elt F) → (⟨S65536x4, .f32⟩ : BufTy).Contents (Elt F)),
    binary main_v57 main_v59 main_v60 (addf : (⟨S65536x4, .f32⟩ : BufTy).Contents (Elt F) → (⟨S65536x4, .f32⟩ : BufTy).Contents (Elt F) → (⟨S65536x4, .f32⟩ : BufTy).Contents (Elt F)),
    nullary main_cst_9 (constant S_ .f32 0xC1A00000#32),
    nullary main_cst_10 (constant S_ .f32 0x40000000#32),
    TRef.unary (.of main_cst_9) main_call3.v0 id,
    TRef.unary main_call3.v0 main_call3.v1 (broadcastInDim S65536x4 ![] bcast_S_S65536x4),
    TRef.binary main_call3.v1 (.of main_v60) main_call3.v2 maximumf,
    TRef.unary (.of main_cst_10) main_call3.v3 id,
    TRef.unary main_call3.v3 main_call3.v4 (broadcastInDim S65536x4 ![] bcast_S_S65536x4),
    TRef.binary main_call3.v4 main_call3.v2 main_call3.v5 minimumf ]

theorem ops_split : (ops : List (HloOp τ sig (Elt F))) = opsA ++ (opsB ++ opsC) := rfl

/-- Running two lines one after the other is running the first and then the second from what it left. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! What each stretch leaves, from any contents, at the buffers a later stretch or the claim reads: the first at the four
    column blocks and the four selections, the second at the stacked pair-inputs, the third at the two results; the weights
    pass through the first two untouched. The array operations stay closed throughout: each equation is between the same
    operations applied to the same operands. -/

attribute [local irreducible] Host.gather Host.reduceAdd concatenate broadcastInDim extractStridedSlice maximumf minimumf addf addi select constant constantI in
set_option maxRecDepth 8192 in
theorem A_v0 (V : Valuation τ sig (Elt F)) :
    after opsA V (main_v0 : DevRef τ sig) = RT.body (V (main_arg0 : DevRef τ sig)) := by
  simp only [after_cons, after_nil]
  rfl
attribute [local irreducible] Host.gather Host.reduceAdd concatenate broadcastInDim extractStridedSlice maximumf minimumf addf addi select constant constantI in
set_option maxRecDepth 8192 in
theorem A_v1 (V : Valuation τ sig (Elt F)) :
    after opsA V (main_v1 : DevRef τ sig) = RT.obj0 (V (main_arg0 : DevRef τ sig)) := by
  simp only [after_cons, after_nil]
  rfl
attribute [local irreducible] Host.gather Host.reduceAdd concatenate broadcastInDim extractStridedSlice maximumf minimumf addf addi select constant constantI in
set_option maxRecDepth 8192 in
theorem A_v2 (V : Valuation τ sig (Elt F)) :
    after opsA V (main_v2 : DevRef τ sig) = RT.obj1 (V (main_arg0 : DevRef τ sig)) := by
  simp only [after_cons, after_nil]
  rfl
attribute [local irreducible] Host.gather Host.reduceAdd concatenate broadcastInDim extractStridedSlice maximumf minimumf addf addi select constant constantI in
set_option maxRecDepth 8192 in
theorem A_v3 (V : Valuation τ sig (Elt F)) :
    after opsA V (main_v3 : DevRef τ sig) = RT.obj2 (V (main_arg0 : DevRef τ sig)) := by
  simp only [after_cons, after_nil]
  rfl
attribute [local irreducible] Host.gather Host.reduceAdd concatenate broadcastInDim extractStridedSlice maximumf minimumf addf addi select constant constantI in
set_option maxRecDepth 8192 in
theorem A_v8 (V : Valuation τ sig (Elt F)) :
    after opsA V (main_v8 : DevRef τ sig) = RT.gath (V (main_arg1 : DevRef τ sig)) lit0 := by
  simp only [after_cons, after_nil]
  rfl
attribute [local irreducible] Host.gather Host.reduceAdd concatenate broadcastInDim extractStridedSlice maximumf minimumf addf addi select constant constantI in
set_option maxRecDepth 8192 in
theorem A_v13 (V : Valuation τ sig (Elt F)) :
    after opsA V (main_v13 : DevRef τ sig) = RT.gath (V (main_arg2 : DevRef τ sig)) lit0 := by
  simp only [after_cons, after_nil]
  rfl
attribute [local irreducible] Host.gather Host.reduceAdd concatenate broadcastInDim extractStridedSlice maximumf minimumf addf addi select constant constantI in
set_option maxRecDepth 8192 in
theorem A_v18 (V : Valuation τ sig (Elt F)) :
    after opsA V (main_v18 : DevRef τ sig) = RT.gath (V (main_arg1 : DevRef τ sig)) lit1 := by
  simp only [after_cons, after_nil]
  rfl
attribute [local irreducible] Host.gather Host.reduceAdd concatenate broadcastInDim extractStridedSlice maximumf minimumf addf addi select constant constantI in
set_option maxRecDepth 8192 in
theorem A_v23 (V : Valuation τ sig (Elt F)) :
    after opsA V (main_v23 : DevRef τ sig) = RT.gath (V (main_arg2 : DevRef τ sig)) lit1 := by
  simp only [after_cons, after_nil]
  rfl
attribute [local irreducible] Host.gather Host.reduceAdd concatenate broadcastInDim extractStridedSlice maximumf minimumf addf addi select constant constantI in
set_option maxRecDepth 8192 in
theorem A_arg3 (V : Valuation τ sig (Elt F)) :
    after opsA V (main_arg3 : DevRef τ sig) = V (main_arg3 : DevRef τ sig) := by
  simp only [after_cons, after_nil]
  rfl
attribute [local irreducible] Host.gather Host.reduceAdd concatenate broadcastInDim extractStridedSlice maximumf minimumf addf addi select constant constantI in
set_option maxRecDepth 8192 in
theorem A_arg4 (V : Valuation τ sig (Elt F)) :
    after opsA V (main_arg4 : DevRef τ sig) = V (main_arg4 : DevRef τ sig) := by
  simp only [after_cons, after_nil]
  rfl
attribute [local irreducible] Host.gather Host.reduceAdd concatenate broadcastInDim extractStridedSlice maximumf minimumf addf addi select constant constantI in
set_option maxRecDepth 8192 in
theorem A_arg5 (V : Valuation τ sig (Elt F)) :
    after opsA V (main_arg5 : DevRef τ sig) = V (main_arg5 : DevRef τ sig) := by
  simp only [after_cons, after_nil]
  rfl
attribute [local irreducible] Host.gather Host.reduceAdd concatenate broadcastInDim extractStridedSlice maximumf minimumf addf addi select constant constantI in
set_option maxRecDepth 8192 in
theorem A_arg6 (V : Valuation τ sig (Elt F)) :
    after opsA V (main_arg6 : DevRef τ sig) = V (main_arg6 : DevRef τ sig) := by
  simp only [after_cons, after_nil]
  rfl
attribute [local irreducible] Host.gather Host.reduceAdd concatenate broadcastInDim extractStridedSlice maximumf minimumf addf addi select constant constantI in
set_option maxRecDepth 8192 in
theorem A_arg7 (V : Valuation τ sig (Elt F)) :
    after opsA V (main_arg7 : DevRef τ sig) = V (main_arg7 : DevRef τ sig) := by
  simp only [after_cons, after_nil]
  rfl
attribute [local irreducible] Host.gather Host.reduceAdd concatenate broadcastInDim extractStridedSlice maximumf minimumf addf addi select constant constantI in
set_option maxRecDepth 8192 in
theorem A_arg8 (V : Valuation τ sig (Elt F)) :
    after opsA V (main_arg8 : DevRef τ sig) = V (main_arg8 : DevRef τ sig) := by
  simp only [after_cons, after_nil]
  rfl
attribute [local irreducible] Host.gather Host.reduceAdd concatenate broadcastInDim extractStridedSlice maximumf minimumf addf addi select constant constantI in
set_option maxRecDepth 8192 in
theorem A_arg9 (V : Valuation τ sig (Elt F)) :
    after opsA V (main_arg9 : DevRef τ sig) = V (main_arg9 : DevRef τ sig) := by
  simp only [after_cons, after_nil]
  rfl
attribute [local irreducible] Host.gather Host.reduceAdd concatenate broadcastInDim extractStridedSlice maximumf minimumf addf addi select constant constantI in
set_option maxRecDepth 8192 in
theorem A_arg10 (V : Valuation τ sig (Elt F)) :
    after opsA V (main_arg10 : DevRef τ sig) = V (main_arg10 : DevRef τ sig) := by
  simp only [after_cons, after_nil]
  rfl
attribute [local irreducible] Host.gather Host.reduceAdd concatenate broadcastInDim extractStridedSlice maximumf minimumf addf addi select constant constantI in
set_option maxRecDepth 8192 in
theorem A_arg11 (V : Valuation τ sig (Elt F)) :
    after opsA V (main_arg11 : DevRef τ sig) = V (main_arg11 : DevRef τ sig) := by
  simp only [after_cons, after_nil]
  rfl
attribute [local irreducible] Host.gather Host.reduceAdd concatenate broadcastInDim extractStridedSlice maximumf minimumf addf addi select constant constantI in
set_option maxRecDepth 8192 in
theorem A_arg12 (V : Valuation τ sig (Elt F)) :
    after opsA V (main_arg12 : DevRef τ sig) = V (main_arg12 : DevRef τ sig) := by
  simp only [after_cons, after_nil]
  rfl
attribute [local irreducible] Host.gather Host.reduceAdd concatenate broadcastInDim extractStridedSlice maximumf minimumf addf addi select constant constantI in
set_option maxRecDepth 8192 in
theorem B_v36 (W : Valuation τ sig (Elt F)) :
    after opsB W (main_v36 : DevRef τ sig) = concatenate S6x65536x80 0
      [⟨S1x65536x80, RT.lift3 (RT.cat (W (main_v8 : DevRef τ sig)) (W (main_v0 : DevRef τ sig)) (W (main_v13 : DevRef τ sig)) (W (main_v1 : DevRef τ sig)) (W (main_v2 : DevRef τ sig)))⟩,
       ⟨S1x65536x80, RT.lift3 (RT.cat (W (main_v8 : DevRef τ sig)) (W (main_v0 : DevRef τ sig)) (W (main_v13 : DevRef τ sig)) (W (main_v1 : DevRef τ sig)) (W (main_v3 : DevRef τ sig)))⟩,
       ⟨S1x65536x80, RT.lift3 (RT.cat (W (main_v18 : DevRef τ sig)) (W (main_v0 : DevRef τ sig)) (W (main_v23 : DevRef τ sig)) (W (main_v2 : DevRef τ sig)) (W (main_v1 : DevRef τ sig)))⟩,
       ⟨S1x65536x80, RT.lift3 (RT.cat (W (main_v8 : DevRef τ sig)) (W (main_v0 : DevRef τ sig)) (W (main_v13 : DevRef τ sig)) (W (main_v2 : DevRef τ sig)) (W (main_v3 : DevRef τ sig)))⟩,
       ⟨S1x65536x80, RT.lift3 (RT.cat (W (main_v18 : DevRef τ sig)) (W (main_v0 : DevRef τ sig)) (W (main_v23 : DevRef τ sig)) (W (main_v3 : DevRef τ sig)) (W (main_v1 : DevRef τ sig)))⟩,
       ⟨S1x65536x80, RT.lift3 (RT.cat (W (main_v18 : DevRef τ sig)) (W (main_v0 : DevRef τ sig)) (W (main_v23 : DevRef τ sig)) (W (main_v3 : DevRef τ sig)) (W (main_v2 : DevRef τ sig)))⟩]
      concatenates_S1x65536x80_S1x65536x80_S1x65536x80_S1x65536x80_S1x65536x80_S1x65536x80_S6x65536x80_d0 := by
  simp only [after_cons, after_nil]
  rfl
attribute [local irreducible] Host.gather Host.reduceAdd concatenate broadcastInDim extractStridedSlice maximumf minimumf addf addi select constant constantI in
set_option maxRecDepth 8192 in
theorem B_arg3 (W : Valuation τ sig (Elt F)) :
    after opsB W (main_arg3 : DevRef τ sig) = W (main_arg3 : DevRef τ sig) := by
  simp only [after_cons, after_nil]
  rfl
attribute [local irreducible] Host.gather Host.reduceAdd concatenate broadcastInDim extractStridedSlice maximumf minimumf addf addi select constant constantI in
set_option maxRecDepth 8192 in
theorem B_arg4 (W : Valuation τ sig (Elt F)) :
    after opsB W (main_arg4 : DevRef τ sig) = W (main_arg4 : DevRef τ sig) := by
  simp only [after_cons, after_nil]
  rfl
attribute [local irreducible] Host.gather Host.reduceAdd concatenate broadcastInDim extractStridedSlice maximumf minimumf addf addi select constant constantI in
set_option maxRecDepth 8192 in
theorem B_arg5 (W : Valuation τ sig (Elt F)) :
    after opsB W (main_arg5 : DevRef τ sig) = W (main_arg5 : DevRef τ sig) := by
  simp only [after_cons, after_nil]
  rfl
attribute [local irreducible] Host.gather Host.reduceAdd concatenate broadcastInDim extractStridedSlice maximumf minimumf addf addi select constant constantI in
set_option maxRecDepth 8192 in
theorem B_arg6 (W : Valuation τ sig (Elt F)) :
    after opsB W (main_arg6 : DevRef τ sig) = W (main_arg6 : DevRef τ sig) := by
  simp only [after_cons, after_nil]
  rfl
attribute [local irreducible] Host.gather Host.reduceAdd concatenate broadcastInDim extractStridedSlice maximumf minimumf addf addi select constant constantI in
set_option maxRecDepth 8192 in
theorem B_arg7 (W : Valuation τ sig (Elt F)) :
    after opsB W (main_arg7 : DevRef τ sig) = W (main_arg7 : DevRef τ sig) := by
  simp only [after_cons, after_nil]
  rfl
attribute [local irreducible] Host.gather Host.reduceAdd concatenate broadcastInDim extractStridedSlice maximumf minimumf addf addi select constant constantI in
set_option maxRecDepth 8192 in
theorem B_arg8 (W : Valuation τ sig (Elt F)) :
    after opsB W (main_arg8 : DevRef τ sig) = W (main_arg8 : DevRef τ sig) := by
  simp only [after_cons, after_nil]
  rfl
attribute [local irreducible] Host.gather Host.reduceAdd concatenate broadcastInDim extractStridedSlice maximumf minimumf addf addi select constant constantI in
set_option maxRecDepth 8192 in
theorem B_arg9 (W : Valuation τ sig (Elt F)) :
    after opsB W (main_arg9 : DevRef τ sig) = W (main_arg9 : DevRef τ sig) := by
  simp only [after_cons, after_nil]
  rfl
attribute [local irreducible] Host.gather Host.reduceAdd concatenate broadcastInDim extractStridedSlice maximumf minimumf addf addi select constant constantI in
set_option maxRecDepth 8192 in
theorem B_arg10 (W : Valuation τ sig (Elt F)) :
    after opsB W (main_arg10 : DevRef τ sig) = W (main_arg10 : DevRef τ sig) := by
  simp only [after_cons, after_nil]
  rfl
attribute [local irreducible] Host.gather Host.reduceAdd concatenate broadcastInDim extractStridedSlice maximumf minimumf addf addi select constant constantI in
set_option maxRecDepth 8192 in
theorem B_arg11 (W : Valuation τ sig (Elt F)) :
    after opsB W (main_arg11 : DevRef τ sig) = W (main_arg11 : DevRef τ sig) := by
  simp only [after_cons, after_nil]
  rfl
attribute [local irreducible] Host.gather Host.reduceAdd concatenate broadcastInDim extractStridedSlice maximumf minimumf addf addi select constant constantI in
set_option maxRecDepth 8192 in
theorem B_arg12 (W : Valuation τ sig (Elt F)) :
    after opsB W (main_arg12 : DevRef τ sig) = W (main_arg12 : DevRef τ sig) := by
  simp only [after_cons, after_nil]
  rfl
attribute [local irreducible] Host.gather Host.reduceAdd concatenate broadcastInDim extractStridedSlice maximumf minimumf addf addi select constant constantI in
set_option maxRecDepth 8192 in
theorem C_v56 (W : Valuation τ sig (Elt F)) :
    after opsC W (main_v56 : DevRef τ sig) = RT.meanOf (W (main_v36 : DevRef τ sig)) (W (main_arg3 : DevRef τ sig)) (W (main_arg4 : DevRef τ sig)) (W (main_arg5 : DevRef τ sig)) (W (main_arg6 : DevRef τ sig)) (W (main_arg7 : DevRef τ sig)) (W (main_arg8 : DevRef τ sig)) (W (main_arg9 : DevRef τ sig)) (W (main_arg10 : DevRef τ sig)) := by
  simp only [after_cons, after_nil]
  rfl
attribute [local irreducible] Host.gather Host.reduceAdd concatenate broadcastInDim extractStridedSlice maximumf minimumf addf addi select constant constantI in
set_option maxRecDepth 8192 in
theorem C_v61 (W : Valuation τ sig (Elt F)) :
    after opsC W (main_v61 : DevRef τ sig) = RT.logstdOf (W (main_v36 : DevRef τ sig)) (W (main_arg3 : DevRef τ sig)) (W (main_arg4 : DevRef τ sig)) (W (main_arg5 : DevRef τ sig)) (W (main_arg6 : DevRef τ sig)) (W (main_arg7 : DevRef τ sig)) (W (main_arg8 : DevRef τ sig)) (W (main_arg11 : DevRef τ sig)) (W (main_arg12 : DevRef τ sig)) := by
  simp only [after_cons, after_nil]
  rfl

/-- The first result after the whole line: the three stretches' results composed. -/
theorem out56_eq (V : Valuation τ sig (Elt F)) :
    after ops V (main_v56 : DevRef τ sig) = RT.meanOf (RT.inp (V (main_arg0 : DevRef τ sig)) (V (main_arg1 : DevRef τ sig)) (V (main_arg2 : DevRef τ sig))) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) := by
  rw [ops_split, after_append, after_append, C_v56, B_v36, B_arg3, B_arg4, B_arg5, B_arg6, B_arg7, B_arg8, B_arg9, B_arg10,
    A_v0, A_v1, A_v2, A_v3, A_v8, A_v13, A_v18, A_v23, A_arg3, A_arg4, A_arg5, A_arg6, A_arg7, A_arg8, A_arg9, A_arg10]
  rfl
/-- The second result after the whole line: the three stretches' results composed. -/
theorem out61_eq (V : Valuation τ sig (Elt F)) :
    after ops V (main_v61 : DevRef τ sig) = RT.logstdOf (RT.inp (V (main_arg0 : DevRef τ sig)) (V (main_arg1 : DevRef τ sig)) (V (main_arg2 : DevRef τ sig))) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg11 : DevRef τ sig)) (V (main_arg12 : DevRef τ sig)) := by
  rw [ops_split, after_append, after_append, C_v61, B_v36, B_arg3, B_arg4, B_arg5, B_arg6, B_arg7, B_arg8, B_arg11, B_arg12,
    A_v0, A_v1, A_v2, A_v3, A_v8, A_v13, A_v18, A_v23, A_arg3, A_arg4, A_arg5, A_arg6, A_arg7, A_arg8, A_arg11, A_arg12]
  rfl
/-! No operation of the line writes an argument's buffer. -/

set_option maxRecDepth 8192 in
theorem arg0_eq (V : Valuation τ sig (Elt F)) : after ops V (main_arg0 : DevRef τ sig) = V (main_arg0 : DevRef τ sig) := by
  simp only [after_cons, after_nil]
  rfl
set_option maxRecDepth 8192 in
theorem arg1_eq (V : Valuation τ sig (Elt F)) : after ops V (main_arg1 : DevRef τ sig) = V (main_arg1 : DevRef τ sig) := by
  simp only [after_cons, after_nil]
  rfl
set_option maxRecDepth 8192 in
theorem arg2_eq (V : Valuation τ sig (Elt F)) : after ops V (main_arg2 : DevRef τ sig) = V (main_arg2 : DevRef τ sig) := by
  simp only [after_cons, after_nil]
  rfl
set_option maxRecDepth 8192 in
theorem arg3_eq (V : Valuation τ sig (Elt F)) : after ops V (main_arg3 : DevRef τ sig) = V (main_arg3 : DevRef τ sig) := by
  simp only [after_cons, after_nil]
  rfl
set_option maxRecDepth 8192 in
theorem arg4_eq (V : Valuation τ sig (Elt F)) : after ops V (main_arg4 : DevRef τ sig) = V (main_arg4 : DevRef τ sig) := by
  simp only [after_cons, after_nil]
  rfl
set_option maxRecDepth 8192 in
theorem arg5_eq (V : Valuation τ sig (Elt F)) : after ops V (main_arg5 : DevRef τ sig) = V (main_arg5 : DevRef τ sig) := by
  simp only [after_cons, after_nil]
  rfl
set_option maxRecDepth 8192 in
theorem arg6_eq (V : Valuation τ sig (Elt F)) : after ops V (main_arg6 : DevRef τ sig) = V (main_arg6 : DevRef τ sig) := by
  simp only [after_cons, after_nil]
  rfl
set_option maxRecDepth 8192 in
theorem arg7_eq (V : Valuation τ sig (Elt F)) : after ops V (main_arg7 : DevRef τ sig) = V (main_arg7 : DevRef τ sig) := by
  simp only [after_cons, after_nil]
  rfl
set_option maxRecDepth 8192 in
theorem arg8_eq (V : Valuation τ sig (Elt F)) : after ops V (main_arg8 : DevRef τ sig) = V (main_arg8 : DevRef τ sig) := by
  simp only [after_cons, after_nil]
  rfl
set_option maxRecDepth 8192 in
theorem arg9_eq (V : Valuation τ sig (Elt F)) : after ops V (main_arg9 : DevRef τ sig) = V (main_arg9 : DevRef τ sig) := by
  simp only [after_cons, after_nil]
  rfl
set_option maxRecDepth 8192 in
theorem arg10_eq (V : Valuation τ sig (Elt F)) : after ops V (main_arg10 : DevRef τ sig) = V (main_arg10 : DevRef τ sig) := by
  simp only [after_cons, after_nil]
  rfl
set_option maxRecDepth 8192 in
theorem arg11_eq (V : Valuation τ sig (Elt F)) : after ops V (main_arg11 : DevRef τ sig) = V (main_arg11 : DevRef τ sig) := by
  simp only [after_cons, after_nil]
  rfl
set_option maxRecDepth 8192 in
theorem arg12_eq (V : Valuation τ sig (Elt F)) : after ops V (main_arg12 : DevRef τ sig) = V (main_arg12 : DevRef τ sig) := by
  simp only [after_cons, after_nil]
  rfl

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v56)
        = RT.meanOf (RT.inp (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v61)
        = RT.logstdOf (RT.inp (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v56).trans (out56_eq _), (h c main_v61).trans (out61_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _)⟩)
    (run_seq scopedRefs_eq scopedSems_eq defs main (fun _ => ops) main_eq (fun _ => ops_sub) m ρ)

end Cert.ReferenceIdeal.RR

end
-- ==== Proof.RefValue.lean ====
/-
  The reference's two result terms at an entry, on the extended reals: entry `(b, j)` depends only on batch row `b` of
  the six stacked pair-inputs, through the row function of `Spec`.
-/
import proofs.«105215_j11948599017715_1_alg».proof.Proof.RefTerm
import proofs.«105215_j11948599017715_1_alg».proof.Proof.Spec
import proofs.«105215_j11948599017715_1_alg».proof.Proof.LibDot
import Idealize.ShloMosaic.PureOps.Ideal.Laws
import Idealize.ShloMosaic.Lib.Pipeline.Value
import Idealize.ShloMosaic.Lib.ValueLayout
import Idealize.ShloMosaic.Lib.IdealHost

noncomputable section

open scoped BigOperators

namespace Cert.ReferenceIdeal.RV

open Cert.ReferenceIdeal Cert.ReferenceIdeal.Gen Idealize.ShloMosaic Idealize.ShloMosaic.ValueIdx Idealize.SL.Sem

/-! ## A stack of matrices times one matrix, read at an entry

For dimension numbers that contract the left operand's third axis with the right operand's first and have no batch
axes — a `[G, N, K]` by `[K, M]` product — entry `(g, p, q)` of the result is `∑ₖ l g p k · r k q`. -/

section Dot3

variable {G N K M : Nat} (D : DotDims ⟨3, ![G, N, K]⟩ ⟨2, ![K, M]⟩ ⟨3, ![G, N, M]⟩)

/-- The contraction index set of such a product has one axis … -/
theorem contr_rank3 (hlc : D.lhsContracting = [2]) : D.contr.rank = 1 := by
  rw [D.rank_contr, hlc]; rfl

/-- … of extent `K`. -/
theorem contr_size3 (hlc : D.lhsContracting = [2]) :
    D.contr.size ⟨0, by rw [contr_rank3 D hlc]; exact Nat.one_pos⟩ = K := by
  rw [D.size_contr 0 (by rw [hlc]; exact Nat.one_pos)]
  have : D.lhsContracting[0]'(by rw [hlc]; exact Nat.one_pos) = (2 : Fin 3) := by simp [hlc]
  rw [this]; rfl

/-- A coordinate of `ix3 g p q` at an axis known to be the first. -/
theorem ix3_val_zero {n0 n1 n2 : Nat} (g : Fin n0) (p : Fin n1) (q : Fin n2) (n : Nat) (h : n < 3) (e : n = 0) :
    ((ix3 g p q : (⟨3, ![n0, n1, n2]⟩ : Shape).Idx) ⟨n, h⟩).val = g.val := by subst e; rfl

/-- A coordinate of `ix3 g p q` at an axis known to be the second. -/
theorem ix3_val_one {n0 n1 n2 : Nat} (g : Fin n0) (p : Fin n1) (q : Fin n2) (n : Nat) (h : n < 3) (e : n = 1) :
    ((ix3 g p q : (⟨3, ![n0, n1, n2]⟩ : Shape).Idx) ⟨n, h⟩).val = p.val := by subst e; rfl

/-- A coordinate of `ix3 g p q` at an axis known to be the third. -/
theorem ix3_val_two {n0 n1 n2 : Nat} (g : Fin n0) (p : Fin n1) (q : Fin n2) (n : Nat) (h : n < 3) (e : n = 2) :
    ((ix3 g p q : (⟨3, ![n0, n1, n2]⟩ : Shape).Idx) ⟨n, h⟩).val = q.val := by subst e; rfl

/-- The left operand's stack coordinate at result entry `(g, p, q)` is `g`. -/
theorem lhs3_axis0 (hlb : D.lhsBatch = []) (hln : D.lhsNonContracting = [0, 1]) (g : Fin G) (p : Fin N) (q : Fin M)
    (k : D.contr.Idx) : (D.lhsIdx (ix3 g p q) k 0).val = g.val := by
  unfold DotDims.lhsIdx
  rw [dif_neg (by rw [hlb]; exact List.not_mem_nil), dif_pos (by rw [hln]; exact List.mem_cons_self)]
  simp only [Fin.val_cast]
  exact ix3_val_zero g p q _ _ (by simp [hlb, hln])

/-- The left operand's row at result entry `(g, p, q)` is `p`. -/
theorem lhs3_axis1 (hlb : D.lhsBatch = []) (hln : D.lhsNonContracting = [0, 1]) (g : Fin G) (p : Fin N) (q : Fin M)
    (k : D.contr.Idx) : (D.lhsIdx (ix3 g p q) k 1).val = p.val := by
  unfold DotDims.lhsIdx
  rw [dif_neg (by rw [hlb]; exact List.not_mem_nil), dif_pos (by rw [hln]; exact List.mem_cons_of_mem _ (List.mem_singleton.mpr rfl))]
  simp only [Fin.val_cast]
  exact ix3_val_one g p q _ _ (by simp [hlb, hln])

/-- The right operand's column at result entry `(g, p, q)` is `q`. -/
theorem rhs3_axis1 (hlb : D.lhsBatch = []) (hln : D.lhsNonContracting = [0, 1]) (hrb : D.rhsBatch = [])
    (hrn : D.rhsNonContracting = [1]) (g : Fin G) (p : Fin N) (q : Fin M) (k : D.contr.Idx) :
    (D.rhsIdx (ix3 g p q) k 1).val = q.val := by
  unfold DotDims.rhsIdx
  rw [dif_neg (by rw [hrb]; exact List.not_mem_nil), dif_pos (by rw [hrn]; exact List.mem_singleton.mpr rfl)]
  simp only [Fin.val_cast]
  exact ix3_val_two g p q _ _ (by simp [hlb, hln, hrn])

/-- The contraction sum at an entry is `∑ₖ l (g, p, k) · r (k, q)`. -/
theorem sum_contr3 (hlc : D.lhsContracting = [2]) (hrc : D.rhsContracting = [0]) (hlb : D.lhsBatch = [])
    (hln : D.lhsNonContracting = [0, 1]) (hrb : D.rhsBatch = []) (hrn : D.rhsNonContracting = [1])
    (l : (⟨3, ![G, N, K]⟩ : Shape).Idx → EReal) (r : (⟨2, ![K, M]⟩ : Shape).Idx → EReal) (g : Fin G) (p : Fin N) (q : Fin M) :
    ∑ k : D.contr.Idx, l (D.lhsIdx (ix3 g p q) k) * r (D.rhsIdx (ix3 g p q) k)
      = ∑ k : Fin K, l (ix3 g p k) * r (ix2 k q) := by
  rw [← Equiv.sum_comp (contrEquiv1 D K (contr_rank3 D hlc) (contr_size3 D hlc)).symm]
  refine Finset.sum_congr rfl fun k _ => ?_
  have hk := contrEquiv1_symm_val D K (contr_rank3 D hlc) (contr_size3 D hlc) k
  have el : D.lhsIdx (ix3 g p q) ((contrEquiv1 D K (contr_rank3 D hlc) (contr_size3 D hlc)).symm k) = ix3 g p k :=
    funext fun a => Fin.ext (by
      match a with
      | ⟨0, _⟩ => exact lhs3_axis0 D hlb hln g p q _
      | ⟨1, _⟩ => exact lhs3_axis1 D hlb hln g p q _
      | ⟨2, _⟩ => exact (D.lhsIdx_val_of_single hlc _ _).trans hk)
  have er : D.rhsIdx (ix3 g p q) ((contrEquiv1 D K (contr_rank3 D hlc) (contr_size3 D hlc)).symm k) = ix2 k q :=
    funext fun a => Fin.ext (by
      match a with
      | ⟨0, _⟩ => exact (D.rhsIdx_val_of_single hrc _ _).trans hk
      | ⟨1, _⟩ => exact rhs3_axis1 D hlb hln hrb hrn g p q _)
  rw [el, er]

/-- The host's `dot_general` of a stack by a matrix, at an entry. -/
theorem dotGeneral3_apply (hlc : D.lhsContracting = [2]) (hrc : D.rhsContracting = [0]) (hlb : D.lhsBatch = [])
    (hln : D.lhsNonContracting = [0, 1]) (hrb : D.rhsBatch = []) (hrn : D.rhsNonContracting = [1])
    (prec : Option ContractPrecision) (l : FVec Ideal ⟨3, ![G, N, K]⟩ .f32) (r : FVec Ideal ⟨2, ![K, M]⟩ .f32)
    (g : Fin G) (p : Fin N) (q : Fin M) :
    Host.dotGeneral D prec l r (ix3 g p q) = ∑ k : Fin K, l (ix3 g p k) * r (ix2 k q) := by
  simp only [Host.dotGeneral]
  rw [Ideal.dotGeneral_apply]
  exact sum_contr3 D hlc hrc hlb hln hrb hrn l r g p q

end Dot3

/-! ## The stages of the reference, each read at an entry -/

/-- The bias of a stacked layer reads the bias vector at the entry's last coordinate. -/
theorem bias3_apply (v : FVec Ideal S256 .f32) (p : Fin 6) (b : Fin 65536) (o : Fin 256) :
    RT.bias3 (F := Ideal) v (ix3 p b o) = v (ix1 o) := by
  unfold RT.bias3
  rw [broadcastInDim_apply _ _ _ _ (ix3 (0 : Fin 1) (0 : Fin 1) o) (by
        intro a; match a with | ⟨0, _⟩ => rfl | ⟨1, _⟩ => rfl | ⟨2, _⟩ => rfl),
      broadcastInDim_apply _ _ _ _ (ix1 o) (by intro a; match a with | ⟨0, _⟩ => rfl)]

/-- The bias of a flat 256-wide layer reads the bias vector at the entry's column. -/
theorem bias2_apply (v : FVec Ideal S256 .f32) (b : Fin 65536) (o : Fin 256) :
    RT.bias2 (F := Ideal) v (ix2 b o) = v (ix1 o) := by
  unfold RT.bias2
  rw [broadcastInDim_apply _ _ _ _ (ix2 (0 : Fin 1) o) (by
        intro a; match a with | ⟨0, _⟩ => rfl | ⟨1, _⟩ => rfl),
      broadcastInDim_apply _ _ _ _ (ix1 o) (by intro a; match a with | ⟨0, _⟩ => rfl)]

/-- The bias of a head reads the bias vector at the entry's column. -/
theorem bias4_apply (v : FVec Ideal S4 .f32) (b : Fin 65536) (j : Fin 4) :
    RT.bias4 (F := Ideal) v (ix2 b j) = v (ix1 j) := by
  unfold RT.bias4
  rw [broadcastInDim_apply _ _ _ _ (ix2 (0 : Fin 1) j) (by
        intro a; match a with | ⟨0, _⟩ => rfl | ⟨1, _⟩ => rfl),
      broadcastInDim_apply _ _ _ _ (ix1 j) (by intro a; match a with | ⟨0, _⟩ => rfl)]

/-- Rectification of a stacked array at an entry: the maximum with zero. -/
theorem relu3_apply (x : FVec Ideal S6x65536x256 .f32) (i : S6x65536x256.Idx) :
    RT.relu3 (F := Ideal) x i = max (x i) Spec.zeroF := by
  unfold RT.relu3
  rw [maximumf_apply, broadcastInDim_scalar_apply, constant_apply]

/-- Rectification of a flat array at an entry: the maximum with zero. -/
theorem relu2_apply (x : FVec Ideal S65536x256 .f32) (i : S65536x256.Idx) :
    RT.relu2 (F := Ideal) x i = max (x i) Spec.zeroF := by
  unfold RT.relu2
  rw [maximumf_apply, broadcastInDim_scalar_apply, constant_apply]

/-- The clip at an entry: the minimum with 2 of the maximum with -20. -/
theorem clip_apply (x : FVec Ideal S65536x4 .f32) (i : S65536x4.Idx) :
    RT.clip (F := Ideal) x i = min Spec.hiF (max Spec.loF (x i)) := by
  unfold RT.clip
  rw [minimumf_apply, maximumf_apply, broadcastInDim_scalar_apply, broadcastInDim_scalar_apply]
  rfl

/-- The first shared layer at entry `(p, b, o)`: row `b` of pair-input `p` against column `o`, biased, rectified. -/
theorem layer1_apply (X : FVec Ideal S6x65536x80 .f32) (a3 : FVec Ideal S80x256 .f32) (a4 : FVec Ideal S256 .f32)
    (p : Fin 6) (b : Fin 65536) (o : Fin 256) :
    RT.layer1 (F := Ideal) X a3 a4 (ix3 p b o)
      = max ((∑ k : Fin 80, X (ix3 p b k) * a3 (ix2 k o)) + a4 (ix1 o)) Spec.zeroF := by
  unfold RT.layer1
  rw [relu3_apply, addf_apply, bias3_apply,
    dotGeneral3_apply dot_S6x65536x80_S80x256_S6x65536x256_2_0_01_1_n_n rfl rfl rfl rfl rfl rfl]

/-- The second shared layer at entry `(p, b, o)`. -/
theorem layer2_apply (H : FVec Ideal S6x65536x256 .f32) (a5 : FVec Ideal S256x256 .f32) (a6 : FVec Ideal S256 .f32)
    (p : Fin 6) (b : Fin 65536) (o : Fin 256) :
    RT.layer2 (F := Ideal) H a5 a6 (ix3 p b o)
      = max ((∑ h : Fin 256, H (ix3 p b h) * a5 (ix2 h o)) + a6 (ix1 o)) Spec.zeroF := by
  unfold RT.layer2
  rw [relu3_apply, addf_apply, bias3_apply,
    dotGeneral3_apply dot_S6x65536x256_S256x256_S6x65536x256_2_0_01_1_n_n rfl rfl rfl rfl rfl rfl]

/-- The reduction's shape fact with the inserted index named. -/
theorem reduces_d0 : Shape.Reduces S6x65536x256 [0] S65536x256 := by decide

/-- The index `(b, o)` with `p` inserted on the summed axis is `(p, b, o)`. -/
theorem lift_d0 (b : Fin 65536) (o : Fin 256) (p : Fin 6) :
    reduces_d0.lift (ix2 b o) p = ix3 p b o :=
  funext fun a => Fin.ext (by
    match a with
    | ⟨0, _⟩ => rfl
    | ⟨1, _⟩ => rfl
    | ⟨2, _⟩ => rfl)

/-- The sum over the six pair-inputs at entry `(b, o)`, from zero. -/
theorem aggr_apply (P : FVec Ideal S6x65536x256 .f32) (b : Fin 65536) (o : Fin 256) :
    RT.aggr (F := Ideal) P (ix2 b o) = Spec.zeroF + ∑ p : Fin 6, P (ix3 p b o) := by
  unfold RT.aggr
  rw [hostReduceAdd_apply, Ideal.hostReduceAdd_single _ reduces_d0, constant_apply]
  show Spec.zeroF + ∑ p : Fin 6, P (reduces_d0.lift (ix2 b o) p) = _
  simp only [lift_d0]

/-- The third layer at entry `(b, o)`. -/
theorem layer3_apply (A : FVec Ideal S65536x256 .f32) (a7 : FVec Ideal S256x256 .f32) (a8 : FVec Ideal S256 .f32)
    (b : Fin 65536) (o : Fin 256) :
    RT.layer3 (F := Ideal) A a7 a8 (ix2 b o)
      = max ((∑ h : Fin 256, A (ix2 b h) * a7 (ix2 h o)) + a8 (ix1 o)) Spec.zeroF := by
  unfold RT.layer3
  rw [relu2_apply, addf_apply, bias2_apply,
    Cert.LibDot.dotGeneral_apply dot_S65536x256_S256x256_S65536x256_1_0_0_1_n_n rfl rfl rfl rfl rfl rfl]

/-- A head at entry `(b, j)`. -/
theorem head_apply (R : FVec Ideal S65536x256 .f32) (w : FVec Ideal S256x4 .f32) (c : FVec Ideal S4 .f32)
    (b : Fin 65536) (j : Fin 4) :
    RT.head (F := Ideal) R w c (ix2 b j) = (∑ h : Fin 256, R (ix2 b h) * w (ix2 h j)) + c (ix1 j) := by
  unfold RT.head
  rw [addf_apply, bias4_apply,
    Cert.LibDot.dotGeneral_apply dot_S65536x256_S256x4_S65536x4_1_0_0_1_n_n rfl rfl rfl rfl rfl rfl]

/-! ## The stages composed: the row functions -/

section Compose

variable (X : FVec Ideal S6x65536x80 .f32) (a3 : FVec Ideal S80x256 .f32) (a4 : FVec Ideal S256 .f32)
  (a5 : FVec Ideal S256x256 .f32) (a6 : FVec Ideal S256 .f32) (a7 : FVec Ideal S256x256 .f32) (a8 : FVec Ideal S256 .f32)

/-- The first layer's entry `(p, b, o)` is the row function's first layer on pair-input `p` of row `b`. -/
theorem layer1_eq_hid (p : Fin 6) (b : Fin 65536) (o : Fin 256) :
    RT.layer1 (F := Ideal) X a3 a4 (ix3 p b o) = Spec.hid (fun p k => X (ix3 p b k)) a3 a4 p o := by
  rw [layer1_apply]; rfl

/-- The second layer's entry `(p, b, o)` is the row function's pair feature. -/
theorem layer2_eq_phi (p : Fin 6) (b : Fin 65536) (o : Fin 256) :
    RT.layer2 (F := Ideal) (RT.layer1 (F := Ideal) X a3 a4) a5 a6 (ix3 p b o)
      = Spec.phi (fun p k => X (ix3 p b k)) a3 a4 a5 a6 p o := by
  rw [layer2_apply]
  simp only [layer1_eq_hid]
  rfl

/-- The summed features at entry `(b, o)`. -/
theorem aggr_eq_agg (b : Fin 65536) (o : Fin 256) :
    RT.aggr (F := Ideal) (RT.layer2 (F := Ideal) (RT.layer1 (F := Ideal) X a3 a4) a5 a6) (ix2 b o)
      = Spec.agg (fun p k => X (ix3 p b k)) a3 a4 a5 a6 o := by
  rw [aggr_apply]
  simp only [layer2_eq_phi]
  rfl

/-- The third layer's entry `(b, o)`. -/
theorem hr_eq_rho (b : Fin 65536) (o : Fin 256) :
    RT.hr (F := Ideal) X a3 a4 a5 a6 a7 a8 (ix2 b o)
      = Spec.rho (fun p k => X (ix3 p b k)) a3 a4 a5 a6 a7 a8 o := by
  unfold RT.hr
  rw [layer3_apply]
  simp only [aggr_eq_agg]
  rfl

end Compose

theorem meanOf_apply (X : FVec Ideal S6x65536x80 .f32) (a3 : FVec Ideal S80x256 .f32) (a4 : FVec Ideal S256 .f32) (a5 : FVec Ideal S256x256 .f32)
    (a6 : FVec Ideal S256 .f32) (a7 : FVec Ideal S256x256 .f32) (a8 : FVec Ideal S256 .f32) (a9 : FVec Ideal S256x4 .f32) (a10 : FVec Ideal S4 .f32)
    (b : Fin 65536) (j : Fin 4) :
    RT.meanOf (F := Ideal) X a3 a4 a5 a6 a7 a8 a9 a10 (ix2 b j)
      = Spec.meanRow (fun p k => X (ix3 p b k)) a3 a4 a5 a6 a7 a8 a9 a10 j := by
  unfold RT.meanOf
  rw [head_apply]
  simp only [hr_eq_rho]
  rfl

theorem logstdOf_apply (X : FVec Ideal S6x65536x80 .f32) (a3 : FVec Ideal S80x256 .f32) (a4 : FVec Ideal S256 .f32) (a5 : FVec Ideal S256x256 .f32)
    (a6 : FVec Ideal S256 .f32) (a7 : FVec Ideal S256x256 .f32) (a8 : FVec Ideal S256 .f32) (a11 : FVec Ideal S256x4 .f32) (a12 : FVec Ideal S4 .f32)
    (b : Fin 65536) (j : Fin 4) :
    RT.logstdOf (F := Ideal) X a3 a4 a5 a6 a7 a8 a11 a12 (ix2 b j)
      = Spec.logstdRow (fun p k => X (ix3 p b k)) a3 a4 a5 a6 a7 a8 a11 a12 j := by
  unfold RT.logstdOf
  rw [clip_apply, head_apply]
  simp only [hr_eq_rho]
  rfl

end Cert.ReferenceIdeal.RV

end
-- ==== Proof.lean ====
/-
  The certificate. Both programs compute, for every batch row, the same row function of the same six pair-inputs:
  five column blocks of the inputs side by side (two selections of goal features, the body, two of the three objects),
  a shared two-layer rectified perceptron on each pair, the sum over the six pairs, a third rectified layer, an affine
  mean head and an affine log-deviation head clipped to [-20, 2]. The kernel program narrows its pair-inputs and weights
  to a 16-bit format and multiplies blockwise over sixteen grid steps; on the extended reals narrowing is the identity,
  a product into the zero accumulator is the plain sum over the contracted index, and the running sum over the pairs is
  the reference's reduction, so the two result arrays are one array (`Spec.Gmean`, `Spec.Glogstd`). No rewrite was
  applied when the kernel was idealized, so there is nothing to preserve. Each program's frame is its run with the
  results dropped.
-/
import proofs.«105215_j11948599017715_1_alg».proof.Defs
import proofs.«105215_j11948599017715_1_alg».proof.Proof.Gen.Kernel
import proofs.«105215_j11948599017715_1_alg».proof.Proof.Gen.KernelIdeal
import proofs.«105215_j11948599017715_1_alg».proof.Proof.Gen.ReferenceIdeal
import proofs.«105215_j11948599017715_1_alg».proof.Proof.Gen.Pre_finite_inputs
import proofs.«105215_j11948599017715_1_alg».proof.Proof.KFrameBits
import proofs.«105215_j11948599017715_1_alg».proof.Proof.KFrameIdeal
import proofs.«105215_j11948599017715_1_alg».proof.Proof.KValue
import proofs.«105215_j11948599017715_1_alg».proof.Proof.RefRun
import proofs.«105215_j11948599017715_1_alg».proof.Proof.RefValue
import proofs.«105215_j11948599017715_1_alg».proof.Proof.InpEq
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ =>
  (θ_run Cert.ReferenceIdeal.defs _ _).mono (fun _ h c => (h c).2.2) (Cert.ReferenceIdeal.RR.run (F := Ideal) m ρ)

theorem preserves : Cert.preserves_Kernel_KernelIdeal := trivial

/-- The reference's first result term is `Spec.Gmean` of its stacked pair-inputs. -/
theorem ref_mean (X : FVec Ideal Cert.ReferenceIdeal.S6x65536x80 .f32) (a3 : FVec Ideal Cert.ReferenceIdeal.S80x256 .f32)
    (a4 : FVec Ideal Cert.ReferenceIdeal.S256 .f32) (a5 : FVec Ideal Cert.ReferenceIdeal.S256x256 .f32) (a6 : FVec Ideal Cert.ReferenceIdeal.S256 .f32)
    (a7 : FVec Ideal Cert.ReferenceIdeal.S256x256 .f32) (a8 : FVec Ideal Cert.ReferenceIdeal.S256 .f32)
    (a9 : FVec Ideal Cert.ReferenceIdeal.S256x4 .f32) (a10 : FVec Ideal Cert.ReferenceIdeal.S4 .f32) :
    Cert.ReferenceIdeal.RT.meanOf (F := Ideal) X a3 a4 a5 a6 a7 a8 a9 a10 = Cert.Spec.Gmean X a3 a4 a5 a6 a7 a8 a9 a10 := by
  funext i
  obtain ⟨b, j, rfl⟩ : ∃ (b : Fin 65536) (j : Fin 4), i = ix2 b j := ⟨i 0, i 1, eq_ix2 i⟩
  exact Cert.ReferenceIdeal.RV.meanOf_apply X a3 a4 a5 a6 a7 a8 a9 a10 b j

/-- The reference's second result term is `Spec.Glogstd` of its stacked pair-inputs. -/
theorem ref_logstd (X : FVec Ideal Cert.ReferenceIdeal.S6x65536x80 .f32) (a3 : FVec Ideal Cert.ReferenceIdeal.S80x256 .f32)
    (a4 : FVec Ideal Cert.ReferenceIdeal.S256 .f32) (a5 : FVec Ideal Cert.ReferenceIdeal.S256x256 .f32) (a6 : FVec Ideal Cert.ReferenceIdeal.S256 .f32)
    (a7 : FVec Ideal Cert.ReferenceIdeal.S256x256 .f32) (a8 : FVec Ideal Cert.ReferenceIdeal.S256 .f32)
    (a11 : FVec Ideal Cert.ReferenceIdeal.S256x4 .f32) (a12 : FVec Ideal Cert.ReferenceIdeal.S4 .f32) :
    Cert.ReferenceIdeal.RT.logstdOf (F := Ideal) X a3 a4 a5 a6 a7 a8 a11 a12 = Cert.Spec.Glogstd X a3 a4 a5 a6 a7 a8 a11 a12 := by
  funext i
  obtain ⟨b, j, rfl⟩ : ∃ (b : Fin 65536) (j : Fin 4), i = ix2 b j := ⟨i 0, i 1, eq_ix2 i⟩
  exact Cert.ReferenceIdeal.RV.logstdOf_apply X a3 a4 a5 a6 a7 a8 a11 a12 b j

/-- The two programs' stacked pair-input terms are one array on the extended reals. -/
theorem inp_same (a0 : FVec Ideal Cert.KernelIdeal.S65536x55 .f32) (a1 a2 : FVec Ideal Cert.KernelIdeal.S65536x30 .f32) :
    (Cert.ReferenceIdeal.RT.inp (F := Ideal) a0 a1 a2 : Cert.Spec.T6x65536x80.Idx → EReal)
      = (Cert.KernelIdeal.KT.inp (F := Ideal) a0 a1 a2 : Cert.Spec.T6x65536x80.Idx → EReal) :=
  funext fun i => (Cert.KernelIdeal.IE.inp_eq a0 a1 a2 i).symm

theorem algebraic : Cert.algebraic_KernelIdeal_ReferenceIdeal := by
  intro m ρ m' ρ' _ hagree
  refine ⟨fun c => Cert.Spec.Gmean (Cert.KernelIdeal.KT.inp (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.Spec.Glogstd (Cert.KernelIdeal.KT.inp (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    Cert.KernelIdeal.KV.run m ρ, ?_⟩
  refine (θ_run Cert.ReferenceIdeal.defs _ _).mono (fun _ h c => ?_) (Cert.ReferenceIdeal.RR.run (F := Ideal) m' ρ')
  obtain ⟨h0, h1, h2, h3, h4, h5, h6, h7, h8, h9, h10, h11, h12⟩ := hagree c
  refine ⟨(h c).1.trans ?_, (h c).2.1.trans ?_, (h c).2.2⟩
  · rw [ref_mean, h0, h1, h2, h3, h4, h5, h6, h7, h8, h9, h10, inp_same]
  · rw [ref_logstd, h0, h1, h2, h3, h4, h5, h6, h7, h8, h11, h12, inp_same]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
